-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_v50) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S512 : Shape := ⟨1, ![512]⟩
abbrev S128x512 : Shape := ⟨2, ![128, 512]⟩
abbrev S128 : Shape := ⟨1, ![128]⟩
abbrev S1024 : Shape := ⟨1, ![1024]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S512 : S_.BroadcastsInDim S512 (![] : Fin 0 → Fin S512.rank)
  reducesTo_S512_S_d0 : S512.ReducesTo [0] S_
  bcast_S_S128x512 : S_.BroadcastsInDim S128x512 (![] : Fin 0 → Fin S128x512.rank)
  reducesTo_S128x512_S_d0_1 : S128x512.ReducesTo [0, 1] S_
  bcast_S_S128 : S_.BroadcastsInDim S128 (![] : Fin 0 → Fin S128.rank)
  reducesTo_S128_S_d0 : S128.ReducesTo [0] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S128 .f32) (main_arg5 : FVec F S512 .f32) (main_arg6 : FVec F S1024 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S512x1024 .f32) (main_arg1 : FVec F S512x1024 .f32) (main_arg2 : FVec F S512 .f32) (main_arg3 : FVec F S128x512 .f32) (main_arg4 : FVec F S128 .f32) (main_arg5 : FVec F S512 .f32) (main_arg6 : FVec F S1024 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S128x512 .f32 := Host.absf main_arg3
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg4 main_arg5 main_arg6 main_v13 main_v16
-- ==== Kernel.lean ====
abbrev S512x1024 : Shape := ⟨2, ![512, 1024]⟩
abbrev S512 : Shape := ⟨1, ![512]⟩
abbrev S128x512 : Shape := ⟨2, ![128, 512]⟩
abbrev S128 : Shape := ⟨1, ![128]⟩
abbrev S1024 : Shape := ⟨1, ![1024]⟩
abbrev S1024x512 : Shape := ⟨2, ![1024, 512]⟩
abbrev S512x128 : Shape := ⟨2, ![512, 128]⟩
abbrev S512x512 : Shape := ⟨2, ![512, 512]⟩
abbrev S128x1024 : Shape := ⟨2, ![128, 1024]⟩
abbrev S128x128 : Shape := ⟨2, ![128, 128]⟩
abbrev S1x512 : Shape := ⟨2, ![1, 512]⟩
abbrev S1x128 : Shape := ⟨2, ![1, 128]⟩
abbrev S1x1024 : Shape := ⟨2, ![1, 1024]⟩
abbrev S512x128x1024 : Shape := ⟨3, ![512, 128, 1024]⟩
abbrev S32x512 : Shape := ⟨2, ![32, 512]⟩
abbrev S32x128 : Shape := ⟨2, ![32, 128]⟩
abbrev S512x256 : Shape := ⟨2, ![512, 256]⟩
abbrev S32x128x256 : Shape := ⟨3, ![32, 128, 256]⟩
abbrev S32x128x512 : Shape := ⟨3, ![32, 128, 512]⟩
abbrev S32x128x1 : Shape := ⟨3, ![32, 128, 1]⟩
abbrev S1x128x512 : Shape := ⟨3, ![1, 128, 512]⟩
abbrev S32x1x512 : Shape := ⟨3, ![32, 1, 512]⟩
abbrev S4096x512 : Shape := ⟨2, ![4096, 512]⟩
abbrev S4096x256 : Shape := ⟨2, ![4096, 256]⟩

abbrev nBuf : Space → Nat
  | .hbm => 14
  | .vmem => 28
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S512, .f32⟩
  | .hbm, ⟨6, _⟩ => ⟨S1024, .f32⟩
  | .hbm, ⟨7, _⟩ => ⟨S1024x512, .f32⟩
  | .hbm, ⟨8, _⟩ => ⟨S512x128, .f32⟩
  | .hbm, ⟨9, _⟩ => ⟨S512x1024, .f32⟩
  | .hbm, ⟨10, _⟩ => ⟨S512x128, .f32⟩
  | .hbm, ⟨11, _⟩ => ⟨S512x512, .f32⟩
  | .hbm, ⟨12, _⟩ => ⟨S512x128, .f32⟩
  | .hbm, ⟨13, _⟩ => ⟨S512x128x1024, .f32⟩
  | .local _ .vmem, ⟨0, _⟩ => ⟨S128x1024, .f32⟩
  | .local _ .vmem, ⟨1, _⟩ => ⟨S128x1024, .f32⟩
  | .local _ .vmem, ⟨2, _⟩ => ⟨S512x1024, .f32⟩
  | .local _ .vmem, ⟨3, _⟩ => ⟨S1024x512, .f32⟩
  | .local _ .vmem, ⟨4, _⟩ => ⟨S512, .f32⟩
  | .local _ .vmem, ⟨5, _⟩ => ⟨S128x512, .f32⟩
  | .local _ .vmem, ⟨6, _⟩ => ⟨S512x128, .f32⟩
  | .local _ .vmem, ⟨7, _⟩ => ⟨S128, .f32⟩
  | .local _ .vmem, ⟨8, _⟩ => ⟨S512, .f32⟩
  | .local _ .vmem, ⟨9, _⟩ => ⟨S1024, .f32⟩
  | .local _ .vmem, ⟨10, _⟩ => ⟨S128x1024, .f32⟩
  | .local _ .vmem, ⟨11, _⟩ => ⟨S128x1024, .f32⟩
  | .local _ .vmem, ⟨12, _⟩ => ⟨S128x128, .f32⟩
  | .local _ .vmem, ⟨13, _⟩ => ⟨S128x128, .f32⟩
  | .local _ .vmem, ⟨14, _⟩ => ⟨S128x512, .f32⟩
  | .local _ .vmem, ⟨15, _⟩ => ⟨S128x512, .f32⟩
  | .local _ .vmem, ⟨16, _⟩ => ⟨S128x128, .f32⟩
  | .local _ .vmem, ⟨17, _⟩ => ⟨S128x128, .f32⟩
  | .local _ .vmem, ⟨18, _⟩ => ⟨S32x512, .f32⟩
  | .local _ .vmem, ⟨19, _⟩ => ⟨S32x512, .f32⟩
  | .local _ .vmem, ⟨20, _⟩ => ⟨S32x128, .f32⟩
  | .local _ .vmem, ⟨21, _⟩ => ⟨S32x128, .f32⟩
  | .local _ .vmem, ⟨22, _⟩ => ⟨S128x512, .f32⟩
  | .local _ .vmem, ⟨23, _⟩ => ⟨S512x256, .f32⟩
  | .local _ .vmem, ⟨24, _⟩ => ⟨S512x256, .f32⟩
  | .local _ .vmem, ⟨25, _⟩ => ⟨S32x128x256, .f32⟩
  | .local _ .vmem, ⟨26, _⟩ => ⟨S32x128x256, .f32⟩
  | .local _ .vmem, ⟨27, _⟩ => ⟨S32x128x512, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem3_0 : DmaSem sig := 23
abbrev cc1_sem3_1 : DmaSem sig := 24
abbrev cc1_sem4_0 : DmaSem sig := 25
abbrev cc1_sem4_1 : DmaSem sig := 26

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S32x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S32x128x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S512x1024_S1024x512_1_0 : S512x1024.Transposes [1, 0] S1024x512
  transposes_S128x512_S512x128_1_0 : S128x512.Transposes [1, 0] S512x128
  inb_S128x1024_S128x1024_0_0 : ∀ a, (![0, 0] : Fin 2 → Nat) a + S128x1024.size a ≤ S128x1024.size a
  h_S128x1024 : 0 < S128x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  shapeCasts_S512_S1x512 : S512.ShapeCasts S1x512
  broadcasts_S1x512_S128x512 : S1x512.Broadcasts S128x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128_S128_0 : ∀ a, (![0] : Fin 1 → Nat) a + S128.size a ≤ S128.size a
  h_S128 : 0 < S128.numel
  shapeCasts_S128_S1x128 : S128.ShapeCasts S1x128
  broadcasts_S1x128_S128x128 : S1x128.Broadcasts S128x128
  inb_S128x512_S128x512_0_0 : ∀ a, (![0, 0] : Fin 2 → Nat) a + S128x512.size a ≤ S128x512.size a
  h_S128x512 : 0 < S128x512.numel
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S128x1024 : S1x1024.Broadcasts S128x1024
  inb_S128x128_S128x128_0_0 : ∀ a, (![0, 0] : Fin 2 → Nat) a + S128x128.size a ≤ S128x128.size a
  h_S128x128 : 0 < S128x128.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S32x128x1 : S32x128.ShapeCasts S32x128x1
  shapeCasts_S128x512_S1x128x512 : S128x512.ShapeCasts S1x128x512
  broadcasts_S32x128x1_S32x128x512 : S32x128x1.Broadcasts S32x128x512
  broadcasts_S1x128x512_S32x128x512 : S1x128x512.Broadcasts S32x128x512
  shapeCasts_S32x512_S32x1x512 : S32x512.ShapeCasts S32x1x512
  broadcasts_S32x1x512_S32x128x512 : S32x1x512.Broadcasts S32x128x512
  inb_S32x128x512_S32x128x512_0_0_0 : ∀ a, (![0, 0, 0] : Fin 3 → Nat) a + S32x128x512.size a ≤ S32x128x512.size a
  h_S32x128x512 : 0 < S32x128x512.numel
  shapeCasts_S32x128x512_S32x128x512 : S32x128x512.ShapeCasts S32x128x512
  packedbf16_S32x128x512_S32x128x512_0_0_0 : (Rect.unit (s := S32x128x512) ![0, 0, 0] S32x128x512.size inb_S32x128x512_S32x128x512_0_0_0).PackedRows (EltTy.packing .bf16)
  shapeCasts_S32x128x512_S4096x512 : S32x128x512.ShapeCasts S4096x512
  inb_S512x256_S512x256_0_0 : ∀ a, (![0, 0] : Fin 2 → Nat) a + S512x256.size a ≤ S512x256.size a
  h_S512x256 : 0 < S512x256.numel
  shapeCasts_S4096x256_S32x128x256 : S4096x256.ShapeCasts S32x128x256
  inb_S32x128x256_S32x128x256_0_0_0 : ∀ a, (![0, 0, 0] : Fin 3 → Nat) a + S32x128x256.size a ≤ S32x128x256.size a
  h_S32x128x256 : 0 < S32x128x256.numel
  dot_S128x1024_S1024x512_S128x512_1_0_0_1_n_n_wf : DotDims.WF S128x1024 S1024x512 S128x512 [1] [0] [0] [1] [] []
  dot_S128x512_S512x128_S128x128_1_0_0_1_n_n_wf : DotDims.WF S128x512 S512x128 S128x128 [1] [0] [0] [1] [] []
  dot_S128x128_S128x512_S128x512_1_0_0_1_n_n_wf : DotDims.WF S128x128 S128x512 S128x512 [1] [0] [0] [1] [] []
  dot_S128x512_S512x1024_S128x1024_1_0_0_1_n_n_wf : DotDims.WF S128x512 S512x1024 S128x1024 [1] [0] [0] [1] [] []
  dot_S4096x512_S512x256_S4096x256_1_0_0_1_n_n_wf : DotDims.WF S4096x512 S512x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .f32 = 32 ∨ (Rect.block (s := S512x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x1024.size a ≤ S512x1024.size a
  hwx0_9 : ∀ i : grid0.Coords, EltTy.bits .f32 = 32 ∨ (Rect.block (s := S512x1024) S128x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S512x128.size a
  hwx0_10 : ∀ i : grid0.Coords, EltTy.bits .f32 = 32 ∨ (Rect.block (s := S512x128) S128x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S512x512.size a
  hwx0_11 : ∀ i : grid0.Coords, EltTy.bits .f32 = 32 ∨ (Rect.block (s := S512x512) S128x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x128.size a ≤ S512x128.size a
  hwx0_12 : ∀ i : grid0.Coords, EltTy.bits .f32 = 32 ∨ (Rect.block (s := S512x128) S128x128.size (cc0_transform_12 i) (hinb0_12 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x512.size a ≤ S512x512.size a
  hwx1_0 : ∀ i : grid1.Coords, EltTy.bits .f32 = 32 ∨ (Rect.block (s := S512x512) S32x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S512x128.size a
  hwx1_1 : ∀ i : grid1.Coords, EltTy.bits .f32 = 32 ∨ (Rect.block (s := S512x128) S32x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S512x1024.size a
  hwx1_3 : ∀ i : grid1.Coords, EltTy.bits .f32 = 32 ∨ (Rect.block (s := S512x1024) S512x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S32x128x256.size a ≤ S512x128x1024.size a
  hwx1_4 : ∀ i : grid1.Coords, EltTy.bits .f32 = 32 ∨ (Rect.block (s := S512x128x1024) S32x128x256.size (cc1_transform_4 i) (hinb1_4 i)).WholeWords (EltTy.packing .f32)

variable [Facts₀]

def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x512_S512x1024_S128x1024_1_0_0_1_n_n : DotDims S128x512 S512x1024 S128x1024 where
  lhsContracting := [1]
  rhsContracting := [0]
  lhsNonContracting := [0]
  rhsNonContracting := [1]
  lhsBatch := []
  rhsBatch := []
  wf := dot_S128x512_S512x1024_S128x1024_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v2_0) S128x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_1) S128x128.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_2) S128x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_3) S128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v2_2) S32x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_3) S32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S512x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3) S32x128x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S512x1024 : Shape := ⟨2, ![512, 1024]⟩
abbrev S512 : Shape := ⟨1, ![512]⟩
abbrev S128x512 : Shape := ⟨2, ![128, 512]⟩
abbrev S128 : Shape := ⟨1, ![128]⟩
abbrev S1024 : Shape := ⟨1, ![1024]⟩
abbrev S1024x512 : Shape := ⟨2, ![1024, 512]⟩
abbrev S512x512 : Shape := ⟨2, ![512, 512]⟩
abbrev S1x512 : Shape := ⟨2, ![1, 512]⟩
abbrev S_ : Shape := ⟨0, ![]⟩
abbrev S512x128 : Shape := ⟨2, ![512, 128]⟩
abbrev S1x128 : Shape := ⟨2, ![1, 128]⟩
abbrev S1x1024 : Shape := ⟨2, ![1, 1024]⟩
abbrev S512x128x1 : Shape := ⟨3, ![512, 128, 1]⟩
abbrev S1x128x512 : Shape := ⟨3, ![1, 128, 512]⟩
abbrev S512x128x512 : Shape := ⟨3, ![512, 128, 512]⟩
abbrev S512x1x512 : Shape := ⟨3, ![512, 1, 512]⟩
abbrev S512x128x1024 : Shape := ⟨3, ![512, 128, 1024]⟩

abbrev nBuf : Space → Nat
  | .hbm => 66
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512, .f32⟩
  | .hbm, ⟨3, _⟩ => ⟨S128x512, .f32⟩
  | .hbm, ⟨4, _⟩ => ⟨S128, .f32⟩
  | .hbm, ⟨5, _⟩ => ⟨S512, .f32⟩
  | .hbm, ⟨6, _⟩ => ⟨S1024, .f32⟩
  | .hbm, ⟨7, _⟩ => ⟨S1024x512, .f32⟩
  | .hbm, ⟨8, _⟩ => ⟨S512x512, .f32⟩
  | .hbm, ⟨9, _⟩ => ⟨S1x512, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S_, .f32⟩
  | .hbm, ⟨18, _⟩ => ⟨S512x512, .f32⟩
  | .hbm, ⟨19, _⟩ => ⟨S512x512, .f32⟩
  | .hbm, ⟨20, _⟩ => ⟨S512x128, .f32⟩
  | .hbm, ⟨21, _⟩ => ⟨S512x128, .f32⟩
  | .hbm, ⟨22, _⟩ => ⟨S1x128, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x512, .f32⟩
  | .hbm, ⟨34, _⟩ => ⟨S1x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x1024, .f32⟩
  | .hbm, ⟨46, _⟩ => ⟨S1x1024, .f32⟩
  | .hbm, ⟨47, _⟩ => ⟨S512x1024, .f32⟩
  | .hbm, ⟨48, _⟩ => ⟨S512x1024, .f32⟩
  | .hbm, ⟨49, _⟩ => ⟨S_, .f32⟩
  | .hbm, ⟨50, _⟩ => ⟨S512x512, .f32⟩
  | .hbm, ⟨51, _⟩ => ⟨S512x512, .f32⟩
  | .hbm, ⟨52, _⟩ => ⟨S512x512, .f32⟩
  | .hbm, ⟨53, _⟩ => ⟨S_, .f32⟩
  | .hbm, ⟨54, _⟩ => ⟨S512x128, .f32⟩
  | .hbm, ⟨55, _⟩ => ⟨S512x128, .f32⟩
  | .hbm, ⟨56, _⟩ => ⟨S512x128, .f32⟩
  | .hbm, ⟨57, _⟩ => ⟨S512x128x1, .f32⟩
  | .hbm, ⟨58, _⟩ => ⟨S1x128x512, .f32⟩
  | .hbm, ⟨59, _⟩ => ⟨S512x128x512, .f32⟩
  | .hbm, ⟨60, _⟩ => ⟨S512x128x512, .f32⟩
  | .hbm, ⟨61, _⟩ => ⟨S512x128x512, .f32⟩
  | .hbm, ⟨62, _⟩ => ⟨S512x1x512, .f32⟩
  | .hbm, ⟨63, _⟩ => ⟨S512x128x512, .f32⟩
  | .hbm, ⟨64, _⟩ => ⟨S512x128x512, .f32⟩
  | .hbm, ⟨65, _⟩ => ⟨S512x128x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]

class Facts₀ : Prop where
  transposes_S512x1024_S1024x512_1_0 : S512x1024.Transposes [1, 0] S1024x512
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  transposes_S128x512_S512x128_1_0 : S128x512.Transposes [1, 0] S512x128
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S_S512x128 : S_.BroadcastsInDim S512x128 (![] : Fin 0 → Fin S512x128.rank)
  bcast_S1024_S1x1024_1 : S1024.BroadcastsInDim S1x1024 (![1] : Fin 1 → Fin S1x1024.rank)
  bcast_S1x1024_S512x1024_0_1 : S1x1024.BroadcastsInDim S512x1024 (![0, 1] : Fin 2 → Fin S512x1024.rank)
  bcast_S512x128_S512x128x1_0_1 : S512x128.BroadcastsInDim S512x128x1 (![0, 1] : Fin 2 → Fin S512x128x1.rank)
  bcast_S128x512_S1x128x512_1_2 : S128x512.BroadcastsInDim S1x128x512 (![1, 2] : Fin 2 → Fin S1x128x512.rank)
  bcast_S512x128x1_S512x128x512_0_1_2 : S512x128x1.BroadcastsInDim S512x128x512 (![0, 1, 2] : Fin 3 → Fin S512x128x512.rank)
  bcast_S1x128x512_S512x128x512_0_1_2 : S1x128x512.BroadcastsInDim S512x128x512 (![0, 1, 2] : Fin 3 → Fin S512x128x512.rank)
  bcast_S512x512_S512x1x512_0_2 : S512x512.BroadcastsInDim S512x1x512 (![0, 2] : Fin 2 → Fin S512x1x512.rank)
  bcast_S512x1x512_S512x128x512_0_1_2 : S512x1x512.BroadcastsInDim S512x128x512 (![0, 1, 2] : Fin 3 → Fin S512x128x512.rank)
  dot_S512x1024_S1024x512_S512x512_1_0_0_1_n_n_wf : DotDims.WF S512x1024 S1024x512 S512x512 [1] [0] [0] [1] [] []
  dot_S512x512_S512x128_S512x128_1_0_0_1_n_n_wf : DotDims.WF S512x512 S512x128 S512x128 [1] [0] [0] [1] [] []
  dot_S512x128_S128x512_S512x512_1_0_0_1_n_n_wf : DotDims.WF S512x128 S128x512 S512x512 [1] [0] [0] [1] [] []
  dot_S512x512_S512x1024_S512x1024_1_0_0_1_n_n_wf : DotDims.WF S512x512 S512x1024 S512x1024 [1] [0] [0] [1] [] []
  dot_S512x128x512_S512x1024_S512x128x1024_2_0_01_1_n_n_wf : DotDims.WF S512x128x512 S512x1024 S512x128x1024 [2] [0] [0, 1] [1] [] []

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x128x512_S512x1024_S512x128x1024_2_0_01_1_n_n : DotDims S512x128x512 S512x1024 S512x128x1024 where
  lhsContracting := [2]
  rhsContracting := [0]
  lhsNonContracting := [0, 1]
  rhsNonContracting := [1]
  lhsBatch := []
  rhsBatch := []
  wf := dot_S512x128x512_S512x1024_S512x128x1024_2_0_01_1_n_n_wf

class Facts : Prop extends Facts₀ where

variable [Facts]
-- ==== Proof.K.Reg0.lean ====
/-
  Region 0 of @main (the encoder/decoder call, grid of 4 batch tiles of 128 rows), read at an arbitrary valuation
  `V` of the core's buffers at the region's entry.  At a grid point the body sees nine input blocks
  (a 128-row tile of x, and W1, W1ᵀ, b1, W2, W2ᵀ, b2, b3, b_r whole) and writes four output blocks: the
  128-row tiles of the reconstruction, of the code c2, and of the two sigmoid derivatives s1' = c1(1-c1),
  s2' = c2(1-c2).  Each output block is ONE whole-block store, so what the body leaves in an output's
  staging buffer is the store's payload read back over the whole block.
-/
import proofs.«107210_j23785528885730_1_alg».proof.Proof.Gen.Kernel.Launch
import proofs.«107210_j23785528885730_1_alg».proof.Proof.Gen.Kernel.Skeleton
import proofs.«107210_j23785528885730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and whole-block rectangles -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev q128x1024 : Rect S128x1024 := Rect.unit (s := S128x1024) ![0, 0] S128x1024.size inb_S128x1024_S128x1024_0_0
abbrev q512x1024 : Rect S512x1024 := Rect.unit (s := S512x1024) ![0, 0] S512x1024.size inb_S512x1024_S512x1024_0_0
abbrev q1024x512 : Rect S1024x512 := Rect.unit (s := S1024x512) ![0, 0] S1024x512.size inb_S1024x512_S1024x512_0_0
abbrev q512 : Rect S512 := Rect.unit (s := S512) ![0] S512.size inb_S512_S512_0
abbrev q128x512 : Rect S128x512 := Rect.unit (s := S128x512) ![0, 0] S128x512.size inb_S128x512_S128x512_0_0
abbrev q512x128 : Rect S512x128 := Rect.unit (s := S512x128) ![0, 0] S512x128.size inb_S512x128_S512x128_0_0
abbrev q128 : Rect S128 := Rect.unit (s := S128) ![0] S128.size inb_S128_S128_0
abbrev q1024 : Rect S1024 := Rect.unit (s := S1024) ![0] S1024.size inb_S1024_S1024_0
abbrev q128x128 : Rect S128x128 := Rect.unit (s := S128x128) ![0, 0] S128x128.size inb_S128x128_S128x128_0_0

/-! ## What the body leaves in the four output buffers, as functions of the nine input blocks -/

/-- The reconstruction tile: sigmoid(c2·W2 + b3)·W1 + b_r, with c2 as below. -/
def recTile (x0 : Vec F S128x1024 .f32) (x1 : Vec F S512x1024 .f32) (x2 : Vec F S1024x512 .f32) (x3 : Vec F S512 .f32) (x4 : Vec F S128x512 .f32) (x5 : Vec F S512x128 .f32) (x6 : Vec F S128 .f32) (x7 : Vec F S512 .f32) (x8 : Vec F S1024 .f32) : Vec F S128x1024 .f32 :=
  View.canon [⟨q128x1024, k0_pay1 (k0_pay6 (View.ld x0 q128x1024) (View.ld x2 q1024x512) (View.ld x3 q512) (View.ld x5 q512x128) (View.ld x6 q128) (View.ld x4 q128x512) (View.ld x7 q512) (View.ld x1 q512x1024)) (View.ld x8 q1024)⟩]
/-- The code tile c2 = sigmoid(c1·W2ᵀ + b2), c1 = sigmoid(x·W1ᵀ + b1). -/
def codeTile (x0 : Vec F S128x1024 .f32) (x2 : Vec F S1024x512 .f32) (x3 : Vec F S512 .f32) (x5 : Vec F S512x128 .f32) (x6 : Vec F S128 .f32) : Vec F S128x128 .f32 :=
  View.canon [⟨q128x128, k0_pay4 (View.ld x0 q128x1024) (View.ld x2 q1024x512) (View.ld x3 q512) (View.ld x5 q512x128) (View.ld x6 q128)⟩]
/-- The first derivative tile c1·(1 - c1). -/
def d1Tile (x0 : Vec F S128x1024 .f32) (x2 : Vec F S1024x512 .f32) (x3 : Vec F S512 .f32) : Vec F S128x512 .f32 :=
  View.canon [⟨q128x512, k0_pay3 (View.ld x0 q128x1024) (View.ld x2 q1024x512) (View.ld x3 q512)⟩]
/-- The second derivative tile c2·(1 - c2). -/
def d2Tile (x0 : Vec F S128x1024 .f32) (x2 : Vec F S1024x512 .f32) (x3 : Vec F S512 .f32) (x5 : Vec F S512x128 .f32) (x6 : Vec F S128 .f32) : Vec F S128x128 .f32 :=
  View.canon [⟨q128x128, k0_pay5 (View.ld x0 q128x1024) (View.ld x2 q1024x512) (View.ld x3 q512) (View.ld x5 q512x128) (View.ld x6 q128)⟩]

/-- A single whole-block store covers the block. -/
theorem cov128x1024 (p0 : Vec F S128x1024 .f32) (y : S128x1024.Idx) :
    ∃ pc ∈ ([⟨q128x1024, p0⟩] : List (View.Piece (Elt F) S128x1024 .f32)), y ∈ pc.1.set :=
  View.cover_of_tiled [⟨q128x1024, p0⟩] S128x1024.size (by rfl) y
theorem cov128x128 (p0 : Vec F S128x128 .f32) (y : S128x128.Idx) :
    ∃ pc ∈ ([⟨q128x128, p0⟩] : List (View.Piece (Elt F) S128x128 .f32)), y ∈ pc.1.set :=
  View.cover_of_tiled [⟨q128x128, p0⟩] S128x128.size (by rfl) y
theorem cov128x512 (p0 : Vec F S128x512 .f32) (y : S128x512.Idx) :
    ∃ pc ∈ ([⟨q128x512, p0⟩] : List (View.Piece (Elt F) S128x512 .f32)), y ∈ pc.1.set :=
  View.cover_of_tiled [⟨q128x512, p0⟩] S128x512.size (by rfl) y

/-! ## The body's triple -/

set_option maxHeartbeats 4000000 in
/-- The body on whole staging memrefs: the nine inputs at read contents, the four outputs at anything, runs to the
    continuation with the inputs as they were and each output at its tile. -/
theorem mlp_body (c : Dev nD) (E : Set ℕ) (i : grid0.Coords) (arg1 : Memref sig .tc .vmem S128x1024 .f32) (harg1 : arg1.IsWhole) (arg2 : Memref sig .tc .vmem S512x1024 .f32) (harg2 : arg2.IsWhole) (arg3 : Memref sig .tc .vmem S1024x512 .f32) (harg3 : arg3.IsWhole) (arg4 : Memref sig .tc .vmem S512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S512 .f32) (harg8 : arg8.IsWhole) (arg9 : Memref sig .tc .vmem S1024 .f32) (harg9 : arg9.IsWhole) (arg10 : Memref sig .tc .vmem S128x1024 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x128 .f32) (harg13 : arg13.IsWhole)
    (x0 : Vec F S128x1024 .f32) (x1 : Vec F S512x1024 .f32) (x2 : Vec F S1024x512 .f32) (x3 : Vec F S512 .f32) (x4 : Vec F S128x512 .f32) (x5 : Vec F S512x128 .f32) (x6 : Vec F S128 .f32) (x7 : Vec F S512 .f32) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (recTile x0 x1 x2 x3 x4 x5 x6 x7 x8)
            ∗ owns (c : Thread nD τ) arg11 fullShare (codeTile x0 x2 x3 x5 x6)
            ∗ owns (c : Thread nD τ) arg12 fullShare (d1Tile x0 x2 x3)
            ∗ owns (c : Thread nD τ) arg13 fullShare (d2Tile x0 x2 x3 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact View.read_writes_eq_canon _ _ _ (cov128x1024 _)
  isplitl [H10]
  · iexists _; isplitr
    swap; · iexact H10
    ipureintro
    exact View.read_writes_eq_canon _ _ _ (cov128x128 _)
  isplitl [H11]
  · iexists _; isplitr
    swap; · iexact H11
    ipureintro
    exact View.read_writes_eq_canon _ _ _ (cov128x512 _)
  iexists _; isplitr
  swap; · iexact H12
  ipureintro
  exact View.read_writes_eq_canon _ _ _ (cov128x128 _)

/-! ## The proof data of the pipeline -/

/-- Pipeline 0's proof data on core `c`: the windows' arrays as the region finds them; after the body at point
    `t` every input buffer still holds its block and every output buffer its tile of the point's input blocks; the
    invariant is the scoped buffers no window stages and the generator register, untouched; nothing owed. -/
def mlpDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => recTile (blk0 V c 0 t) (blk0 V c 1 t) (blk0 V c 2 t) (blk0 V c 3 t) (blk0 V c 4 t) (blk0 V c 5 t) (blk0 V c 6 t) (blk0 V c 7 t) (blk0 V c 8 t)
    | ⟨10, _⟩ => codeTile (blk0 V c 0 t) (blk0 V c 2 t) (blk0 V c 3 t) (blk0 V c 5 t) (blk0 V c 6 t)
    | ⟨11, _⟩ => d1Tile (blk0 V c 0 t) (blk0 V c 2 t) (blk0 V c 3 t)
    | ⟨12, _⟩ => d2Tile (blk0 V c 0 t) (blk0 V c 2 t) (blk0 V c 3 t) (blk0 V c 5 t) (blk0 V c 6 t)
  Φ _ := Pipeline.ΦA spec0 c
  q _ := fullShare
  owed _ := 0

theorem mlpA (c : Dev nD) (w : Fin cfg0.W) : (mlpDat V c).A w = V c (Pipeline.arrRef spec0 w) := by
  dsimp only [mlpDat]

theorem mlpAfter_0 (c : Dev nD) (t : Fin cfg0.N) : (mlpDat V c).after 0 t = blk0 V c 0 t := by dsimp only [mlpDat]
theorem mlpAfter_1 (c : Dev nD) (t : Fin cfg0.N) : (mlpDat V c).after 1 t = blk0 V c 1 t := by dsimp only [mlpDat]
theorem mlpAfter_2 (c : Dev nD) (t : Fin cfg0.N) : (mlpDat V c).after 2 t = blk0 V c 2 t := by dsimp only [mlpDat]
theorem mlpAfter_3 (c : Dev nD) (t : Fin cfg0.N) : (mlpDat V c).after 3 t = blk0 V c 3 t := by dsimp only [mlpDat]
theorem mlpAfter_4 (c : Dev nD) (t : Fin cfg0.N) : (mlpDat V c).after 4 t = blk0 V c 4 t := by dsimp only [mlpDat]
theorem mlpAfter_5 (c : Dev nD) (t : Fin cfg0.N) : (mlpDat V c).after 5 t = blk0 V c 5 t := by dsimp only [mlpDat]
theorem mlpAfter_6 (c : Dev nD) (t : Fin cfg0.N) : (mlpDat V c).after 6 t = blk0 V c 6 t := by dsimp only [mlpDat]
theorem mlpAfter_7 (c : Dev nD) (t : Fin cfg0.N) : (mlpDat V c).after 7 t = blk0 V c 7 t := by dsimp only [mlpDat]
theorem mlpAfter_8 (c : Dev nD) (t : Fin cfg0.N) : (mlpDat V c).after 8 t = blk0 V c 8 t := by dsimp only [mlpDat]
theorem mlpAfter_9 (c : Dev nD) (t : Fin cfg0.N) : (mlpDat V c).after 9 t = recTile (blk0 V c 0 t) (blk0 V c 1 t) (blk0 V c 2 t) (blk0 V c 3 t) (blk0 V c 4 t) (blk0 V c 5 t) (blk0 V c 6 t) (blk0 V c 7 t) (blk0 V c 8 t) := by dsimp only [mlpDat]
theorem mlpAfter_10 (c : Dev nD) (t : Fin cfg0.N) : (mlpDat V c).after 10 t = codeTile (blk0 V c 0 t) (blk0 V c 2 t) (blk0 V c 3 t) (blk0 V c 5 t) (blk0 V c 6 t) := by dsimp only [mlpDat]
theorem mlpAfter_11 (c : Dev nD) (t : Fin cfg0.N) : (mlpDat V c).after 11 t = d1Tile (blk0 V c 0 t) (blk0 V c 2 t) (blk0 V c 3 t) := by dsimp only [mlpDat]
theorem mlpAfter_12 (c : Dev nD) (t : Fin cfg0.N) : (mlpDat V c).after 12 t = d2Tile (blk0 V c 0 t) (blk0 V c 2 t) (blk0 V c 3 t) (blk0 V c 5 t) (blk0 V c 6 t) := by dsimp only [mlpDat]

/-- An input's current staging buffer holds the point's block whether or not it was fetched at the point: an
    unfetched input's block index has not moved. -/
theorem mlpBefore_0 (c : Dev nD) (t : Fin cfg0.N) (d) : (mlpDat V c).before 0 t d = blk0 V c 0 t :=
  ((mlpDat V c).before_in_eq_fetched 0 rfl (fun _ => rfl) (fun _ _ _ => rfl)
    (fun t => by rw [mlpAfter_0]; unfold Dat.blockOf blk0; rw [mlpA]; try rfl) t d).trans
    (by unfold Dat.fetched Dat.blockOf blk0; rw [mlpA]; try rfl)
theorem mlpBefore_1 (c : Dev nD) (t : Fin cfg0.N) (d) : (mlpDat V c).before 1 t d = blk0 V c 1 t :=
  ((mlpDat V c).before_in_eq_fetched 1 rfl (fun _ => rfl) (fun _ _ _ => rfl)
    (fun t => by rw [mlpAfter_1]; unfold Dat.blockOf blk0; rw [mlpA]; try rfl) t d).trans
    (by unfold Dat.fetched Dat.blockOf blk0; rw [mlpA]; try rfl)
theorem mlpBefore_2 (c : Dev nD) (t : Fin cfg0.N) (d) : (mlpDat V c).before 2 t d = blk0 V c 2 t :=
  ((mlpDat V c).before_in_eq_fetched 2 rfl (fun _ => rfl) (fun _ _ _ => rfl)
    (fun t => by rw [mlpAfter_2]; unfold Dat.blockOf blk0; rw [mlpA]; try rfl) t d).trans
    (by unfold Dat.fetched Dat.blockOf blk0; rw [mlpA]; try rfl)
theorem mlpBefore_3 (c : Dev nD) (t : Fin cfg0.N) (d) : (mlpDat V c).before 3 t d = blk0 V c 3 t :=
  ((mlpDat V c).before_in_eq_fetched 3 rfl (fun _ => rfl) (fun _ _ _ => rfl)
    (fun t => by rw [mlpAfter_3]; unfold Dat.blockOf blk0; rw [mlpA]; try rfl) t d).trans
    (by unfold Dat.fetched Dat.blockOf blk0; rw [mlpA]; try rfl)
theorem mlpBefore_4 (c : Dev nD) (t : Fin cfg0.N) (d) : (mlpDat V c).before 4 t d = blk0 V c 4 t :=
  ((mlpDat V c).before_in_eq_fetched 4 rfl (fun _ => rfl) (fun _ _ _ => rfl)
    (fun t => by rw [mlpAfter_4]; unfold Dat.blockOf blk0; rw [mlpA]; try rfl) t d).trans
    (by unfold Dat.fetched Dat.blockOf blk0; rw [mlpA]; try rfl)
theorem mlpBefore_5 (c : Dev nD) (t : Fin cfg0.N) (d) : (mlpDat V c).before 5 t d = blk0 V c 5 t :=
  ((mlpDat V c).before_in_eq_fetched 5 rfl (fun _ => rfl) (fun _ _ _ => rfl)
    (fun t => by rw [mlpAfter_5]; unfold Dat.blockOf blk0; rw [mlpA]; try rfl) t d).trans
    (by unfold Dat.fetched Dat.blockOf blk0; rw [mlpA]; try rfl)
theorem mlpBefore_6 (c : Dev nD) (t : Fin cfg0.N) (d) : (mlpDat V c).before 6 t d = blk0 V c 6 t :=
  ((mlpDat V c).before_in_eq_fetched 6 rfl (fun _ => rfl) (fun _ _ _ => rfl)
    (fun t => by rw [mlpAfter_6]; unfold Dat.blockOf blk0; rw [mlpA]; try rfl) t d).trans
    (by unfold Dat.fetched Dat.blockOf blk0; rw [mlpA]; try rfl)
theorem mlpBefore_7 (c : Dev nD) (t : Fin cfg0.N) (d) : (mlpDat V c).before 7 t d = blk0 V c 7 t :=
  ((mlpDat V c).before_in_eq_fetched 7 rfl (fun _ => rfl) (fun _ _ _ => rfl)
    (fun t => by rw [mlpAfter_7]; unfold Dat.blockOf blk0; rw [mlpA]; try rfl) t d).trans
    (by unfold Dat.fetched Dat.blockOf blk0; rw [mlpA]; try rfl)
theorem mlpBefore_8 (c : Dev nD) (t : Fin cfg0.N) (d) : (mlpDat V c).before 8 t d = blk0 V c 8 t :=
  ((mlpDat V c).before_in_eq_fetched 8 rfl (fun _ => rfl) (fun _ _ _ => rfl)
    (fun t => by rw [mlpAfter_8]; unfold Dat.blockOf blk0; rw [mlpA]; try rfl) t d).trans
    (by unfold Dat.fetched Dat.blockOf blk0; rw [mlpA]; try rfl)

/-! ## The body obligation -/

def mlpPre (c : Dev nD) (t : Fin cfg0.N) : sProp 𝕄 :=
  iprop((mlpDat V c).Φ t.castSucc ∗ (mlpDat V c).owesAt () t.castSucc
    ∗ (∃ d, owns (c : Thread nD τ) (st0_0 t) fullShare ((mlpDat V c).before 0 t d))
    ∗ (∃ d, owns (c : Thread nD τ) (st0_1 t) fullShare ((mlpDat V c).before 1 t d))
    ∗ (∃ d, owns (c : Thread nD τ) (st0_2 t) fullShare ((mlpDat V c).before 2 t d))
    ∗ (∃ d, owns (c : Thread nD τ) (st0_3 t) fullShare ((mlpDat V c).before 3 t d))
    ∗ (∃ d, owns (c : Thread nD τ) (st0_4 t) fullShare ((mlpDat V c).before 4 t d))
    ∗ (∃ d, owns (c : Thread nD τ) (st0_5 t) fullShare ((mlpDat V c).before 5 t d))
    ∗ (∃ d, owns (c : Thread nD τ) (st0_6 t) fullShare ((mlpDat V c).before 6 t d))
    ∗ (∃ d, owns (c : Thread nD τ) (st0_7 t) fullShare ((mlpDat V c).before 7 t d))
    ∗ (∃ d, owns (c : Thread nD τ) (st0_8 t) fullShare ((mlpDat V c).before 8 t d))
    ∗ (∃ d, owns (c : Thread nD τ) (st0_9 t) fullShare ((mlpDat V c).before 9 t d))
    ∗ (∃ d, owns (c : Thread nD τ) (st0_10 t) fullShare ((mlpDat V c).before 10 t d))
    ∗ (∃ d, owns (c : Thread nD τ) (st0_11 t) fullShare ((mlpDat V c).before 11 t d))
    ∗ (∃ d, owns (c : Thread nD τ) (st0_12 t) fullShare ((mlpDat V c).before 12 t d)))

def mlpPost (c : Dev nD) (t : Fin cfg0.N) : sProp 𝕄 :=
  iprop((mlpDat V c).Φ t.succ ∗ (mlpDat V c).owesAt () t.succ
    ∗ owns (c : Thread nD τ) (st0_0 t) fullShare ((mlpDat V c).after 0 t)
    ∗ owns (c : Thread nD τ) (st0_1 t) fullShare ((mlpDat V c).after 1 t)
    ∗ owns (c : Thread nD τ) (st0_2 t) fullShare ((mlpDat V c).after 2 t)
    ∗ owns (c : Thread nD τ) (st0_3 t) fullShare ((mlpDat V c).after 3 t)
    ∗ owns (c : Thread nD τ) (st0_4 t) fullShare ((mlpDat V c).after 4 t)
    ∗ owns (c : Thread nD τ) (st0_5 t) fullShare ((mlpDat V c).after 5 t)
    ∗ owns (c : Thread nD τ) (st0_6 t) fullShare ((mlpDat V c).after 6 t)
    ∗ owns (c : Thread nD τ) (st0_7 t) fullShare ((mlpDat V c).after 7 t)
    ∗ owns (c : Thread nD τ) (st0_8 t) fullShare ((mlpDat V c).after 8 t)
    ∗ owns (c : Thread nD τ) (st0_9 t) fullShare ((mlpDat V c).after 9 t)
    ∗ owns (c : Thread nD τ) (st0_10 t) fullShare ((mlpDat V c).after 10 t)
    ∗ owns (c : Thread nD τ) (st0_11 t) fullShare ((mlpDat V c).after 11 t)
    ∗ owns (c : Thread nD τ) (st0_12 t) fullShare ((mlpDat V c).after 12 t))

theorem mlp_point (c : Dev nD) (t : Fin cfg0.N) :
    mlpPre V c t ⊢ wp frame (wpE (defs₀ (F := F)) Variants.none c none) Set.univ (bodyAt0 t) (fun _ => mlpPost V c t) := by
  unfold mlpPre mlpPost bodyAt0
  simp only [mlpBefore_0, mlpBefore_1, mlpBefore_2, mlpBefore_3, mlpBefore_4, mlpBefore_5, mlpBefore_6, mlpBefore_7, mlpBefore_8]
  rw [show (mlpDat V c).Φ t.succ = (mlpDat V c).Φ t.castSucc from rfl,
    show (mlpDat V c).owesAt () t.succ = (mlpDat V c).owesAt () t.castSucc from rfl,
    mlpAfter_0, mlpAfter_1, mlpAfter_2, mlpAfter_3, mlpAfter_4, mlpAfter_5, mlpAfter_6, mlpAfter_7, mlpAfter_8, mlpAfter_9, mlpAfter_10, mlpAfter_11, mlpAfter_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (mlp_body c Set.univ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem mlp_obligation (c : Dev nD) : BodyObligation (mlpDat (F := F) V c) (defs₀ (F := F)) Variants.none () Set.univ := fun t => by
  rw [bigSep_W0, bigSep_W0]
  exact mlp_point V c t

end Cert.Kernel.Fr

end
-- ==== Proof.K.Reg1.lean ====
/-
  Region 1 of @main (the Jacobian call, a 16×4 grid: 16 row tiles of 32 samples, 4 column tiles of 256), read at an
  arbitrary valuation `V` of the core's buffers at the region's entry.  At a grid point the body sees the row
  tile's blocks of s1' (32×512) and s2' (32×128), W2 whole, and a 256-column tile of W1.  At the first column step
  of a row tile it forms M[b,h,k] = s2'[b,h]·W2[h,k]·s1'[b,k] and stores it WHOLE into a scratch buffer the
  pipeline does not stage; at every column step it reads the scratch back, flattens it to (32·128)×512 and
  multiplies by the W1 tile.  So the scratch is carried from point to point: after point t it holds the product
  tile of the row tile's FIRST column step, point 4·(t/4) — which is what the region's invariant says.
-/
import proofs.«107210_j23785528885730_1_alg».proof.Proof.Gen.Kernel.Launch
import proofs.«107210_j23785528885730_1_alg».proof.Proof.Gen.Kernel.Skeleton
import proofs.«107210_j23785528885730_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev p32x512 : Rect S32x512 := Rect.unit (s := S32x512) ![0, 0] S32x512.size inb_S32x512_S32x512_0_0
abbrev p32x128 : Rect S32x128 := Rect.unit (s := S32x128) ![0, 0] S32x128.size inb_S32x128_S32x128_0_0
abbrev p128x512 : Rect S128x512 := Rect.unit (s := S128x512) ![0, 0] S128x512.size inb_S128x512_S128x512_0_0
abbrev p512x256 : Rect S512x256 := Rect.unit (s := S512x256) ![0, 0] S512x256.size inb_S512x256_S512x256_0_0
abbrev p32x128x256 : Rect S32x128x256 := Rect.unit (s := S32x128x256) ![0, 0, 0] S32x128x256.size inb_S32x128x256_S32x128x256_0_0_0
abbrev p32x128x512 : Rect S32x128x512 := Rect.unit (s := S32x128x512) ![0, 0, 0] S32x128x512.size inb_S32x128x512_S32x128x512_0_0_0

/-- The product tile M[b,h,k] = s2'[b,h]·W2[h,k]·s1'[b,k] the first column step leaves in the scratch. -/
def prodTile (x0 : Vec F S32x512 .f32) (x1 : Vec F S32x128 .f32) (x2 : Vec F S128x512 .f32) : Vec F S32x128x512 .bf16 :=
  View.canon [⟨p32x128x512, k1_pay1 (View.ld x0 p32x512) (View.ld x1 p32x128) (View.ld x2 p128x512)⟩]
/-- The Jacobian tile: the scratch's product tile, flattened, times a 256-column tile of W1. -/
def jacTile (s : Vec F S32x128x512 .bf16) (x3 : Vec F S512x256 .f32) : Vec F S32x128x256 .f32 :=
  View.canon [⟨p32x128x256, k1_pay2 (View.ld s p32x128x512) (View.ld x3 p512x256)⟩]

theorem cov32x128x512 (p0 : Vec F S32x128x512 .bf16) (y : S32x128x512.Idx) :
    ∃ pc ∈ ([⟨p32x128x512, p0⟩] : List (View.Piece (Elt F) S32x128x512 .bf16)), y ∈ pc.1.set :=
  View.cover_of_tiled [⟨p32x128x512, p0⟩] S32x128x512.size (by rfl) y
theorem cov32x128x256 (p0 : Vec F S32x128x256 .f32) (y : S32x128x256.Idx) :
    ∃ pc ∈ ([⟨p32x128x256, p0⟩] : List (View.Piece (Elt F) S32x128x256 .f32)), y ∈ pc.1.set :=
  View.cover_of_tiled [⟨p32x128x256, p0⟩] S32x128x256.size (by rfl) y

/-- The branch of the body: taken exactly when the column coordinate is 0. -/
abbrev firstCol (i : grid1.Coords) : Prop := (Scalar.cmpi .ne (Scalar.extui (Scalar.cmpi .eq (BitVec.ofNat 32 (i 1).val) 0#32)) 0#32) = 1#1
theorem firstCol_iff : ∀ t : Fin cfg1.N, firstCol (grid1.coords t) ↔ t.val % 4 = 0 :=
  (by decide +kernel : ∀ t : Fin grid1.N, firstCol (grid1.coords t) ↔ t.val % 4 = 0)

set_option maxHeartbeats 4000000 in
theorem jac_first (c : Dev nD) (E : Set ℕ) (i : grid1.Coords) (arg2 : Memref sig .tc .vmem S32x512 .f32) (harg2 : arg2.IsWhole) (arg3 : Memref sig .tc .vmem S32x128 .f32) (harg3 : arg3.IsWhole) (arg4 : Memref sig .tc .vmem S128x512 .f32) (harg4 : arg4.IsWhole) (arg5 : Memref sig .tc .vmem S512x256 .f32) (harg5 : arg5.IsWhole) (arg6 : Memref sig .tc .vmem S32x128x256 .f32) (harg6 : arg6.IsWhole) (arg7 : Memref sig .tc .vmem S32x128x512 .bf16) (harg7 : arg7.IsWhole) (hc : firstCol i)
    (x0 : Vec F S32x512 .f32) (x1 : Vec F S32x128 .f32) (x2 : Vec F S128x512 .f32) (x3 : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (jacTile (prodTile x0 x1 x2) x3)
            ∗ owns (c : Thread nD τ) arg7 fullShare (prodTile x0 x1 x2)) -∗ K ⟨⟩))
      ⊢ wp frame (wpE (defs₀ (F := F)) Variants.none c none) E (cc1__jac_kernel i arg2 harg2 arg3 harg3 arg4 harg4 arg5 harg5 arg6 harg6 arg7 harg7) K := by
  haveI : Fact (firstCol i) := ⟨hc⟩
  simp only [cc1__jac_kernel_eq_skeleton]; unfold cc1__jac_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_run_names
    refine (View.read_writes_eq_canon _ _ _ (cov32x128x256 _)).trans ?_
    unfold jacTile prodTile
    rw [View.readCov_eq_canon_ld _ _ _ (cov32x128x512 _)]
    rfl
  iexists _; isplitr
  swap; · iexact H5
  ipureintro
  sl_unfold_run_names
  exact View.read_writes_eq_canon _ _ _ (cov32x128x512 _)

set_option maxHeartbeats 4000000 in
theorem jac_later (c : Dev nD) (E : Set ℕ) (i : grid1.Coords) (arg2 : Memref sig .tc .vmem S32x512 .f32) (harg2 : arg2.IsWhole) (arg3 : Memref sig .tc .vmem S32x128 .f32) (harg3 : arg3.IsWhole) (arg4 : Memref sig .tc .vmem S128x512 .f32) (harg4 : arg4.IsWhole) (arg5 : Memref sig .tc .vmem S512x256 .f32) (harg5 : arg5.IsWhole) (arg6 : Memref sig .tc .vmem S32x128x256 .f32) (harg6 : arg6.IsWhole) (arg7 : Memref sig .tc .vmem S32x128x512 .bf16) (harg7 : arg7.IsWhole) (hc : ¬firstCol i)
    (x0 : Vec F S32x512 .f32) (x1 : Vec F S32x128 .f32) (x2 : Vec F S128x512 .f32) (x3 : Vec F S512x256 .f32) (s : Vec F S32x128x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (jacTile s x3)
            ∗ owns (c : Thread nD τ) arg7 fullShare s) -∗ K ⟨⟩))
      ⊢ wp frame (wpE (defs₀ (F := F)) Variants.none c none) E (cc1__jac_kernel i arg2 harg2 arg3 harg3 arg4 harg4 arg5 harg5 arg6 harg6 arg7 harg7) K := by
  haveI : Fact (¬firstCol i) := ⟨hc⟩
  simp only [cc1__jac_kernel_eq_skeleton]; unfold cc1__jac_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact View.read_writes_eq_canon _ _ _ (cov32x128x256 _)
  iexists f5; isplitr; · ipureintro; rfl
  iexact H5

/-! ## The scratch between points, and the region's invariant -/

/-- The scratch buffer as the body is handed it: whole. -/
abbrev scr : Memref sig .tc .vmem S32x128x512 .bf16 := Memref.whole cc1_scratch0

/-- The first column step of the row tile that point `t` belongs to. -/
def rowStart (t : Fin cfg1.N) : Fin cfg1.N := ⟨4 * (t.val / 4), by have := t.isLt; omega⟩

/-- The product tile of point `t`'s own blocks. -/
def prodAt (c : Dev nD) (t : Fin cfg1.N) : Vec F S32x128x512 .bf16 :=
  prodTile (blk1 V c 0 t) (blk1 V c 1 t) (blk1 V c 2 t)

theorem rowStart_first (t : Fin cfg1.N) (h : firstCol (grid1.coords t)) : rowStart t = t := by
  have := (firstCol_iff t).mp h
  apply Fin.ext; show 4 * (t.val / 4) = t.val; omega

theorem rowStart_later (t : Fin cfg1.N) (h : ¬firstCol (grid1.coords t)) (hp : t.val - 1 < cfg1.N) :
    rowStart t = rowStart ⟨t.val - 1, hp⟩ := by
  have hne : ¬ (t.val % 4 = 0) := fun e => h ((firstCol_iff t).mpr e)
  apply Fin.ext; show 4 * (t.val / 4) = 4 * ((t.val - 1) / 4); omega

/-- The core's scoped buffers other than this call's staging buffers and its scratch (the other call's staging
    buffers), each at some contents. -/
abbrev others (c : Dev nD) : sProp 𝕄 :=
  Pipeline.scopedRestBut (Ix := Unit) (Name := ℕ) (U := UR sig nD τ) (Lvl := ℕ) (Val := Elt F) spec1 c [cc1_scratch0]

/-- The scoped rest of this call is its scratch beside the others. -/
theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others c) :=
  Pipeline.scopedRest_split_of_list spec1 c [cc1_scratch0] (by decide) (by decide)

/-- The whole scratch buffer at raw contents `f` is the scratch memref at `f`, -/
theorem scr_of_buf (c : Dev nD) (f : Buf (Elt F) ((c : Thread nD τ).loc cc1_scratch0)) :
    (((c : Thread nD τ).loc cc1_scratch0) ↦{fullShare} f : sProp 𝕄) ⊢ owns (c : Thread nD τ) scr fullShare f := by
  rw [owns_whole]
/-- and back, the contents forgotten. -/
theorem buf_of_scr (c : Dev nD) (d : S32x128x512.Idx → Elt F .bf16) :
    (owns (c : Thread nD τ) scr fullShare d : sProp 𝕄)
      ⊢ iprop(∃ f : Buf (Elt F) ((c : Thread nD τ).loc cc1_scratch0), ((c : Thread nD τ).loc cc1_scratch0) ↦{fullShare} f) := by
  rw [owns_whole]; iintro H; iexists d; iexact H

/-- The invariant before position `n`: before the first point nothing is known of the scratch; afterwards it holds the
    product tile of the previous point's row tile. -/
def jacPhi (c : Dev nD) : (n : ℕ) → n ≤ cfg1.N → sProp 𝕄
  | 0, _ => Pipeline.ΦA spec1 c
  | n + 1, h => iprop(owns (c : Thread nD τ) scr fullShare (prodAt V c (rowStart ⟨n, h⟩)) ∗ others c ∗ ∃ r, prngReg c r)

/-- Whatever the position, the invariant holds the scratch at SOME contents, the others, and the register. -/
theorem jacPhi_open (c : Dev nD) (n : ℕ) (h : n ≤ cfg1.N) :
    jacPhi V c n h ⊢ iprop((∃ d, owns (c : Thread nD τ) scr fullShare d) ∗ others c ∗ ∃ r, prngReg c r) := by
  cases n with
  | zero =>
    show Pipeline.ΦA spec1 c ⊢ _
    unfold Pipeline.ΦA; rw [scoped_split]
    iintro ⟨⟨⟨%f, Hs⟩, Ho⟩, Hr⟩
    isplitl [Hs]
    · iexists f; iapply (scr_of_buf c f); iexact Hs
    isplitl [Ho]; · iexact Ho
    iexact Hr
  | succ n =>
    show iprop(owns (c : Thread nD τ) scr fullShare (prodAt V c (rowStart ⟨n, h⟩)) ∗ others c ∗ ∃ r, prngReg c r) ⊢ _
    iintro ⟨Hs, Ho, Hr⟩
    isplitl [Hs]; · iexists _; iexact Hs
    isplitl [Ho]; · iexact Ho
    iexact Hr

/-- And gives the class's invariant back, the scratch's contents forgotten. -/
theorem jacPhi_close (c : Dev nD) (n : ℕ) (h : n ≤ cfg1.N) : jacPhi V c n h ⊢ Pipeline.ΦA spec1 c := by
  refine (jacPhi_open V c n h).trans ?_
  unfold Pipeline.ΦA; rw [scoped_split]
  iintro ⟨⟨%d, Hs⟩, Ho, Hr⟩
  isplitr [Hr]
  · isplitl [Hs]
    · iapply (buf_of_scr c d); iexact Hs
    iexact Ho
  iexact Hr

/-! ## The proof data of the pipeline -/

def jacDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => jacTile (prodAt V c (rowStart t)) (blk1 V c 3 t)
  Φ t := jacPhi V c t.val (Nat.le_of_lt_succ t.isLt)
  q _ := fullShare
  owed _ := 0

theorem jacA (c : Dev nD) (w : Fin cfg1.W) : (jacDat V c).A w = V c (Pipeline.arrRef spec1 w) := by
  dsimp only [jacDat]

theorem jacAfter_0 (c : Dev nD) (t : Fin cfg1.N) : (jacDat V c).after 0 t = blk1 V c 0 t := by dsimp only [jacDat]
theorem jacAfter_1 (c : Dev nD) (t : Fin cfg1.N) : (jacDat V c).after 1 t = blk1 V c 1 t := by dsimp only [jacDat]
theorem jacAfter_2 (c : Dev nD) (t : Fin cfg1.N) : (jacDat V c).after 2 t = blk1 V c 2 t := by dsimp only [jacDat]
theorem jacAfter_3 (c : Dev nD) (t : Fin cfg1.N) : (jacDat V c).after 3 t = blk1 V c 3 t := by dsimp only [jacDat]
theorem jacAfter_4 (c : Dev nD) (t : Fin cfg1.N) : (jacDat V c).after 4 t = jacTile (prodAt V c (rowStart t)) (blk1 V c 3 t) := by dsimp only [jacDat]

theorem jacBefore_0 (c : Dev nD) (t : Fin cfg1.N) (d) : (jacDat V c).before 0 t d = blk1 V c 0 t :=
  ((jacDat V c).before_in_eq_fetched 0 rfl (fun _ => rfl) (fun _ _ _ => rfl)
    (fun t => by rw [jacAfter_0]; unfold Dat.blockOf blk1; rw [jacA]; try rfl) t d).trans
    (by unfold Dat.fetched Dat.blockOf blk1; rw [jacA]; try rfl)
theorem jacBefore_1 (c : Dev nD) (t : Fin cfg1.N) (d) : (jacDat V c).before 1 t d = blk1 V c 1 t :=
  ((jacDat V c).before_in_eq_fetched 1 rfl (fun _ => rfl) (fun _ _ _ => rfl)
    (fun t => by rw [jacAfter_1]; unfold Dat.blockOf blk1; rw [jacA]; try rfl) t d).trans
    (by unfold Dat.fetched Dat.blockOf blk1; rw [jacA]; try rfl)
theorem jacBefore_2 (c : Dev nD) (t : Fin cfg1.N) (d) : (jacDat V c).before 2 t d = blk1 V c 2 t :=
  ((jacDat V c).before_in_eq_fetched 2 rfl (fun _ => rfl) (fun _ _ _ => rfl)
    (fun t => by rw [jacAfter_2]; unfold Dat.blockOf blk1; rw [jacA]; try rfl) t d).trans
    (by unfold Dat.fetched Dat.blockOf blk1; rw [jacA]; try rfl)
theorem jacBefore_3 (c : Dev nD) (t : Fin cfg1.N) (d) : (jacDat V c).before 3 t d = blk1 V c 3 t :=
  ((jacDat V c).before_in_eq_fetched 3 rfl (fun _ => rfl) (fun _ _ _ => rfl)
    (fun t => by rw [jacAfter_3]; unfold Dat.blockOf blk1; rw [jacA]; try rfl) t d).trans
    (by unfold Dat.fetched Dat.blockOf blk1; rw [jacA]; try rfl)

theorem jacPhi_succ (c : Dev nD) (t : Fin cfg1.N) :
    (jacDat V c).Φ t.succ = iprop(owns (c : Thread nD τ) scr fullShare (prodAt V c (rowStart t)) ∗ others c ∗ ∃ r, prngReg c r) := rfl

theorem jacPhi_cast (c : Dev nD) (t : Fin cfg1.N) :
    (jacDat V c).Φ t.castSucc = jacPhi V c t.val (Nat.le_of_lt t.isLt) := rfl

/-! ## The body obligation -/

def jacPre (c : Dev nD) (t : Fin cfg1.N) : sProp 𝕄 :=
  iprop((jacDat V c).Φ t.castSucc ∗ (jacDat V c).owesAt () t.castSucc
    ∗ (∃ d, owns (c : Thread nD τ) (st1_0 t) fullShare ((jacDat V c).before 0 t d))
    ∗ (∃ d, owns (c : Thread nD τ) (st1_1 t) fullShare ((jacDat V c).before 1 t d))
    ∗ (∃ d, owns (c : Thread nD τ) (st1_2 t) fullShare ((jacDat V c).before 2 t d))
    ∗ (∃ d, owns (c : Thread nD τ) (st1_3 t) fullShare ((jacDat V c).before 3 t d))
    ∗ (∃ d, owns (c : Thread nD τ) (st1_4 t) fullShare ((jacDat V c).before 4 t d)))

def jacPost (c : Dev nD) (t : Fin cfg1.N) : sProp 𝕄 :=
  iprop((jacDat V c).Φ t.succ ∗ (jacDat V c).owesAt () t.succ
    ∗ owns (c : Thread nD τ) (st1_0 t) fullShare ((jacDat V c).after 0 t)
    ∗ owns (c : Thread nD τ) (st1_1 t) fullShare ((jacDat V c).after 1 t)
    ∗ owns (c : Thread nD τ) (st1_2 t) fullShare ((jacDat V c).after 2 t)
    ∗ owns (c : Thread nD τ) (st1_3 t) fullShare ((jacDat V c).after 3 t)
    ∗ owns (c : Thread nD τ) (st1_4 t) fullShare ((jacDat V c).after 4 t))

theorem jac_point (c : Dev nD) (t : Fin cfg1.N) :
    jacPre V c t ⊢ wp frame (wpE (defs₀ (F := F)) Variants.none c none) Set.univ (bodyAt1 t) (fun _ => jacPost V c t) := by
  unfold jacPre jacPost bodyAt1
  simp only [jacBefore_0, jacBefore_1, jacBefore_2, jacBefore_3]
  rw [show (jacDat V c).owesAt () t.succ = (jacDat V c).owesAt () t.castSucc from rfl,
    jacPhi_succ, jacPhi_cast, jacAfter_0, jacAfter_1, jacAfter_2, jacAfter_3, jacAfter_4]
  by_cases hc : firstCol (grid1.coords t)
  · -- the first column step: the scratch is rewritten, whatever it held
    rw [rowStart_first t hc]
    iintro ⟨Hphi, Ho, ⟨%d0, H0⟩, ⟨%d1, H1⟩, ⟨%d2, H2⟩, ⟨%d3, H3⟩, ⟨%d4, H4⟩⟩
    ihave Hopen := (jacPhi_open V c t.val (Nat.le_of_lt t.isLt)) $$ Hphi
    icases Hopen with ⟨⟨%ds, Hs⟩, Hoth, Hr⟩
    iapply (jac_first c Set.univ _ _ _ _ _ _ _ _ _ _ _ _ _ hc (blk1 V c 0 t) (blk1 V c 1 t) (blk1 V c 2 t) (blk1 V c 3 t) _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hoth Hr]
    · isplitl [Hs]; · iexact Hs
      isplitl [Hoth]; · iexact Hoth
      iexact Hr
    isplitl [Ho]; · iexact Ho
    isplitl [H0]; · iexact H0
    isplitl [H1]; · iexact H1
    isplitl [H2]; · iexact H2
    isplitl [H3]; · iexact H3
    iexact H4
  · -- a later column step: the scratch is read, and left as it was
    have hpos : t.val ≠ 0 := fun e => hc ((firstCol_iff t).mpr (by rw [e]))
    obtain ⟨n, hn⟩ : ∃ n, t.val = n + 1 := ⟨t.val - 1, by omega⟩
    have hlt : t.val - 1 < cfg1.N := by have := t.isLt; omega
    rw [rowStart_later t hc hlt]
    have hΦ : jacPhi V c t.val (Nat.le_of_lt t.isLt)
        = iprop(owns (c : Thread nD τ) scr fullShare (prodAt V c (rowStart ⟨t.val - 1, hlt⟩)) ∗ others c ∗ ∃ r, prngReg c r) := by
      obtain ⟨tv, ht⟩ := t
      cases tv with
      | zero => exact absurd rfl hpos
      | succ k => rfl
    rw [hΦ]
    iintro ⟨⟨Hs, Hoth, Hr⟩, Ho, ⟨%d0, H0⟩, ⟨%d1, H1⟩, ⟨%d2, H2⟩, ⟨%d3, H3⟩, ⟨%d4, H4⟩⟩
    iapply (jac_later c Set.univ _ _ _ _ _ _ _ _ _ _ _ _ _ hc (blk1 V c 0 t) (blk1 V c 1 t) (blk1 V c 2 t) (blk1 V c 3 t) (prodAt V c (rowStart ⟨t.val - 1, hlt⟩)) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hoth Hr]
    · isplitl [Hs]; · iexact Hs
      isplitl [Hoth]; · iexact Hoth
      iexact Hr
    isplitl [Ho]; · iexact Ho
    isplitl [H0]; · iexact H0
    isplitl [H1]; · iexact H1
    isplitl [H2]; · iexact H2
    isplitl [H3]; · iexact H3
    iexact H4

theorem jac_obligation (c : Dev nD) : BodyObligation (jacDat (F := F) V c) (defs₀ (F := F)) Variants.none () Set.univ := fun t => by
  rw [bigSep_W1, bigSep_W1]
  exact jac_point V c t

end Cert.Kernel.Fr

end
-- ==== Proof.K.Run.lean ====
/-
  The run of @main: two transposes on the host (W1ᵀ and W2ᵀ), then the encoder/decoder call, then the Jacobian
  call.  The core's unscoped buffers are followed through the three items — the launch contents, after the
  transposes, after call 0 (its four output arrays at what its write-backs leave), after call 1 (the Jacobian array
  likewise) — and each call is entered from the state the item before it leaves.  The run ends with EVERY unscoped
  buffer named: the seven arguments as launched (the frame claim) and the three results as the calls' write-backs
  leave them (what the value claim reads).
-/
import proofs.«107210_j23785528885730_1_alg».proof.Proof.K.Reg0
import proofs.«107210_j23785528885730_1_alg».proof.Proof.K.Reg1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two transposes (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the pipeline leaves, every other buffer as entered. -/
def W2 (c : Dev nD) : Valuation τ sig (Elt F) :=
  Pipeline.withArrays spec0 c (W1 m ρ c) fun w => (mlpDat (V1 m ρ) c).arrAt w cfg0.N
theorem W2_arr (c : Dev nD) (w : Fin cfg0.W) :
    W2 m ρ c (Proc.devRef .tc (Pipeline.arrRef spec0 w)) = (mlpDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (mlpDat (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After call 1 (call 1 is entered from call 0's exit: no host operation between them). -/
def W3 (c : Dev nD) : Valuation τ sig (Elt F) :=
  Pipeline.withArrays spec1 c (W2 m ρ c) fun w => (jacDat (V2 m ρ) c).arrAt w cfg1.N
theorem W3_arr (c : Dev nD) (w : Fin cfg1.W) :
    W3 m ρ c (Proc.devRef .tc (Pipeline.arrRef spec1 w)) = (jacDat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem exit1_arr (c : Dev nD) (w : Fin cfg1.W) : (jacDat (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no transpose writes one and each call only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((mlpDat (V1 m ρ) c).arrAt_in 0 rfl _).trans (mlpA (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((jacDat (V2 m ρ) c).arrAt_in 3 rfl _).trans (jacA (V2 m ρ) c 3))
    _ = W1 m ρ c (Proc.devRef .tc main_arg1) := (W2_arr m ρ c 1).trans (((mlpDat (V1 m ρ) c).arrAt_in 1 rfl _).trans (mlpA (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 3).trans (((mlpDat (V1 m ρ) c).arrAt_in 3 rfl _).trans (mlpA (V1 m ρ) c 3))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 2).trans (((jacDat (V2 m ρ) c).arrAt_in 2 rfl _).trans (jacA (V2 m ρ) c 2))
    _ = W1 m ρ c (Proc.devRef .tc main_arg3) := (W2_arr m ρ c 4).trans (((mlpDat (V1 m ρ) c).arrAt_in 4 rfl _).trans (mlpA (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 6).trans (((mlpDat (V1 m ρ) c).arrAt_in 6 rfl _).trans (mlpA (V1 m ρ) c 6))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 7).trans (((mlpDat (V1 m ρ) c).arrAt_in 7 rfl _).trans (mlpA (V1 m ρ) c 7))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 8).trans (((mlpDat (V1 m ρ) c).arrAt_in 8 rfl _).trans (mlpA (V1 m ρ) c 8))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ### The results, and what call 1 reads of call 0's outputs -/

theorem W3_rec (c : Dev nD) : W3 m ρ c (Proc.devRef .tc main_v2_0) = (mlpDat (V1 m ρ) c).arrAt 9 cfg0.N :=
  (W3_of_ne m ρ c main_v2_0 (by decide)).trans (W2_arr m ρ c 9)
theorem W3_code (c : Dev nD) : W3 m ρ c (Proc.devRef .tc main_v2_1) = (mlpDat (V1 m ρ) c).arrAt 10 cfg0.N :=
  (W3_of_ne m ρ c main_v2_1 (by decide)).trans (W2_arr m ρ c 10)
theorem W3_jac (c : Dev nD) : W3 m ρ c (Proc.devRef .tc main_v3) = (jacDat (V2 m ρ) c).arrAt 4 cfg1.N :=
  W3_arr m ρ c 4
theorem V2_d1 (c : Dev nD) : V2 m ρ c main_v2_2 = (mlpDat (V1 m ρ) c).arrAt 11 cfg0.N := W2_arr m ρ c 11
theorem V2_d2 (c : Dev nD) : V2 m ρ c main_v2_3 = (mlpDat (V1 m ρ) c).arrAt 12 cfg0.N := W2_arr m ρ c 12
theorem V2_w2 (c : Dev nD) : V2 m ρ c main_arg3 = V1 m ρ c main_arg3 :=
  (W2_arr m ρ c 4).trans (((mlpDat (V1 m ρ) c).arrAt_in 4 rfl _).trans (mlpA (V1 m ρ) c 4))
theorem V2_w1 (c : Dev nD) : V2 m ρ c main_arg1 = V1 m ρ c main_arg1 :=
  (W2_arr m ρ c 1).trans (((mlpDat (V1 m ρ) c).arrAt_in 1 rfl _).trans (mlpA (V1 m ρ) c 1))

/-! ## The proof data family and the thread state -/

abbrev adm : (p : Fin 2) → (pcfgs (F := F) p).Adm := fun p => (cfgs p).toPCfg_adm
/-- Every pipeline's proof data at its call's entry contents. -/
def pdats : (p : Fin 2) → (c : Dev nD) → Dat τ (Elt F) Unit ℕ (UR sig nD τ) ℕ (Pipeline.pin (pcfgs (F := F)) adm p) c
  | ⟨0, _⟩ => fun c => mlpDat (V1 m ρ) c
  | ⟨1, _⟩ => fun c => jacDat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem transposes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- Call 0: entered from the buffers after the transposes, left at `W2`. -/
def seg_mlp : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (mlp_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from `W2`, left at `W3`; its invariant takes the scoped rest in at the first point and gives it
    back, the scratch's contents forgotten, at the last. -/
def seg_jac : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (jac_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m ρ 1 c).Φ (Fin.last _) = jacPhi (V2 m ρ) c (Fin.last cfg1.N).val (Nat.le_of_lt_succ (Fin.last cfg1.N).isLt) from rfl]
    refine (jacPhi_close (V2 m ρ) c _ _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub transposes_fresh (W0 m ρ)),
    .region (seg_mlp m ρ),
    .region (seg_jac m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at `W3`. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's post: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_bufs m ρ)

/-- The run with the three results named beside the arguments. -/
theorem run_results : θ_run defs (onTc (τ := τ) (main (F := F))) ⟨m, fun _ => 0, ρ⟩ (fun r => ∀ c : Dev nD,
      r.2.mem ((c.tc : Thread nD τ).loc main_v2_0) = (mlpDat (V1 m ρ) c).arrAt 9 cfg0.N
      ∧ r.2.mem ((c.tc : Thread nD τ).loc main_v2_1) = (mlpDat (V1 m ρ) c).arrAt 10 cfg0.N
      ∧ r.2.mem ((c.tc : Thread nD τ).loc main_v3) = (jacDat (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v2_0 (by decide))).trans (W3_rec m ρ c),
     (h c _ (mem_uc main_v2_1 (by decide))).trans (W3_code m ρ c),
     (h c _ (mem_uc main_v3 (by decide))).trans (W3_jac m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_bufs m ρ)

end Cert.Kernel.Fr

end
-- ==== Proof.KI.Reg0.lean ====
/-
  Region 0 of @main (the encoder/decoder call, grid of 4 batch tiles of 128 rows), read at an arbitrary valuation
  `V` of the core's buffers at the region's entry.  At a grid point the body sees nine input blocks
  (a 128-row tile of x, and W1, W1ᵀ, b1, W2, W2ᵀ, b2, b3, b_r whole) and writes four output blocks: the
  128-row tiles of the reconstruction, of the code c2, and of the two sigmoid derivatives s1' = c1(1-c1),
  s2' = c2(1-c2).  Each output block is ONE whole-block store, so what the body leaves in an output's
  staging buffer is the store's payload read back over the whole block.
-/
import proofs.«107210_j23785528885730_1_alg».proof.Proof.Gen.KernelIdeal.Launch
import proofs.«107210_j23785528885730_1_alg».proof.Proof.Gen.KernelIdeal.Skeleton
import proofs.«107210_j23785528885730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks and whole-block rectangles -/

/-- The block of window `w` at grid point `t`, cut out of the window's array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev q128x1024 : Rect S128x1024 := Rect.unit (s := S128x1024) ![0, 0] S128x1024.size inb_S128x1024_S128x1024_0_0
abbrev q512x1024 : Rect S512x1024 := Rect.unit (s := S512x1024) ![0, 0] S512x1024.size inb_S512x1024_S512x1024_0_0
abbrev q1024x512 : Rect S1024x512 := Rect.unit (s := S1024x512) ![0, 0] S1024x512.size inb_S1024x512_S1024x512_0_0
abbrev q512 : Rect S512 := Rect.unit (s := S512) ![0] S512.size inb_S512_S512_0
abbrev q128x512 : Rect S128x512 := Rect.unit (s := S128x512) ![0, 0] S128x512.size inb_S128x512_S128x512_0_0
abbrev q512x128 : Rect S512x128 := Rect.unit (s := S512x128) ![0, 0] S512x128.size inb_S512x128_S512x128_0_0
abbrev q128 : Rect S128 := Rect.unit (s := S128) ![0] S128.size inb_S128_S128_0
abbrev q1024 : Rect S1024 := Rect.unit (s := S1024) ![0] S1024.size inb_S1024_S1024_0
abbrev q128x128 : Rect S128x128 := Rect.unit (s := S128x128) ![0, 0] S128x128.size inb_S128x128_S128x128_0_0

/-! ## What the body leaves in the four output buffers, as functions of the nine input blocks -/

/-- The reconstruction tile: sigmoid(c2·W2 + b3)·W1 + b_r, with c2 as below. -/
def recTile (x0 : Vec F S128x1024 .f32) (x1 : Vec F S512x1024 .f32) (x2 : Vec F S1024x512 .f32) (x3 : Vec F S512 .f32) (x4 : Vec F S128x512 .f32) (x5 : Vec F S512x128 .f32) (x6 : Vec F S128 .f32) (x7 : Vec F S512 .f32) (x8 : Vec F S1024 .f32) : Vec F S128x1024 .f32 :=
  View.canon [⟨q128x1024, k0_pay1 (k0_pay6 (View.ld x0 q128x1024) (View.ld x2 q1024x512) (View.ld x3 q512) (View.ld x5 q512x128) (View.ld x6 q128) (View.ld x4 q128x512) (View.ld x7 q512) (View.ld x1 q512x1024)) (View.ld x8 q1024)⟩]
/-- The code tile c2 = sigmoid(c1·W2ᵀ + b2), c1 = sigmoid(x·W1ᵀ + b1). -/
def codeTile (x0 : Vec F S128x1024 .f32) (x2 : Vec F S1024x512 .f32) (x3 : Vec F S512 .f32) (x5 : Vec F S512x128 .f32) (x6 : Vec F S128 .f32) : Vec F S128x128 .f32 :=
  View.canon [⟨q128x128, k0_pay4 (View.ld x0 q128x1024) (View.ld x2 q1024x512) (View.ld x3 q512) (View.ld x5 q512x128) (View.ld x6 q128)⟩]
/-- The first derivative tile c1·(1 - c1). -/
def d1Tile (x0 : Vec F S128x1024 .f32) (x2 : Vec F S1024x512 .f32) (x3 : Vec F S512 .f32) : Vec F S128x512 .f32 :=
  View.canon [⟨q128x512, k0_pay3 (View.ld x0 q128x1024) (View.ld x2 q1024x512) (View.ld x3 q512)⟩]
/-- The second derivative tile c2·(1 - c2). -/
def d2Tile (x0 : Vec F S128x1024 .f32) (x2 : Vec F S1024x512 .f32) (x3 : Vec F S512 .f32) (x5 : Vec F S512x128 .f32) (x6 : Vec F S128 .f32) : Vec F S128x128 .f32 :=
  View.canon [⟨q128x128, k0_pay5 (View.ld x0 q128x1024) (View.ld x2 q1024x512) (View.ld x3 q512) (View.ld x5 q512x128) (View.ld x6 q128)⟩]

/-- A single whole-block store covers the block. -/
theorem cov128x1024 (p0 : Vec F S128x1024 .f32) (y : S128x1024.Idx) :
    ∃ pc ∈ ([⟨q128x1024, p0⟩] : List (View.Piece (Elt F) S128x1024 .f32)), y ∈ pc.1.set :=
  View.cover_of_tiled [⟨q128x1024, p0⟩] S128x1024.size (by rfl) y
theorem cov128x128 (p0 : Vec F S128x128 .f32) (y : S128x128.Idx) :
    ∃ pc ∈ ([⟨q128x128, p0⟩] : List (View.Piece (Elt F) S128x128 .f32)), y ∈ pc.1.set :=
  View.cover_of_tiled [⟨q128x128, p0⟩] S128x128.size (by rfl) y
theorem cov128x512 (p0 : Vec F S128x512 .f32) (y : S128x512.Idx) :
    ∃ pc ∈ ([⟨q128x512, p0⟩] : List (View.Piece (Elt F) S128x512 .f32)), y ∈ pc.1.set :=
  View.cover_of_tiled [⟨q128x512, p0⟩] S128x512.size (by rfl) y

/-! ## The body's triple -/

set_option maxHeartbeats 4000000 in
/-- The body on whole staging memrefs: the nine inputs at read contents, the four outputs at anything, runs to the
    continuation with the inputs as they were and each output at its tile. -/
theorem mlp_body (c : Dev nD) (E : Set ℕ) (i : grid0.Coords) (arg1 : Memref sig .tc .vmem S128x1024 .f32) (harg1 : arg1.IsWhole) (arg2 : Memref sig .tc .vmem S512x1024 .f32) (harg2 : arg2.IsWhole) (arg3 : Memref sig .tc .vmem S1024x512 .f32) (harg3 : arg3.IsWhole) (arg4 : Memref sig .tc .vmem S512 .f32) (harg4 : arg4.IsWhole) (arg5 : Memref sig .tc .vmem S128x512 .f32) (harg5 : arg5.IsWhole) (arg6 : Memref sig .tc .vmem S512x128 .f32) (harg6 : arg6.IsWhole) (arg7 : Memref sig .tc .vmem S128 .f32) (harg7 : arg7.IsWhole) (arg8 : Memref sig .tc .vmem S512 .f32) (harg8 : arg8.IsWhole) (arg9 : Memref sig .tc .vmem S1024 .f32) (harg9 : arg9.IsWhole) (arg10 : Memref sig .tc .vmem S128x1024 .f32) (harg10 : arg10.IsWhole) (arg11 : Memref sig .tc .vmem S128x128 .f32) (harg11 : arg11.IsWhole) (arg12 : Memref sig .tc .vmem S128x512 .f32) (harg12 : arg12.IsWhole) (arg13 : Memref sig .tc .vmem S128x128 .f32) (harg13 : arg13.IsWhole)
    (x0 : Vec F S128x1024 .f32) (x1 : Vec F S512x1024 .f32) (x2 : Vec F S1024x512 .f32) (x3 : Vec F S512 .f32) (x4 : Vec F S128x512 .f32) (x5 : Vec F S512x128 .f32) (x6 : Vec F S128 .f32) (x7 : Vec F S512 .f32) (x8 : Vec F S1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
        ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ owns (c : Thread nD τ) arg10 fullShare (recTile x0 x1 x2 x3 x4 x5 x6 x7 x8)
            ∗ owns (c : Thread nD τ) arg11 fullShare (codeTile x0 x2 x3 x5 x6)
            ∗ owns (c : Thread nD τ) arg12 fullShare (d1Tile x0 x2 x3)
            ∗ owns (c : Thread nD τ) arg13 fullShare (d2Tile x0 x2 x3 x5 x6)) -∗ K ⟨⟩))
      ⊢ wp frame (wpE (defs₀ (F := F)) Variants.none c none) E (cc0__mlp_kernel i arg1 harg1 arg2 harg2 arg3 harg3 arg4 harg4 arg5 harg5 arg6 harg6 arg7 harg7 arg8 harg8 arg9 harg9 arg10 harg10 arg11 harg11 arg12 harg12 arg13 harg13) K := by
  simp only [cc0__mlp_kernel_eq_skeleton]; unfold cc0__mlp_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact View.read_writes_eq_canon _ _ _ (cov128x1024 _)
  isplitl [H10]
  · iexists _; isplitr
    swap; · iexact H10
    ipureintro
    exact View.read_writes_eq_canon _ _ _ (cov128x128 _)
  isplitl [H11]
  · iexists _; isplitr
    swap; · iexact H11
    ipureintro
    exact View.read_writes_eq_canon _ _ _ (cov128x512 _)
  iexists _; isplitr
  swap; · iexact H12
  ipureintro
  exact View.read_writes_eq_canon _ _ _ (cov128x128 _)

/-! ## The proof data of the pipeline -/

/-- Pipeline 0's proof data on core `c`: the windows' arrays as the region finds them; after the body at point
    `t` every input buffer still holds its block and every output buffer its tile of the point's input blocks; the
    invariant is the scoped buffers no window stages and the generator register, untouched; nothing owed. -/
def mlpDat (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => recTile (blk0 V c 0 t) (blk0 V c 1 t) (blk0 V c 2 t) (blk0 V c 3 t) (blk0 V c 4 t) (blk0 V c 5 t) (blk0 V c 6 t) (blk0 V c 7 t) (blk0 V c 8 t)
    | ⟨10, _⟩ => codeTile (blk0 V c 0 t) (blk0 V c 2 t) (blk0 V c 3 t) (blk0 V c 5 t) (blk0 V c 6 t)
    | ⟨11, _⟩ => d1Tile (blk0 V c 0 t) (blk0 V c 2 t) (blk0 V c 3 t)
    | ⟨12, _⟩ => d2Tile (blk0 V c 0 t) (blk0 V c 2 t) (blk0 V c 3 t) (blk0 V c 5 t) (blk0 V c 6 t)
  Φ _ := Pipeline.ΦA spec0 c
  q _ := fullShare
  owed _ := 0

theorem mlpA (c : Dev nD) (w : Fin cfg0.W) : (mlpDat V c).A w = V c (Pipeline.arrRef spec0 w) := by
  dsimp only [mlpDat]

theorem mlpAfter_0 (c : Dev nD) (t : Fin cfg0.N) : (mlpDat V c).after 0 t = blk0 V c 0 t := by dsimp only [mlpDat]
theorem mlpAfter_1 (c : Dev nD) (t : Fin cfg0.N) : (mlpDat V c).after 1 t = blk0 V c 1 t := by dsimp only [mlpDat]
theorem mlpAfter_2 (c : Dev nD) (t : Fin cfg0.N) : (mlpDat V c).after 2 t = blk0 V c 2 t := by dsimp only [mlpDat]
theorem mlpAfter_3 (c : Dev nD) (t : Fin cfg0.N) : (mlpDat V c).after 3 t = blk0 V c 3 t := by dsimp only [mlpDat]
theorem mlpAfter_4 (c : Dev nD) (t : Fin cfg0.N) : (mlpDat V c).after 4 t = blk0 V c 4 t := by dsimp only [mlpDat]
theorem mlpAfter_5 (c : Dev nD) (t : Fin cfg0.N) : (mlpDat V c).after 5 t = blk0 V c 5 t := by dsimp only [mlpDat]
theorem mlpAfter_6 (c : Dev nD) (t : Fin cfg0.N) : (mlpDat V c).after 6 t = blk0 V c 6 t := by dsimp only [mlpDat]
theorem mlpAfter_7 (c : Dev nD) (t : Fin cfg0.N) : (mlpDat V c).after 7 t = blk0 V c 7 t := by dsimp only [mlpDat]
theorem mlpAfter_8 (c : Dev nD) (t : Fin cfg0.N) : (mlpDat V c).after 8 t = blk0 V c 8 t := by dsimp only [mlpDat]
theorem mlpAfter_9 (c : Dev nD) (t : Fin cfg0.N) : (mlpDat V c).after 9 t = recTile (blk0 V c 0 t) (blk0 V c 1 t) (blk0 V c 2 t) (blk0 V c 3 t) (blk0 V c 4 t) (blk0 V c 5 t) (blk0 V c 6 t) (blk0 V c 7 t) (blk0 V c 8 t) := by dsimp only [mlpDat]
theorem mlpAfter_10 (c : Dev nD) (t : Fin cfg0.N) : (mlpDat V c).after 10 t = codeTile (blk0 V c 0 t) (blk0 V c 2 t) (blk0 V c 3 t) (blk0 V c 5 t) (blk0 V c 6 t) := by dsimp only [mlpDat]
theorem mlpAfter_11 (c : Dev nD) (t : Fin cfg0.N) : (mlpDat V c).after 11 t = d1Tile (blk0 V c 0 t) (blk0 V c 2 t) (blk0 V c 3 t) := by dsimp only [mlpDat]
theorem mlpAfter_12 (c : Dev nD) (t : Fin cfg0.N) : (mlpDat V c).after 12 t = d2Tile (blk0 V c 0 t) (blk0 V c 2 t) (blk0 V c 3 t) (blk0 V c 5 t) (blk0 V c 6 t) := by dsimp only [mlpDat]

/-- An input's current staging buffer holds the point's block whether or not it was fetched at the point: an
    unfetched input's block index has not moved. -/
theorem mlpBefore_0 (c : Dev nD) (t : Fin cfg0.N) (d) : (mlpDat V c).before 0 t d = blk0 V c 0 t :=
  ((mlpDat V c).before_in_eq_fetched 0 rfl (fun _ => rfl) (fun _ _ _ => rfl)
    (fun t => by rw [mlpAfter_0]; unfold Dat.blockOf blk0; rw [mlpA]; try rfl) t d).trans
    (by unfold Dat.fetched Dat.blockOf blk0; rw [mlpA]; try rfl)
theorem mlpBefore_1 (c : Dev nD) (t : Fin cfg0.N) (d) : (mlpDat V c).before 1 t d = blk0 V c 1 t :=
  ((mlpDat V c).before_in_eq_fetched 1 rfl (fun _ => rfl) (fun _ _ _ => rfl)
    (fun t => by rw [mlpAfter_1]; unfold Dat.blockOf blk0; rw [mlpA]; try rfl) t d).trans
    (by unfold Dat.fetched Dat.blockOf blk0; rw [mlpA]; try rfl)
theorem mlpBefore_2 (c : Dev nD) (t : Fin cfg0.N) (d) : (mlpDat V c).before 2 t d = blk0 V c 2 t :=
  ((mlpDat V c).before_in_eq_fetched 2 rfl (fun _ => rfl) (fun _ _ _ => rfl)
    (fun t => by rw [mlpAfter_2]; unfold Dat.blockOf blk0; rw [mlpA]; try rfl) t d).trans
    (by unfold Dat.fetched Dat.blockOf blk0; rw [mlpA]; try rfl)
theorem mlpBefore_3 (c : Dev nD) (t : Fin cfg0.N) (d) : (mlpDat V c).before 3 t d = blk0 V c 3 t :=
  ((mlpDat V c).before_in_eq_fetched 3 rfl (fun _ => rfl) (fun _ _ _ => rfl)
    (fun t => by rw [mlpAfter_3]; unfold Dat.blockOf blk0; rw [mlpA]; try rfl) t d).trans
    (by unfold Dat.fetched Dat.blockOf blk0; rw [mlpA]; try rfl)
theorem mlpBefore_4 (c : Dev nD) (t : Fin cfg0.N) (d) : (mlpDat V c).before 4 t d = blk0 V c 4 t :=
  ((mlpDat V c).before_in_eq_fetched 4 rfl (fun _ => rfl) (fun _ _ _ => rfl)
    (fun t => by rw [mlpAfter_4]; unfold Dat.blockOf blk0; rw [mlpA]; try rfl) t d).trans
    (by unfold Dat.fetched Dat.blockOf blk0; rw [mlpA]; try rfl)
theorem mlpBefore_5 (c : Dev nD) (t : Fin cfg0.N) (d) : (mlpDat V c).before 5 t d = blk0 V c 5 t :=
  ((mlpDat V c).before_in_eq_fetched 5 rfl (fun _ => rfl) (fun _ _ _ => rfl)
    (fun t => by rw [mlpAfter_5]; unfold Dat.blockOf blk0; rw [mlpA]; try rfl) t d).trans
    (by unfold Dat.fetched Dat.blockOf blk0; rw [mlpA]; try rfl)
theorem mlpBefore_6 (c : Dev nD) (t : Fin cfg0.N) (d) : (mlpDat V c).before 6 t d = blk0 V c 6 t :=
  ((mlpDat V c).before_in_eq_fetched 6 rfl (fun _ => rfl) (fun _ _ _ => rfl)
    (fun t => by rw [mlpAfter_6]; unfold Dat.blockOf blk0; rw [mlpA]; try rfl) t d).trans
    (by unfold Dat.fetched Dat.blockOf blk0; rw [mlpA]; try rfl)
theorem mlpBefore_7 (c : Dev nD) (t : Fin cfg0.N) (d) : (mlpDat V c).before 7 t d = blk0 V c 7 t :=
  ((mlpDat V c).before_in_eq_fetched 7 rfl (fun _ => rfl) (fun _ _ _ => rfl)
    (fun t => by rw [mlpAfter_7]; unfold Dat.blockOf blk0; rw [mlpA]; try rfl) t d).trans
    (by unfold Dat.fetched Dat.blockOf blk0; rw [mlpA]; try rfl)
theorem mlpBefore_8 (c : Dev nD) (t : Fin cfg0.N) (d) : (mlpDat V c).before 8 t d = blk0 V c 8 t :=
  ((mlpDat V c).before_in_eq_fetched 8 rfl (fun _ => rfl) (fun _ _ _ => rfl)
    (fun t => by rw [mlpAfter_8]; unfold Dat.blockOf blk0; rw [mlpA]; try rfl) t d).trans
    (by unfold Dat.fetched Dat.blockOf blk0; rw [mlpA]; try rfl)

/-! ## The body obligation -/

def mlpPre (c : Dev nD) (t : Fin cfg0.N) : sProp 𝕄 :=
  iprop((mlpDat V c).Φ t.castSucc ∗ (mlpDat V c).owesAt () t.castSucc
    ∗ (∃ d, owns (c : Thread nD τ) (st0_0 t) fullShare ((mlpDat V c).before 0 t d))
    ∗ (∃ d, owns (c : Thread nD τ) (st0_1 t) fullShare ((mlpDat V c).before 1 t d))
    ∗ (∃ d, owns (c : Thread nD τ) (st0_2 t) fullShare ((mlpDat V c).before 2 t d))
    ∗ (∃ d, owns (c : Thread nD τ) (st0_3 t) fullShare ((mlpDat V c).before 3 t d))
    ∗ (∃ d, owns (c : Thread nD τ) (st0_4 t) fullShare ((mlpDat V c).before 4 t d))
    ∗ (∃ d, owns (c : Thread nD τ) (st0_5 t) fullShare ((mlpDat V c).before 5 t d))
    ∗ (∃ d, owns (c : Thread nD τ) (st0_6 t) fullShare ((mlpDat V c).before 6 t d))
    ∗ (∃ d, owns (c : Thread nD τ) (st0_7 t) fullShare ((mlpDat V c).before 7 t d))
    ∗ (∃ d, owns (c : Thread nD τ) (st0_8 t) fullShare ((mlpDat V c).before 8 t d))
    ∗ (∃ d, owns (c : Thread nD τ) (st0_9 t) fullShare ((mlpDat V c).before 9 t d))
    ∗ (∃ d, owns (c : Thread nD τ) (st0_10 t) fullShare ((mlpDat V c).before 10 t d))
    ∗ (∃ d, owns (c : Thread nD τ) (st0_11 t) fullShare ((mlpDat V c).before 11 t d))
    ∗ (∃ d, owns (c : Thread nD τ) (st0_12 t) fullShare ((mlpDat V c).before 12 t d)))

def mlpPost (c : Dev nD) (t : Fin cfg0.N) : sProp 𝕄 :=
  iprop((mlpDat V c).Φ t.succ ∗ (mlpDat V c).owesAt () t.succ
    ∗ owns (c : Thread nD τ) (st0_0 t) fullShare ((mlpDat V c).after 0 t)
    ∗ owns (c : Thread nD τ) (st0_1 t) fullShare ((mlpDat V c).after 1 t)
    ∗ owns (c : Thread nD τ) (st0_2 t) fullShare ((mlpDat V c).after 2 t)
    ∗ owns (c : Thread nD τ) (st0_3 t) fullShare ((mlpDat V c).after 3 t)
    ∗ owns (c : Thread nD τ) (st0_4 t) fullShare ((mlpDat V c).after 4 t)
    ∗ owns (c : Thread nD τ) (st0_5 t) fullShare ((mlpDat V c).after 5 t)
    ∗ owns (c : Thread nD τ) (st0_6 t) fullShare ((mlpDat V c).after 6 t)
    ∗ owns (c : Thread nD τ) (st0_7 t) fullShare ((mlpDat V c).after 7 t)
    ∗ owns (c : Thread nD τ) (st0_8 t) fullShare ((mlpDat V c).after 8 t)
    ∗ owns (c : Thread nD τ) (st0_9 t) fullShare ((mlpDat V c).after 9 t)
    ∗ owns (c : Thread nD τ) (st0_10 t) fullShare ((mlpDat V c).after 10 t)
    ∗ owns (c : Thread nD τ) (st0_11 t) fullShare ((mlpDat V c).after 11 t)
    ∗ owns (c : Thread nD τ) (st0_12 t) fullShare ((mlpDat V c).after 12 t))

theorem mlp_point (c : Dev nD) (t : Fin cfg0.N) :
    mlpPre V c t ⊢ wp frame (wpE (defs₀ (F := F)) Variants.none c none) Set.univ (bodyAt0 t) (fun _ => mlpPost V c t) := by
  unfold mlpPre mlpPost bodyAt0
  simp only [mlpBefore_0, mlpBefore_1, mlpBefore_2, mlpBefore_3, mlpBefore_4, mlpBefore_5, mlpBefore_6, mlpBefore_7, mlpBefore_8]
  rw [show (mlpDat V c).Φ t.succ = (mlpDat V c).Φ t.castSucc from rfl,
    show (mlpDat V c).owesAt () t.succ = (mlpDat V c).owesAt () t.castSucc from rfl,
    mlpAfter_0, mlpAfter_1, mlpAfter_2, mlpAfter_3, mlpAfter_4, mlpAfter_5, mlpAfter_6, mlpAfter_7, mlpAfter_8, mlpAfter_9, mlpAfter_10, mlpAfter_11, mlpAfter_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (mlp_body c Set.univ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem mlp_obligation (c : Dev nD) : BodyObligation (mlpDat (F := F) V c) (defs₀ (F := F)) Variants.none () Set.univ := fun t => by
  rw [bigSep_W0, bigSep_W0]
  exact mlp_point V c t

end Cert.KernelIdeal.Fr

end
-- ==== Proof.KI.Reg1.lean ====
/-
  Region 1 of @main (the Jacobian call, a 16×4 grid: 16 row tiles of 32 samples, 4 column tiles of 256), read at an
  arbitrary valuation `V` of the core's buffers at the region's entry.  At a grid point the body sees the row
  tile's blocks of s1' (32×512) and s2' (32×128), W2 whole, and a 256-column tile of W1.  At the first column step
  of a row tile it forms M[b,h,k] = s2'[b,h]·W2[h,k]·s1'[b,k] and stores it WHOLE into a scratch buffer the
  pipeline does not stage; at every column step it reads the scratch back, flattens it to (32·128)×512 and
  multiplies by the W1 tile.  So the scratch is carried from point to point: after point t it holds the product
  tile of the row tile's FIRST column step, point 4·(t/4) — which is what the region's invariant says.
-/
import proofs.«107210_j23785528885730_1_alg».proof.Proof.Gen.KernelIdeal.Launch
import proofs.«107210_j23785528885730_1_alg».proof.Proof.Gen.KernelIdeal.Skeleton
import proofs.«107210_j23785528885730_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev p32x512 : Rect S32x512 := Rect.unit (s := S32x512) ![0, 0] S32x512.size inb_S32x512_S32x512_0_0
abbrev p32x128 : Rect S32x128 := Rect.unit (s := S32x128) ![0, 0] S32x128.size inb_S32x128_S32x128_0_0
abbrev p128x512 : Rect S128x512 := Rect.unit (s := S128x512) ![0, 0] S128x512.size inb_S128x512_S128x512_0_0
abbrev p512x256 : Rect S512x256 := Rect.unit (s := S512x256) ![0, 0] S512x256.size inb_S512x256_S512x256_0_0
abbrev p32x128x256 : Rect S32x128x256 := Rect.unit (s := S32x128x256) ![0, 0, 0] S32x128x256.size inb_S32x128x256_S32x128x256_0_0_0
abbrev p32x128x512 : Rect S32x128x512 := Rect.unit (s := S32x128x512) ![0, 0, 0] S32x128x512.size inb_S32x128x512_S32x128x512_0_0_0

/-- The product tile M[b,h,k] = s2'[b,h]·W2[h,k]·s1'[b,k] the first column step leaves in the scratch. -/
def prodTile (x0 : Vec F S32x512 .f32) (x1 : Vec F S32x128 .f32) (x2 : Vec F S128x512 .f32) : Vec F S32x128x512 .bf16 :=
  View.canon [⟨p32x128x512, k1_pay1 (View.ld x0 p32x512) (View.ld x1 p32x128) (View.ld x2 p128x512)⟩]
/-- The Jacobian tile: the scratch's product tile, flattened, times a 256-column tile of W1. -/
def jacTile (s : Vec F S32x128x512 .bf16) (x3 : Vec F S512x256 .f32) : Vec F S32x128x256 .f32 :=
  View.canon [⟨p32x128x256, k1_pay2 (View.ld s p32x128x512) (View.ld x3 p512x256)⟩]

theorem cov32x128x512 (p0 : Vec F S32x128x512 .bf16) (y : S32x128x512.Idx) :
    ∃ pc ∈ ([⟨p32x128x512, p0⟩] : List (View.Piece (Elt F) S32x128x512 .bf16)), y ∈ pc.1.set :=
  View.cover_of_tiled [⟨p32x128x512, p0⟩] S32x128x512.size (by rfl) y
theorem cov32x128x256 (p0 : Vec F S32x128x256 .f32) (y : S32x128x256.Idx) :
    ∃ pc ∈ ([⟨p32x128x256, p0⟩] : List (View.Piece (Elt F) S32x128x256 .f32)), y ∈ pc.1.set :=
  View.cover_of_tiled [⟨p32x128x256, p0⟩] S32x128x256.size (by rfl) y

/-- The branch of the body: taken exactly when the column coordinate is 0. -/
abbrev firstCol (i : grid1.Coords) : Prop := (Scalar.cmpi .ne (Scalar.extui (Scalar.cmpi .eq (BitVec.ofNat 32 (i 1).val) 0#32)) 0#32) = 1#1
theorem firstCol_iff : ∀ t : Fin cfg1.N, firstCol (grid1.coords t) ↔ t.val % 4 = 0 :=
  (by decide +kernel : ∀ t : Fin grid1.N, firstCol (grid1.coords t) ↔ t.val % 4 = 0)

set_option maxHeartbeats 4000000 in
theorem jac_first (c : Dev nD) (E : Set ℕ) (i : grid1.Coords) (arg2 : Memref sig .tc .vmem S32x512 .f32) (harg2 : arg2.IsWhole) (arg3 : Memref sig .tc .vmem S32x128 .f32) (harg3 : arg3.IsWhole) (arg4 : Memref sig .tc .vmem S128x512 .f32) (harg4 : arg4.IsWhole) (arg5 : Memref sig .tc .vmem S512x256 .f32) (harg5 : arg5.IsWhole) (arg6 : Memref sig .tc .vmem S32x128x256 .f32) (harg6 : arg6.IsWhole) (arg7 : Memref sig .tc .vmem S32x128x512 .bf16) (harg7 : arg7.IsWhole) (hc : firstCol i)
    (x0 : Vec F S32x512 .f32) (x1 : Vec F S32x128 .f32) (x2 : Vec F S128x512 .f32) (x3 : Vec F S512x256 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (jacTile (prodTile x0 x1 x2) x3)
            ∗ owns (c : Thread nD τ) arg7 fullShare (prodTile x0 x1 x2)) -∗ K ⟨⟩))
      ⊢ wp frame (wpE (defs₀ (F := F)) Variants.none c none) E (cc1__jac_kernel i arg2 harg2 arg3 harg3 arg4 harg4 arg5 harg5 arg6 harg6 arg7 harg7) K := by
  haveI : Fact (firstCol i) := ⟨hc⟩
  simp only [cc1__jac_kernel_eq_skeleton]; unfold cc1__jac_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    sl_unfold_run_names
    refine (View.read_writes_eq_canon _ _ _ (cov32x128x256 _)).trans ?_
    unfold jacTile prodTile
    rw [View.readCov_eq_canon_ld _ _ _ (cov32x128x512 _)]
    rfl
  iexists _; isplitr
  swap; · iexact H5
  ipureintro
  sl_unfold_run_names
  exact View.read_writes_eq_canon _ _ _ (cov32x128x512 _)

set_option maxHeartbeats 4000000 in
theorem jac_later (c : Dev nD) (E : Set ℕ) (i : grid1.Coords) (arg2 : Memref sig .tc .vmem S32x512 .f32) (harg2 : arg2.IsWhole) (arg3 : Memref sig .tc .vmem S32x128 .f32) (harg3 : arg3.IsWhole) (arg4 : Memref sig .tc .vmem S128x512 .f32) (harg4 : arg4.IsWhole) (arg5 : Memref sig .tc .vmem S512x256 .f32) (harg5 : arg5.IsWhole) (arg6 : Memref sig .tc .vmem S32x128x256 .f32) (harg6 : arg6.IsWhole) (arg7 : Memref sig .tc .vmem S32x128x512 .bf16) (harg7 : arg7.IsWhole) (hc : ¬firstCol i)
    (x0 : Vec F S32x512 .f32) (x1 : Vec F S32x128 .f32) (x2 : Vec F S128x512 .f32) (x3 : Vec F S512x256 .f32) (s : Vec F S32x128x512 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare s
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (jacTile s x3)
            ∗ owns (c : Thread nD τ) arg7 fullShare s) -∗ K ⟨⟩))
      ⊢ wp frame (wpE (defs₀ (F := F)) Variants.none c none) E (cc1__jac_kernel i arg2 harg2 arg3 harg3 arg4 harg4 arg5 harg5 arg6 harg6 arg7 harg7) K := by
  haveI : Fact (¬firstCol i) := ⟨hc⟩
  simp only [cc1__jac_kernel_eq_skeleton]; unfold cc1__jac_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  subst hf0 hf1 hf2 hf3 hf5
  sl_exec (disch := first | exact hc)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr
    swap; · iexact H4
    ipureintro
    exact View.read_writes_eq_canon _ _ _ (cov32x128x256 _)
  iexists f5; isplitr; · ipureintro; rfl
  iexact H5

/-! ## The scratch between points, and the region's invariant -/

/-- The scratch buffer as the body is handed it: whole. -/
abbrev scr : Memref sig .tc .vmem S32x128x512 .bf16 := Memref.whole cc1_scratch0

/-- The first column step of the row tile that point `t` belongs to. -/
def rowStart (t : Fin cfg1.N) : Fin cfg1.N := ⟨4 * (t.val / 4), by have := t.isLt; omega⟩

/-- The product tile of point `t`'s own blocks. -/
def prodAt (c : Dev nD) (t : Fin cfg1.N) : Vec F S32x128x512 .bf16 :=
  prodTile (blk1 V c 0 t) (blk1 V c 1 t) (blk1 V c 2 t)

theorem rowStart_first (t : Fin cfg1.N) (h : firstCol (grid1.coords t)) : rowStart t = t := by
  have := (firstCol_iff t).mp h
  apply Fin.ext; show 4 * (t.val / 4) = t.val; omega

theorem rowStart_later (t : Fin cfg1.N) (h : ¬firstCol (grid1.coords t)) (hp : t.val - 1 < cfg1.N) :
    rowStart t = rowStart ⟨t.val - 1, hp⟩ := by
  have hne : ¬ (t.val % 4 = 0) := fun e => h ((firstCol_iff t).mpr e)
  apply Fin.ext; show 4 * (t.val / 4) = 4 * ((t.val - 1) / 4); omega

/-- The core's scoped buffers other than this call's staging buffers and its scratch (the other call's staging
    buffers), each at some contents. -/
abbrev others (c : Dev nD) : sProp 𝕄 :=
  Pipeline.scopedRestBut (Ix := Unit) (Name := ℕ) (U := UR sig nD τ) (Lvl := ℕ) (Val := Elt F) spec1 c [cc1_scratch0]

/-- The scoped rest of this call is its scratch beside the others. -/
theorem scoped_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ others c) :=
  Pipeline.scopedRest_split_of_list spec1 c [cc1_scratch0] (by decide) (by decide)

/-- The whole scratch buffer at raw contents `f` is the scratch memref at `f`, -/
theorem scr_of_buf (c : Dev nD) (f : Buf (Elt F) ((c : Thread nD τ).loc cc1_scratch0)) :
    (((c : Thread nD τ).loc cc1_scratch0) ↦{fullShare} f : sProp 𝕄) ⊢ owns (c : Thread nD τ) scr fullShare f := by
  rw [owns_whole]
/-- and back, the contents forgotten. -/
theorem buf_of_scr (c : Dev nD) (d : S32x128x512.Idx → Elt F .bf16) :
    (owns (c : Thread nD τ) scr fullShare d : sProp 𝕄)
      ⊢ iprop(∃ f : Buf (Elt F) ((c : Thread nD τ).loc cc1_scratch0), ((c : Thread nD τ).loc cc1_scratch0) ↦{fullShare} f) := by
  rw [owns_whole]; iintro H; iexists d; iexact H

/-- The invariant before position `n`: before the first point nothing is known of the scratch; afterwards it holds the
    product tile of the previous point's row tile. -/
def jacPhi (c : Dev nD) : (n : ℕ) → n ≤ cfg1.N → sProp 𝕄
  | 0, _ => Pipeline.ΦA spec1 c
  | n + 1, h => iprop(owns (c : Thread nD τ) scr fullShare (prodAt V c (rowStart ⟨n, h⟩)) ∗ others c ∗ ∃ r, prngReg c r)

/-- Whatever the position, the invariant holds the scratch at SOME contents, the others, and the register. -/
theorem jacPhi_open (c : Dev nD) (n : ℕ) (h : n ≤ cfg1.N) :
    jacPhi V c n h ⊢ iprop((∃ d, owns (c : Thread nD τ) scr fullShare d) ∗ others c ∗ ∃ r, prngReg c r) := by
  cases n with
  | zero =>
    show Pipeline.ΦA spec1 c ⊢ _
    unfold Pipeline.ΦA; rw [scoped_split]
    iintro ⟨⟨⟨%f, Hs⟩, Ho⟩, Hr⟩
    isplitl [Hs]
    · iexists f; iapply (scr_of_buf c f); iexact Hs
    isplitl [Ho]; · iexact Ho
    iexact Hr
  | succ n =>
    show iprop(owns (c : Thread nD τ) scr fullShare (prodAt V c (rowStart ⟨n, h⟩)) ∗ others c ∗ ∃ r, prngReg c r) ⊢ _
    iintro ⟨Hs, Ho, Hr⟩
    isplitl [Hs]; · iexists _; iexact Hs
    isplitl [Ho]; · iexact Ho
    iexact Hr

/-- And gives the class's invariant back, the scratch's contents forgotten. -/
theorem jacPhi_close (c : Dev nD) (n : ℕ) (h : n ≤ cfg1.N) : jacPhi V c n h ⊢ Pipeline.ΦA spec1 c := by
  refine (jacPhi_open V c n h).trans ?_
  unfold Pipeline.ΦA; rw [scoped_split]
  iintro ⟨⟨%d, Hs⟩, Ho, Hr⟩
  isplitr [Hr]
  · isplitl [Hs]
    · iapply (buf_of_scr c d); iexact Hs
    iexact Ho
  iexact Hr

/-! ## The proof data of the pipeline -/

def jacDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => jacTile (prodAt V c (rowStart t)) (blk1 V c 3 t)
  Φ t := jacPhi V c t.val (Nat.le_of_lt_succ t.isLt)
  q _ := fullShare
  owed _ := 0

theorem jacA (c : Dev nD) (w : Fin cfg1.W) : (jacDat V c).A w = V c (Pipeline.arrRef spec1 w) := by
  dsimp only [jacDat]

theorem jacAfter_0 (c : Dev nD) (t : Fin cfg1.N) : (jacDat V c).after 0 t = blk1 V c 0 t := by dsimp only [jacDat]
theorem jacAfter_1 (c : Dev nD) (t : Fin cfg1.N) : (jacDat V c).after 1 t = blk1 V c 1 t := by dsimp only [jacDat]
theorem jacAfter_2 (c : Dev nD) (t : Fin cfg1.N) : (jacDat V c).after 2 t = blk1 V c 2 t := by dsimp only [jacDat]
theorem jacAfter_3 (c : Dev nD) (t : Fin cfg1.N) : (jacDat V c).after 3 t = blk1 V c 3 t := by dsimp only [jacDat]
theorem jacAfter_4 (c : Dev nD) (t : Fin cfg1.N) : (jacDat V c).after 4 t = jacTile (prodAt V c (rowStart t)) (blk1 V c 3 t) := by dsimp only [jacDat]

theorem jacBefore_0 (c : Dev nD) (t : Fin cfg1.N) (d) : (jacDat V c).before 0 t d = blk1 V c 0 t :=
  ((jacDat V c).before_in_eq_fetched 0 rfl (fun _ => rfl) (fun _ _ _ => rfl)
    (fun t => by rw [jacAfter_0]; unfold Dat.blockOf blk1; rw [jacA]; try rfl) t d).trans
    (by unfold Dat.fetched Dat.blockOf blk1; rw [jacA]; try rfl)
theorem jacBefore_1 (c : Dev nD) (t : Fin cfg1.N) (d) : (jacDat V c).before 1 t d = blk1 V c 1 t :=
  ((jacDat V c).before_in_eq_fetched 1 rfl (fun _ => rfl) (fun _ _ _ => rfl)
    (fun t => by rw [jacAfter_1]; unfold Dat.blockOf blk1; rw [jacA]; try rfl) t d).trans
    (by unfold Dat.fetched Dat.blockOf blk1; rw [jacA]; try rfl)
theorem jacBefore_2 (c : Dev nD) (t : Fin cfg1.N) (d) : (jacDat V c).before 2 t d = blk1 V c 2 t :=
  ((jacDat V c).before_in_eq_fetched 2 rfl (fun _ => rfl) (fun _ _ _ => rfl)
    (fun t => by rw [jacAfter_2]; unfold Dat.blockOf blk1; rw [jacA]; try rfl) t d).trans
    (by unfold Dat.fetched Dat.blockOf blk1; rw [jacA]; try rfl)
theorem jacBefore_3 (c : Dev nD) (t : Fin cfg1.N) (d) : (jacDat V c).before 3 t d = blk1 V c 3 t :=
  ((jacDat V c).before_in_eq_fetched 3 rfl (fun _ => rfl) (fun _ _ _ => rfl)
    (fun t => by rw [jacAfter_3]; unfold Dat.blockOf blk1; rw [jacA]; try rfl) t d).trans
    (by unfold Dat.fetched Dat.blockOf blk1; rw [jacA]; try rfl)

theorem jacPhi_succ (c : Dev nD) (t : Fin cfg1.N) :
    (jacDat V c).Φ t.succ = iprop(owns (c : Thread nD τ) scr fullShare (prodAt V c (rowStart t)) ∗ others c ∗ ∃ r, prngReg c r) := rfl

theorem jacPhi_cast (c : Dev nD) (t : Fin cfg1.N) :
    (jacDat V c).Φ t.castSucc = jacPhi V c t.val (Nat.le_of_lt t.isLt) := rfl

/-! ## The body obligation -/

def jacPre (c : Dev nD) (t : Fin cfg1.N) : sProp 𝕄 :=
  iprop((jacDat V c).Φ t.castSucc ∗ (jacDat V c).owesAt () t.castSucc
    ∗ (∃ d, owns (c : Thread nD τ) (st1_0 t) fullShare ((jacDat V c).before 0 t d))
    ∗ (∃ d, owns (c : Thread nD τ) (st1_1 t) fullShare ((jacDat V c).before 1 t d))
    ∗ (∃ d, owns (c : Thread nD τ) (st1_2 t) fullShare ((jacDat V c).before 2 t d))
    ∗ (∃ d, owns (c : Thread nD τ) (st1_3 t) fullShare ((jacDat V c).before 3 t d))
    ∗ (∃ d, owns (c : Thread nD τ) (st1_4 t) fullShare ((jacDat V c).before 4 t d)))

def jacPost (c : Dev nD) (t : Fin cfg1.N) : sProp 𝕄 :=
  iprop((jacDat V c).Φ t.succ ∗ (jacDat V c).owesAt () t.succ
    ∗ owns (c : Thread nD τ) (st1_0 t) fullShare ((jacDat V c).after 0 t)
    ∗ owns (c : Thread nD τ) (st1_1 t) fullShare ((jacDat V c).after 1 t)
    ∗ owns (c : Thread nD τ) (st1_2 t) fullShare ((jacDat V c).after 2 t)
    ∗ owns (c : Thread nD τ) (st1_3 t) fullShare ((jacDat V c).after 3 t)
    ∗ owns (c : Thread nD τ) (st1_4 t) fullShare ((jacDat V c).after 4 t))

theorem jac_point (c : Dev nD) (t : Fin cfg1.N) :
    jacPre V c t ⊢ wp frame (wpE (defs₀ (F := F)) Variants.none c none) Set.univ (bodyAt1 t) (fun _ => jacPost V c t) := by
  unfold jacPre jacPost bodyAt1
  simp only [jacBefore_0, jacBefore_1, jacBefore_2, jacBefore_3]
  rw [show (jacDat V c).owesAt () t.succ = (jacDat V c).owesAt () t.castSucc from rfl,
    jacPhi_succ, jacPhi_cast, jacAfter_0, jacAfter_1, jacAfter_2, jacAfter_3, jacAfter_4]
  by_cases hc : firstCol (grid1.coords t)
  · -- the first column step: the scratch is rewritten, whatever it held
    rw [rowStart_first t hc]
    iintro ⟨Hphi, Ho, ⟨%d0, H0⟩, ⟨%d1, H1⟩, ⟨%d2, H2⟩, ⟨%d3, H3⟩, ⟨%d4, H4⟩⟩
    ihave Hopen := (jacPhi_open V c t.val (Nat.le_of_lt t.isLt)) $$ Hphi
    icases Hopen with ⟨⟨%ds, Hs⟩, Hoth, Hr⟩
    iapply (jac_first c Set.univ _ _ _ _ _ _ _ _ _ _ _ _ _ hc (blk1 V c 0 t) (blk1 V c 1 t) (blk1 V c 2 t) (blk1 V c 3 t) _)
    isplitl [H0]; · iexact H0
    isplitl [H1]; · iexact H1
    isplitl [H2]; · iexact H2
    isplitl [H3]; · iexact H3
    isplitl [H4]; · iexists _; iexact H4
    isplitl [Hs]; · iexists _; iexact Hs
    iintro ⟨H0, H1, H2, H3, H4, Hs⟩
    isplitl [Hs Hoth Hr]
    · isplitl [Hs]; · iexact Hs
      isplitl [Hoth]; · iexact Hoth
      iexact Hr
    isplitl [Ho]; · iexact Ho
    isplitl [H0]; · iexact H0
    isplitl [H1]; · iexact H1
    isplitl [H2]; · iexact H2
    isplitl [H3]; · iexact H3
    iexact H4
  · -- a later column step: the scratch is read, and left as it was
    have hpos : t.val ≠ 0 := fun e => hc ((firstCol_iff t).mpr (by rw [e]))
    obtain ⟨n, hn⟩ : ∃ n, t.val = n + 1 := ⟨t.val - 1, by omega⟩
    have hlt : t.val - 1 < cfg1.N := by have := t.isLt; omega
    rw [rowStart_later t hc hlt]
    have hΦ : jacPhi V c t.val (Nat.le_of_lt t.isLt)
        = iprop(owns (c : Thread nD τ) scr fullShare (prodAt V c (rowStart ⟨t.val - 1, hlt⟩)) ∗ others c ∗ ∃ r, prngReg c r) := by
      obtain ⟨tv, ht⟩ := t
      cases tv with
      | zero => exact absurd rfl hpos
      | succ k => rfl
    rw [hΦ]
    iintro ⟨⟨Hs, Hoth, Hr⟩, Ho, ⟨%d0, H0⟩, ⟨%d1, H1⟩, ⟨%d2, H2⟩, ⟨%d3, H3⟩, ⟨%d4, H4⟩⟩
    iapply (jac_later c Set.univ _ _ _ _ _ _ _ _ _ _ _ _ _ hc (blk1 V c 0 t) (blk1 V c 1 t) (blk1 V c 2 t) (blk1 V c 3 t) (prodAt V c (rowStart ⟨t.val - 1, hlt⟩)) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hs Hoth Hr]
    · isplitl [Hs]; · iexact Hs
      isplitl [Hoth]; · iexact Hoth
      iexact Hr
    isplitl [Ho]; · iexact Ho
    isplitl [H0]; · iexact H0
    isplitl [H1]; · iexact H1
    isplitl [H2]; · iexact H2
    isplitl [H3]; · iexact H3
    iexact H4

theorem jac_obligation (c : Dev nD) : BodyObligation (jacDat (F := F) V c) (defs₀ (F := F)) Variants.none () Set.univ := fun t => by
  rw [bigSep_W1, bigSep_W1]
  exact jac_point V c t

end Cert.KernelIdeal.Fr

end
-- ==== Proof.KI.Run.lean ====
/-
  The run of @main: two transposes on the host (W1ᵀ and W2ᵀ), then the encoder/decoder call, then the Jacobian
  call.  The core's unscoped buffers are followed through the three items — the launch contents, after the
  transposes, after call 0 (its four output arrays at what its write-backs leave), after call 1 (the Jacobian array
  likewise) — and each call is entered from the state the item before it leaves.  The run ends with EVERY unscoped
  buffer named: the seven arguments as launched (the frame claim) and the three results as the calls' write-backs
  leave them (what the value claim reads).
-/
import proofs.«107210_j23785528885730_1_alg».proof.Proof.KI.Reg0
import proofs.«107210_j23785528885730_1_alg».proof.Proof.KI.Reg1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the two transposes (call 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After call 0: its arrays at what the pipeline leaves, every other buffer as entered. -/
def W2 (c : Dev nD) : Valuation τ sig (Elt F) :=
  Pipeline.withArrays spec0 c (W1 m ρ c) fun w => (mlpDat (V1 m ρ) c).arrAt w cfg0.N
theorem W2_arr (c : Dev nD) (w : Fin cfg0.W) :
    W2 m ρ c (Proc.devRef .tc (Pipeline.arrRef spec0 w)) = (mlpDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem exit0_arr (c : Dev nD) (w : Fin cfg0.W) : (mlpDat (V1 m ρ) c).arrAt w cfg0.N = V2 m ρ c (Pipeline.arrRef spec0 w) :=
  (W2_arr m ρ c w).symm
theorem exit0_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After call 1 (call 1 is entered from call 0's exit: no host operation between them). -/
def W3 (c : Dev nD) : Valuation τ sig (Elt F) :=
  Pipeline.withArrays spec1 c (W2 m ρ c) fun w => (jacDat (V2 m ρ) c).arrAt w cfg1.N
theorem W3_arr (c : Dev nD) (w : Fin cfg1.W) :
    W3 m ρ c (Proc.devRef .tc (Pipeline.arrRef spec1 w)) = (jacDat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem exit1_arr (c : Dev nD) (w : Fin cfg1.W) : (jacDat (V2 m ρ) c).arrAt w cfg1.N = V3 m ρ c (Pipeline.arrRef spec1 w) :=
  (W3_arr m ρ c w).symm
theorem exit1_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched: no transpose writes one and each call only reads them -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((mlpDat (V1 m ρ) c).arrAt_in 0 rfl _).trans (mlpA (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := (W3_arr m ρ c 3).trans (((jacDat (V2 m ρ) c).arrAt_in 3 rfl _).trans (jacA (V2 m ρ) c 3))
    _ = W1 m ρ c (Proc.devRef .tc main_arg1) := (W2_arr m ρ c 1).trans (((mlpDat (V1 m ρ) c).arrAt_in 1 rfl _).trans (mlpA (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := (W2_arr m ρ c 3).trans (((mlpDat (V1 m ρ) c).arrAt_in 3 rfl _).trans (mlpA (V1 m ρ) c 3))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := (W3_arr m ρ c 2).trans (((jacDat (V2 m ρ) c).arrAt_in 2 rfl _).trans (jacA (V2 m ρ) c 2))
    _ = W1 m ρ c (Proc.devRef .tc main_arg3) := (W2_arr m ρ c 4).trans (((mlpDat (V1 m ρ) c).arrAt_in 4 rfl _).trans (mlpA (V1 m ρ) c 4))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := (W2_arr m ρ c 6).trans (((mlpDat (V1 m ρ) c).arrAt_in 6 rfl _).trans (mlpA (V1 m ρ) c 6))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := (W2_arr m ρ c 7).trans (((mlpDat (V1 m ρ) c).arrAt_in 7 rfl _).trans (mlpA (V1 m ρ) c 7))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl
theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := (W2_arr m ρ c 8).trans (((mlpDat (V1 m ρ) c).arrAt_in 8 rfl _).trans (mlpA (V1 m ρ) c 8))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ### The results, and what call 1 reads of call 0's outputs -/

theorem W3_rec (c : Dev nD) : W3 m ρ c (Proc.devRef .tc main_v2_0) = (mlpDat (V1 m ρ) c).arrAt 9 cfg0.N :=
  (W3_of_ne m ρ c main_v2_0 (by decide)).trans (W2_arr m ρ c 9)
theorem W3_code (c : Dev nD) : W3 m ρ c (Proc.devRef .tc main_v2_1) = (mlpDat (V1 m ρ) c).arrAt 10 cfg0.N :=
  (W3_of_ne m ρ c main_v2_1 (by decide)).trans (W2_arr m ρ c 10)
theorem W3_jac (c : Dev nD) : W3 m ρ c (Proc.devRef .tc main_v3) = (jacDat (V2 m ρ) c).arrAt 4 cfg1.N :=
  W3_arr m ρ c 4
theorem V2_d1 (c : Dev nD) : V2 m ρ c main_v2_2 = (mlpDat (V1 m ρ) c).arrAt 11 cfg0.N := W2_arr m ρ c 11
theorem V2_d2 (c : Dev nD) : V2 m ρ c main_v2_3 = (mlpDat (V1 m ρ) c).arrAt 12 cfg0.N := W2_arr m ρ c 12
theorem V2_w2 (c : Dev nD) : V2 m ρ c main_arg3 = V1 m ρ c main_arg3 :=
  (W2_arr m ρ c 4).trans (((mlpDat (V1 m ρ) c).arrAt_in 4 rfl _).trans (mlpA (V1 m ρ) c 4))
theorem V2_w1 (c : Dev nD) : V2 m ρ c main_arg1 = V1 m ρ c main_arg1 :=
  (W2_arr m ρ c 1).trans (((mlpDat (V1 m ρ) c).arrAt_in 1 rfl _).trans (mlpA (V1 m ρ) c 1))

/-! ## The proof data family and the thread state -/

abbrev adm : (p : Fin 2) → (pcfgs (F := F) p).Adm := fun p => (cfgs p).toPCfg_adm
/-- Every pipeline's proof data at its call's entry contents. -/
def pdats : (p : Fin 2) → (c : Dev nD) → Dat τ (Elt F) Unit ℕ (UR sig nD τ) ℕ (Pipeline.pin (pcfgs (F := F)) adm p) c
  | ⟨0, _⟩ => fun c => mlpDat (V1 m ρ) c
  | ⟨1, _⟩ => fun c => jacDat (V2 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem transposes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tend (c : Dev nD) : sProp 𝕄 := iprop(StableHlo.held (c : Thread nD τ) (Pipeline.ucRefs τ sig) (W3 m ρ c) ∗ ∃ r, prngReg c r)

/-! ## The calls as segments -/

set_option backward.isDefEq.respectTransparency.types false in
/-- Call 0: entered from the buffers after the transposes, left at `W2`. -/
def seg_mlp : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (mlp_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1: entered from `W2`, left at `W3`; its invariant takes the scoped rest in at the first point and gives it
    back, the scratch's contents forgotten, at the last. -/
def seg_jac : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (jac_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none,
      show (pdats m ρ 1 c).Φ (Fin.last _) = jacPhi (V2 m ρ) c (Fin.last cfg1.N).val (Nat.le_of_lt_succ (Fin.last cfg1.N).isLt) from rfl]
    refine (jacPhi_close (V2 m ρ) c _ _).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub transposes_fresh (W0 m ρ)),
    .region (seg_mlp m ρ),
    .region (seg_jac m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at `W3`. -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tend m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame claim's post: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_bufs m ρ)

/-- The run with the three results named beside the arguments. -/
theorem run_results : θ_run defs (onTc (τ := τ) (main (F := F))) ⟨m, fun _ => 0, ρ⟩ (fun r => ∀ c : Dev nD,
      r.2.mem ((c.tc : Thread nD τ).loc main_v2_0) = (mlpDat (V1 m ρ) c).arrAt 9 cfg0.N
      ∧ r.2.mem ((c.tc : Thread nD τ).loc main_v2_1) = (mlpDat (V1 m ρ) c).arrAt 10 cfg0.N
      ∧ r.2.mem ((c.tc : Thread nD τ).loc main_v3) = (jacDat (V2 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v2_0 (by decide))).trans (W3_rec m ρ c),
     (h c _ (mem_uc main_v2_1 (by decide))).trans (W3_code m ρ c),
     (h c _ (mem_uc main_v3 (by decide))).trans (W3_jac m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_bufs m ρ)

end Cert.KernelIdeal.Fr

end
-- ==== Proof.KI.Entry.lean ====
/-
  The core's buffers when call 0 is entered: the two host transposes have written W1ᵀ and W2ᵀ and nothing else, so
  every argument array still holds its launch contents.
-/
import proofs.«107210_j23785528885730_1_alg».proof.Proof.KI.Run
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem V1_w1t (c : Dev nD) :
    V1 m ρ c main_v0 = transpose S1024x512 [1, 0] (m ((c : Thread nD τ).loc main_arg1)) transposes_S512x1024_S1024x512_1_0 := by
  show StableHlo.after hostOps0 (W0 m ρ c) (Proc.devRef .tc main_v0) = _
  after_results

theorem V1_w2t (c : Dev nD) :
    V1 m ρ c main_v1 = transpose S512x128 [1, 0] (m ((c : Thread nD τ).loc main_arg3)) transposes_S128x512_S512x128_1_0 := by
  show StableHlo.after hostOps0 (W0 m ρ c) (Proc.devRef .tc main_v1) = _
  after_results

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg4 (c : Dev nD) : V1 m ρ c main_arg4 = m ((c : Thread nD τ).loc main_arg4) := by
  show StableHlo.after hostOps0 (W0 m ρ c) (Proc.devRef .tc main_arg4) = _
  after_results
theorem V1_arg5 (c : Dev nD) : V1 m ρ c main_arg5 = m ((c : Thread nD τ).loc main_arg5) := by
  show StableHlo.after hostOps0 (W0 m ρ c) (Proc.devRef .tc main_arg5) = _
  after_results
theorem V1_arg6 (c : Dev nD) : V1 m ρ c main_arg6 = m ((c : Thread nD τ).loc main_arg6) := by
  show StableHlo.after hostOps0 (W0 m ρ c) (Proc.devRef .tc main_arg6) = _
  after_results

end Cert.KernelIdeal.Fr

end
-- ==== Proof.Spec.lean ====
/-
  The mathematics both programs compute, element by element, on the extended reals.

  Inputs: x (512×1024), W1 (512×1024), b1 (512), W2 (128×512), b2 (128), b3 (512), b_r (1024); the transposes
  W1ᵀ (1024×512) and W2ᵀ (512×128) enter as arguments of their own, since both programs form them by the same host
  operation.  With σ(z) = 1/(1 + e^{-z}):

      c1 = σ(x·W1ᵀ + b1)            (512×512)
      c2 = σ(c1·W2ᵀ + b2)           (512×128)      — the code, a result
      c3 = σ(c2·W2 + b3)            (512×512)
      rec = c3·W1 + b_r             (512×1024)     — the reconstruction, a result
      s1 = c1·(1 − c1),  s2 = c2·(1 − c2)          — the sigmoids' derivatives
      J[b,h,d] = Σ_k (s2[b,h]·W2[h,k]·s1[b,k])·W1[k,d]     (512×128×1024) — the code's Jacobian, a result

  Every matrix product is a plain finite sum over the contracted coordinate; no law of arithmetic beyond
  re-indexing a sum is needed to meet either program, so nothing here asks the inputs to be finite.
-/
import Idealize.ShloMosaic.PureOps.Ideal
import Idealize.ShloMosaic.Lib.ValueIdx

noncomputable section

open scoped BigOperators

namespace Cert.Spec

open Idealize.ShloMosaic Idealize.ShloMosaic.ValueIdx

abbrev Mat (a b : Nat) : Type := (⟨2, ![a, b]⟩ : Shape).Idx → EReal
abbrev Row (a : Nat) : Type := (⟨1, ![a]⟩ : Shape).Idx → EReal
abbrev Cube (a b c : Nat) : Type := (⟨3, ![a, b, c]⟩ : Shape).Idx → EReal

/-- The number 1 as both programs spell it: the f32 word of 1.0 read at the ideal instance. -/
def uno : EReal := Ideal.ofBits .f32 0x3F800000#32

/-- s·(1 − s): the logistic function's derivative written in its value s. -/
def dsg (s : EReal) : EReal := s * (uno - s)

/-- c1[b,j] = σ(Σ_k x[b,k]·W1ᵀ[k,j] + b1[j]). -/
def c1At (x : Mat 512 1024) (w1t : Mat 1024 512) (b1 : Row 512) (b : Fin 512) (j : Fin 512) : EReal :=
  Ideal.logistic ((∑ k : Fin 1024, x (ix2 b k) * w1t (ix2 k j)) + b1 (ix1 j))

/-- c2[b,h] = σ(Σ_k c1[b,k]·W2ᵀ[k,h] + b2[h]). -/
def c2At (x : Mat 512 1024) (w1t : Mat 1024 512) (b1 : Row 512) (w2t : Mat 512 128) (b2 : Row 128) (b : Fin 512) (h : Fin 128) : EReal :=
  Ideal.logistic ((∑ k : Fin 512, c1At x w1t b1 b k * w2t (ix2 k h)) + b2 (ix1 h))

/-- c3[b,j] = σ(Σ_k c2[b,k]·W2[k,j] + b3[j]). -/
def c3At (x : Mat 512 1024) (w1t : Mat 1024 512) (b1 : Row 512) (w2t : Mat 512 128) (b2 : Row 128) (w2 : Mat 128 512) (b3 : Row 512)
    (b : Fin 512) (j : Fin 512) : EReal :=
  Ideal.logistic ((∑ k : Fin 128, c2At x w1t b1 w2t b2 b k * w2 (ix2 k j)) + b3 (ix1 j))

/-- rec[b,d] = Σ_k c3[b,k]·W1[k,d] + b_r[d]. -/
def recAt (x : Mat 512 1024) (w1t : Mat 1024 512) (b1 : Row 512) (w2t : Mat 512 128) (b2 : Row 128) (w2 : Mat 128 512) (b3 : Row 512)
    (w1 : Mat 512 1024) (br : Row 1024) (b : Fin 512) (d : Fin 1024) : EReal :=
  (∑ k : Fin 512, c3At x w1t b1 w2t b2 w2 b3 b k * w1 (ix2 k d)) + br (ix1 d)

/-- J[b,h,d] = Σ_k ((s2[b,h]·W2[h,k])·s1[b,k])·W1[k,d], for ANY s1, s2 (the programs feed it the derivatives). -/
def jacAt (s1 : Mat 512 512) (s2 : Mat 512 128) (w2 : Mat 128 512) (w1 : Mat 512 1024) (b : Fin 512) (h : Fin 128) (d : Fin 1024) : EReal :=
  ∑ k : Fin 512, ((s2 (ix2 b h) * w2 (ix2 h k)) * s1 (ix2 b k)) * w1 (ix2 k d)

/-! ## The same, as whole arrays -/

def recon (x : Mat 512 1024) (w1t : Mat 1024 512) (b1 : Row 512) (w2t : Mat 512 128) (b2 : Row 128) (w2 : Mat 128 512) (b3 : Row 512)
    (w1 : Mat 512 1024) (br : Row 1024) : Mat 512 1024 :=
  fun i => recAt x w1t b1 w2t b2 w2 b3 w1 br (i 0) (i 1)

def code (x : Mat 512 1024) (w1t : Mat 1024 512) (b1 : Row 512) (w2t : Mat 512 128) (b2 : Row 128) : Mat 512 128 :=
  fun i => c2At x w1t b1 w2t b2 (i 0) (i 1)

def d1 (x : Mat 512 1024) (w1t : Mat 1024 512) (b1 : Row 512) : Mat 512 512 :=
  fun i => dsg (c1At x w1t b1 (i 0) (i 1))

def d2 (x : Mat 512 1024) (w1t : Mat 1024 512) (b1 : Row 512) (w2t : Mat 512 128) (b2 : Row 128) : Mat 512 128 :=
  fun i => dsg (c2At x w1t b1 w2t b2 (i 0) (i 1))

def jac (s1 : Mat 512 512) (s2 : Mat 512 128) (w2 : Mat 128 512) (w1 : Mat 512 1024) : Cube 512 128 1024 :=
  fun i => jacAt s1 s2 w2 w1 (i 0) (i 1) (i 2)

end Cert.Spec

end
-- ==== Proof.KI.Tile0.lean ====
/-
  The four tiles the encoder/decoder body leaves, read at one element at the ideal instance: with the body's x tile
  holding the rows ρ(0..127) of x, element (r, ·) of each tile is the specification's value on row ρ(r).
-/
import proofs.«107210_j23785528885730_1_alg».proof.Proof.KI.Reg0
import proofs.«107210_j23785528885730_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx

namespace Tile0

/-! ### Whole-shape rectangles: the offsets are zero -/

theorem zeros2 : (![0, 0] : Fin 2 → Nat) = fun _ => 0 := funext fun a => by
  match a with
  | ⟨0, _⟩ => rfl
  | ⟨1, _⟩ => rfl
theorem zeros1 : (![0] : Fin 1 → Nat) = fun _ => 0 := funext fun a => by
  match a with
  | ⟨0, _⟩ => rfl

/-! ### A bias row added to every row of a tile -/

/-- A length-n vector viewed as one row and repeated down m rows reads, at (p, c), the vector at c. -/
theorem biasRow_apply {α : Type} {m n : ℕ} (v : (⟨1, ![n]⟩ : Shape).Idx → α)
    (hc : (⟨1, ![n]⟩ : Shape).ShapeCasts ⟨2, ![1, n]⟩) (hb : (⟨2, ![1, n]⟩ : Shape).Broadcasts ⟨2, ![m, n]⟩)
    (p : Fin m) (c : Fin n) :
    broadcastTo ⟨2, ![m, n]⟩ (shapeCast ⟨2, ![1, n]⟩ v hc) hb (ix2 p c) = v (ix1 c) := by
  rw [broadcastTo_1b_ab_apply, shapeCast_a_1a_apply]

/-! ### The product 128×1024 by 1024×512, read at an element -/

theorem lhs_mmA_0 (i : S128x512.Idx) (q : dot_S128x1024_S1024x512_S128x512_1_0_0_1_n_n.contr.Idx) :
    (dot_S128x1024_S1024x512_S128x512_1_0_0_1_n_n.lhsIdx i q 0).val = (i 0).val := by
  unfold DotDims.lhsIdx
  rw [dif_neg (show ¬(0 : Fin S128x1024.rank) ∈ dot_S128x1024_S1024x512_S128x512_1_0_0_1_n_n.lhsBatch by decide), dif_pos (show (0 : Fin S128x1024.rank) ∈ dot_S128x1024_S1024x512_S128x512_1_0_0_1_n_n.lhsNonContracting by decide)]
  rfl
theorem lhs_mmA_1 (i : S128x512.Idx) (q : dot_S128x1024_S1024x512_S128x512_1_0_0_1_n_n.contr.Idx) :
    (dot_S128x1024_S1024x512_S128x512_1_0_0_1_n_n.lhsIdx i q 1).val = (q ⟨0, by decide⟩).val :=
  dot_S128x1024_S1024x512_S128x512_1_0_0_1_n_n.lhsIdx_val_of_single rfl i q
theorem rhs_mmA_0 (i : S128x512.Idx) (q : dot_S128x1024_S1024x512_S128x512_1_0_0_1_n_n.contr.Idx) :
    (dot_S128x1024_S1024x512_S128x512_1_0_0_1_n_n.rhsIdx i q 0).val = (q ⟨0, by decide⟩).val :=
  dot_S128x1024_S1024x512_S128x512_1_0_0_1_n_n.rhsIdx_val_of_single rfl i q
theorem rhs_mmA_1 (i : S128x512.Idx) (q : dot_S128x1024_S1024x512_S128x512_1_0_0_1_n_n.contr.Idx) :
    (dot_S128x1024_S1024x512_S128x512_1_0_0_1_n_n.rhsIdx i q 1).val = (i 1).val := by
  unfold DotDims.rhsIdx
  rw [dif_neg (show ¬(1 : Fin S1024x512.rank) ∈ dot_S128x1024_S1024x512_S128x512_1_0_0_1_n_n.rhsBatch by decide), dif_pos (show (1 : Fin S1024x512.rank) ∈ dot_S128x1024_S1024x512_S128x512_1_0_0_1_n_n.rhsNonContracting by decide)]
  rfl

/-- Into the zero accumulator the product's element (r, c) is Σ_k A[r,k]·B[k,c]. -/
theorem mmA_apply {φ₁ φ₂ : FTy} (A : FVec Ideal S128x1024 φ₁) (B : FVec Ideal S1024x512 φ₂) (r : Fin 128) (c : Fin 512) :
    matmul dot_S128x1024_S1024x512_S128x512_1_0_0_1_n_n none A B (constant S128x512 .f32 0x00000000#32) (ix2 r c)
      = ∑ k : Fin 1024, A (ix2 r k) * B (ix2 k c) := by
  simp only [matmul]
  rw [Ideal.matmul_constant_zero_apply, ← Equiv.sum_comp (ValueIdx.contrEquiv1 dot_S128x1024_S1024x512_S128x512_1_0_0_1_n_n 1024 rfl rfl).symm]
  refine Finset.sum_congr rfl fun k _ => ?_
  have hk := ValueIdx.contrEquiv1_symm_val dot_S128x1024_S1024x512_S128x512_1_0_0_1_n_n 1024 rfl rfl k
  have el : dot_S128x1024_S1024x512_S128x512_1_0_0_1_n_n.lhsIdx (ix2 r c) ((ValueIdx.contrEquiv1 dot_S128x1024_S1024x512_S128x512_1_0_0_1_n_n 1024 rfl rfl).symm k) = ix2 r k := funext fun a => Fin.ext (by
    match a with
    | ⟨0, _⟩ => exact lhs_mmA_0 _ _
    | ⟨1, _⟩ => exact (lhs_mmA_1 _ _).trans hk)
  have er : dot_S128x1024_S1024x512_S128x512_1_0_0_1_n_n.rhsIdx (ix2 r c) ((ValueIdx.contrEquiv1 dot_S128x1024_S1024x512_S128x512_1_0_0_1_n_n 1024 rfl rfl).symm k) = ix2 k c := funext fun a => Fin.ext (by
    match a with
    | ⟨0, _⟩ => exact (rhs_mmA_0 _ _).trans hk
    | ⟨1, _⟩ => exact rhs_mmA_1 _ _)
  rw [el, er]

/-! ### The product 128×512 by 512×128, read at an element -/

theorem lhs_mmB_0 (i : S128x128.Idx) (q : dot_S128x512_S512x128_S128x128_1_0_0_1_n_n.contr.Idx) :
    (dot_S128x512_S512x128_S128x128_1_0_0_1_n_n.lhsIdx i q 0).val = (i 0).val := by
  unfold DotDims.lhsIdx
  rw [dif_neg (show ¬(0 : Fin S128x512.rank) ∈ dot_S128x512_S512x128_S128x128_1_0_0_1_n_n.lhsBatch by decide), dif_pos (show (0 : Fin S128x512.rank) ∈ dot_S128x512_S512x128_S128x128_1_0_0_1_n_n.lhsNonContracting by decide)]
  rfl
theorem lhs_mmB_1 (i : S128x128.Idx) (q : dot_S128x512_S512x128_S128x128_1_0_0_1_n_n.contr.Idx) :
    (dot_S128x512_S512x128_S128x128_1_0_0_1_n_n.lhsIdx i q 1).val = (q ⟨0, by decide⟩).val :=
  dot_S128x512_S512x128_S128x128_1_0_0_1_n_n.lhsIdx_val_of_single rfl i q
theorem rhs_mmB_0 (i : S128x128.Idx) (q : dot_S128x512_S512x128_S128x128_1_0_0_1_n_n.contr.Idx) :
    (dot_S128x512_S512x128_S128x128_1_0_0_1_n_n.rhsIdx i q 0).val = (q ⟨0, by decide⟩).val :=
  dot_S128x512_S512x128_S128x128_1_0_0_1_n_n.rhsIdx_val_of_single rfl i q
theorem rhs_mmB_1 (i : S128x128.Idx) (q : dot_S128x512_S512x128_S128x128_1_0_0_1_n_n.contr.Idx) :
    (dot_S128x512_S512x128_S128x128_1_0_0_1_n_n.rhsIdx i q 1).val = (i 1).val := by
  unfold DotDims.rhsIdx
  rw [dif_neg (show ¬(1 : Fin S512x128.rank) ∈ dot_S128x512_S512x128_S128x128_1_0_0_1_n_n.rhsBatch by decide), dif_pos (show (1 : Fin S512x128.rank) ∈ dot_S128x512_S512x128_S128x128_1_0_0_1_n_n.rhsNonContracting by decide)]
  rfl

/-- Into the zero accumulator the product's element (r, c) is Σ_k A[r,k]·B[k,c]. -/
theorem mmB_apply {φ₁ φ₂ : FTy} (A : FVec Ideal S128x512 φ₁) (B : FVec Ideal S512x128 φ₂) (r : Fin 128) (c : Fin 128) :
    matmul dot_S128x512_S512x128_S128x128_1_0_0_1_n_n none A B (constant S128x128 .f32 0x00000000#32) (ix2 r c)
      = ∑ k : Fin 512, A (ix2 r k) * B (ix2 k c) := by
  simp only [matmul]
  rw [Ideal.matmul_constant_zero_apply, ← Equiv.sum_comp (ValueIdx.contrEquiv1 dot_S128x512_S512x128_S128x128_1_0_0_1_n_n 512 rfl rfl).symm]
  refine Finset.sum_congr rfl fun k _ => ?_
  have hk := ValueIdx.contrEquiv1_symm_val dot_S128x512_S512x128_S128x128_1_0_0_1_n_n 512 rfl rfl k
  have el : dot_S128x512_S512x128_S128x128_1_0_0_1_n_n.lhsIdx (ix2 r c) ((ValueIdx.contrEquiv1 dot_S128x512_S512x128_S128x128_1_0_0_1_n_n 512 rfl rfl).symm k) = ix2 r k := funext fun a => Fin.ext (by
    match a with
    | ⟨0, _⟩ => exact lhs_mmB_0 _ _
    | ⟨1, _⟩ => exact (lhs_mmB_1 _ _).trans hk)
  have er : dot_S128x512_S512x128_S128x128_1_0_0_1_n_n.rhsIdx (ix2 r c) ((ValueIdx.contrEquiv1 dot_S128x512_S512x128_S128x128_1_0_0_1_n_n 512 rfl rfl).symm k) = ix2 k c := funext fun a => Fin.ext (by
    match a with
    | ⟨0, _⟩ => exact (rhs_mmB_0 _ _).trans hk
    | ⟨1, _⟩ => exact rhs_mmB_1 _ _)
  rw [el, er]

/-! ### The product 128×128 by 128×512, read at an element -/

theorem lhs_mmC_0 (i : S128x512.Idx) (q : dot_S128x128_S128x512_S128x512_1_0_0_1_n_n.contr.Idx) :
    (dot_S128x128_S128x512_S128x512_1_0_0_1_n_n.lhsIdx i q 0).val = (i 0).val := by
  unfold DotDims.lhsIdx
  rw [dif_neg (show ¬(0 : Fin S128x128.rank) ∈ dot_S128x128_S128x512_S128x512_1_0_0_1_n_n.lhsBatch by decide), dif_pos (show (0 : Fin S128x128.rank) ∈ dot_S128x128_S128x512_S128x512_1_0_0_1_n_n.lhsNonContracting by decide)]
  rfl
theorem lhs_mmC_1 (i : S128x512.Idx) (q : dot_S128x128_S128x512_S128x512_1_0_0_1_n_n.contr.Idx) :
    (dot_S128x128_S128x512_S128x512_1_0_0_1_n_n.lhsIdx i q 1).val = (q ⟨0, by decide⟩).val :=
  dot_S128x128_S128x512_S128x512_1_0_0_1_n_n.lhsIdx_val_of_single rfl i q
theorem rhs_mmC_0 (i : S128x512.Idx) (q : dot_S128x128_S128x512_S128x512_1_0_0_1_n_n.contr.Idx) :
    (dot_S128x128_S128x512_S128x512_1_0_0_1_n_n.rhsIdx i q 0).val = (q ⟨0, by decide⟩).val :=
  dot_S128x128_S128x512_S128x512_1_0_0_1_n_n.rhsIdx_val_of_single rfl i q
theorem rhs_mmC_1 (i : S128x512.Idx) (q : dot_S128x128_S128x512_S128x512_1_0_0_1_n_n.contr.Idx) :
    (dot_S128x128_S128x512_S128x512_1_0_0_1_n_n.rhsIdx i q 1).val = (i 1).val := by
  unfold DotDims.rhsIdx
  rw [dif_neg (show ¬(1 : Fin S128x512.rank) ∈ dot_S128x128_S128x512_S128x512_1_0_0_1_n_n.rhsBatch by decide), dif_pos (show (1 : Fin S128x512.rank) ∈ dot_S128x128_S128x512_S128x512_1_0_0_1_n_n.rhsNonContracting by decide)]
  rfl

/-- Into the zero accumulator the product's element (r, c) is Σ_k A[r,k]·B[k,c]. -/
theorem mmC_apply {φ₁ φ₂ : FTy} (A : FVec Ideal S128x128 φ₁) (B : FVec Ideal S128x512 φ₂) (r : Fin 128) (c : Fin 512) :
    matmul dot_S128x128_S128x512_S128x512_1_0_0_1_n_n none A B (constant S128x512 .f32 0x00000000#32) (ix2 r c)
      = ∑ k : Fin 128, A (ix2 r k) * B (ix2 k c) := by
  simp only [matmul]
  rw [Ideal.matmul_constant_zero_apply, ← Equiv.sum_comp (ValueIdx.contrEquiv1 dot_S128x128_S128x512_S128x512_1_0_0_1_n_n 128 rfl rfl).symm]
  refine Finset.sum_congr rfl fun k _ => ?_
  have hk := ValueIdx.contrEquiv1_symm_val dot_S128x128_S128x512_S128x512_1_0_0_1_n_n 128 rfl rfl k
  have el : dot_S128x128_S128x512_S128x512_1_0_0_1_n_n.lhsIdx (ix2 r c) ((ValueIdx.contrEquiv1 dot_S128x128_S128x512_S128x512_1_0_0_1_n_n 128 rfl rfl).symm k) = ix2 r k := funext fun a => Fin.ext (by
    match a with
    | ⟨0, _⟩ => exact lhs_mmC_0 _ _
    | ⟨1, _⟩ => exact (lhs_mmC_1 _ _).trans hk)
  have er : dot_S128x128_S128x512_S128x512_1_0_0_1_n_n.rhsIdx (ix2 r c) ((ValueIdx.contrEquiv1 dot_S128x128_S128x512_S128x512_1_0_0_1_n_n 128 rfl rfl).symm k) = ix2 k c := funext fun a => Fin.ext (by
    match a with
    | ⟨0, _⟩ => exact (rhs_mmC_0 _ _).trans hk
    | ⟨1, _⟩ => exact rhs_mmC_1 _ _)
  rw [el, er]

/-! ### The product 128×512 by 512×1024, read at an element -/

theorem lhs_mmD_0 (i : S128x1024.Idx) (q : dot_S128x512_S512x1024_S128x1024_1_0_0_1_n_n.contr.Idx) :
    (dot_S128x512_S512x1024_S128x1024_1_0_0_1_n_n.lhsIdx i q 0).val = (i 0).val := by
  unfold DotDims.lhsIdx
  rw [dif_neg (show ¬(0 : Fin S128x512.rank) ∈ dot_S128x512_S512x1024_S128x1024_1_0_0_1_n_n.lhsBatch by decide), dif_pos (show (0 : Fin S128x512.rank) ∈ dot_S128x512_S512x1024_S128x1024_1_0_0_1_n_n.lhsNonContracting by decide)]
  rfl
theorem lhs_mmD_1 (i : S128x1024.Idx) (q : dot_S128x512_S512x1024_S128x1024_1_0_0_1_n_n.contr.Idx) :
    (dot_S128x512_S512x1024_S128x1024_1_0_0_1_n_n.lhsIdx i q 1).val = (q ⟨0, by decide⟩).val :=
  dot_S128x512_S512x1024_S128x1024_1_0_0_1_n_n.lhsIdx_val_of_single rfl i q
theorem rhs_mmD_0 (i : S128x1024.Idx) (q : dot_S128x512_S512x1024_S128x1024_1_0_0_1_n_n.contr.Idx) :
    (dot_S128x512_S512x1024_S128x1024_1_0_0_1_n_n.rhsIdx i q 0).val = (q ⟨0, by decide⟩).val :=
  dot_S128x512_S512x1024_S128x1024_1_0_0_1_n_n.rhsIdx_val_of_single rfl i q
theorem rhs_mmD_1 (i : S128x1024.Idx) (q : dot_S128x512_S512x1024_S128x1024_1_0_0_1_n_n.contr.Idx) :
    (dot_S128x512_S512x1024_S128x1024_1_0_0_1_n_n.rhsIdx i q 1).val = (i 1).val := by
  unfold DotDims.rhsIdx
  rw [dif_neg (show ¬(1 : Fin S512x1024.rank) ∈ dot_S128x512_S512x1024_S128x1024_1_0_0_1_n_n.rhsBatch by decide), dif_pos (show (1 : Fin S512x1024.rank) ∈ dot_S128x512_S512x1024_S128x1024_1_0_0_1_n_n.rhsNonContracting by decide)]
  rfl

/-- Into the zero accumulator the product's element (r, c) is Σ_k A[r,k]·B[k,c]. -/
theorem mmD_apply {φ₁ φ₂ : FTy} (A : FVec Ideal S128x512 φ₁) (B : FVec Ideal S512x1024 φ₂) (r : Fin 128) (c : Fin 1024) :
    matmul dot_S128x512_S512x1024_S128x1024_1_0_0_1_n_n none A B (constant S128x1024 .f32 0x00000000#32) (ix2 r c)
      = ∑ k : Fin 512, A (ix2 r k) * B (ix2 k c) := by
  simp only [matmul]
  rw [Ideal.matmul_constant_zero_apply, ← Equiv.sum_comp (ValueIdx.contrEquiv1 dot_S128x512_S512x1024_S128x1024_1_0_0_1_n_n 512 rfl rfl).symm]
  refine Finset.sum_congr rfl fun k _ => ?_
  have hk := ValueIdx.contrEquiv1_symm_val dot_S128x512_S512x1024_S128x1024_1_0_0_1_n_n 512 rfl rfl k
  have el : dot_S128x512_S512x1024_S128x1024_1_0_0_1_n_n.lhsIdx (ix2 r c) ((ValueIdx.contrEquiv1 dot_S128x512_S512x1024_S128x1024_1_0_0_1_n_n 512 rfl rfl).symm k) = ix2 r k := funext fun a => Fin.ext (by
    match a with
    | ⟨0, _⟩ => exact lhs_mmD_0 _ _
    | ⟨1, _⟩ => exact (lhs_mmD_1 _ _).trans hk)
  have er : dot_S128x512_S512x1024_S128x1024_1_0_0_1_n_n.rhsIdx (ix2 r c) ((ValueIdx.contrEquiv1 dot_S128x512_S512x1024_S128x1024_1_0_0_1_n_n 512 rfl rfl).symm k) = ix2 k c := funext fun a => Fin.ext (by
    match a with
    | ⟨0, _⟩ => exact (rhs_mmD_0 _ _).trans hk
    | ⟨1, _⟩ => exact rhs_mmD_1 _ _)
  rw [el, er]

/-! ### The first hidden layer on the tile -/

/-- c1 on the tile: σ(Σ_k x0[r,k]·W1ᵀ[k,j] + b1[j]). -/
theorem pay2_at (v0 : Vec Ideal S128x1024 .f32) (v2 : Vec Ideal S1024x512 .f32) (v6 : Vec Ideal S512 .f32)
    (r : Fin 128) (j : Fin 512) :
    k0_pay2 (F := Ideal) v0 v2 v6 (ix2 r j)
      = Ideal.logistic ((∑ k : Fin 1024, v0 (ix2 r k) * v2 (ix2 k j)) + v6 (ix1 j)) := by
  unfold k0_pay2
  show Ideal.logistic (_ + _) = _
  rw [mmA_apply, biasRow_apply, shapeCast_self]
  rfl

/-- The first derivative tile: c1·(1 − c1) at each element. -/
theorem pay3_at (v0 : Vec Ideal S128x1024 .f32) (v2 : Vec Ideal S1024x512 .f32) (v6 : Vec Ideal S512 .f32)
    (r : Fin 128) (j : Fin 512) :
    k0_pay3 (F := Ideal) v0 v2 v6 (ix2 r j) = Spec.dsg (k0_pay2 (F := Ideal) v0 v2 v6 (ix2 r j)) := rfl

/-! ### The code layer on the tile -/

/-- c2 on the tile: σ(Σ_k c1[r,k]·W2ᵀ[k,h] + b2[h]). -/
theorem pay4_at (v0 : Vec Ideal S128x1024 .f32) (v2 : Vec Ideal S1024x512 .f32) (v6 : Vec Ideal S512 .f32)
    (v15 : Vec Ideal S512x128 .f32) (v19 : Vec Ideal S128 .f32) (r : Fin 128) (h : Fin 128) :
    k0_pay4 (F := Ideal) v0 v2 v6 v15 v19 (ix2 r h)
      = Ideal.logistic ((∑ k : Fin 512, k0_pay2 (F := Ideal) v0 v2 v6 (ix2 r k) * v15 (ix2 k h)) + v19 (ix1 h)) := by
  unfold k0_pay4
  generalize k0_pay2 (F := Ideal) v0 v2 v6 = c1
  show Ideal.logistic (_ + _) = _
  rw [mmB_apply, biasRow_apply, shapeCast_self]
  rfl

/-- The second derivative tile: c2·(1 − c2) at each element. -/
theorem pay5_at (v0 : Vec Ideal S128x1024 .f32) (v2 : Vec Ideal S1024x512 .f32) (v6 : Vec Ideal S512 .f32)
    (v15 : Vec Ideal S512x128 .f32) (v19 : Vec Ideal S128 .f32) (r : Fin 128) (h : Fin 128) :
    k0_pay5 (F := Ideal) v0 v2 v6 v15 v19 (ix2 r h) = Spec.dsg (k0_pay4 (F := Ideal) v0 v2 v6 v15 v19 (ix2 r h)) := rfl

/-! ### The decoder on the tile -/

/-- The decoder's product: Σ_k σ(Σ_m c2[r,m]·W2[m,k] + b3[k])·W1[k,d]. -/
theorem pay6_at (v0 : Vec Ideal S128x1024 .f32) (v2 : Vec Ideal S1024x512 .f32) (v6 : Vec Ideal S512 .f32)
    (v15 : Vec Ideal S512x128 .f32) (v19 : Vec Ideal S128 .f32) (v28 : Vec Ideal S128x512 .f32) (v31 : Vec Ideal S512 .f32)
    (v37 : Vec Ideal S512x1024 .f32) (r : Fin 128) (d : Fin 1024) :
    k0_pay6 (F := Ideal) v0 v2 v6 v15 v19 v28 v31 v37 (ix2 r d)
      = ∑ k : Fin 512, Ideal.logistic ((∑ m : Fin 128, k0_pay4 (F := Ideal) v0 v2 v6 v15 v19 (ix2 r m) * v28 (ix2 m k)) + v31 (ix1 k))
          * v37 (ix2 k d) := by
  unfold k0_pay6
  generalize k0_pay4 (F := Ideal) v0 v2 v6 v15 v19 = c2
  rw [mmD_apply]
  refine Finset.sum_congr rfl fun k _ => ?_
  show Ideal.logistic (_ + _) * _ = _
  rw [mmC_apply, biasRow_apply]
  rfl

/-- The reconstruction: the decoder's product plus the output bias. -/
theorem pay1_at (v39 : FVec Ideal S128x1024 .f32) (v40 : Vec Ideal S1024 .f32) (r : Fin 128) (d : Fin 1024) :
    k0_pay1 (F := Ideal) v39 v40 (ix2 r d) = v39 (ix2 r d) + v40 (ix1 d) := by
  unfold k0_pay1
  show _ + _ = _
  rw [biasRow_apply]

/-! ### The tiles are their payloads on the whole blocks -/

theorem codeTile_eq (x0 : Vec Ideal S128x1024 .f32) (x2 : Vec Ideal S1024x512 .f32) (x3 : Vec Ideal S512 .f32)
    (x5 : Vec Ideal S512x128 .f32) (x6 : Vec Ideal S128 .f32) :
    codeTile (F := Ideal) x0 x2 x3 x5 x6 = k0_pay4 (F := Ideal) x0 x2 x3 x5 x6 := by
  unfold codeTile
  rw [View.canon_unit_zero (S := S128x128) zeros2, View.ld_unit_zero (S := S128x1024) zeros2, View.ld_unit_zero (S := S1024x512) zeros2, View.ld_unit_zero (S := S512) zeros1,
    View.ld_unit_zero (S := S512x128) zeros2, View.ld_unit_zero (S := S128) zeros1]

theorem d1Tile_eq (x0 : Vec Ideal S128x1024 .f32) (x2 : Vec Ideal S1024x512 .f32) (x3 : Vec Ideal S512 .f32) :
    d1Tile (F := Ideal) x0 x2 x3 = k0_pay3 (F := Ideal) x0 x2 x3 := by
  unfold d1Tile
  rw [View.canon_unit_zero (S := S128x512) zeros2, View.ld_unit_zero (S := S128x1024) zeros2, View.ld_unit_zero (S := S1024x512) zeros2, View.ld_unit_zero (S := S512) zeros1]

theorem d2Tile_eq (x0 : Vec Ideal S128x1024 .f32) (x2 : Vec Ideal S1024x512 .f32) (x3 : Vec Ideal S512 .f32)
    (x5 : Vec Ideal S512x128 .f32) (x6 : Vec Ideal S128 .f32) :
    d2Tile (F := Ideal) x0 x2 x3 x5 x6 = k0_pay5 (F := Ideal) x0 x2 x3 x5 x6 := by
  unfold d2Tile
  rw [View.canon_unit_zero (S := S128x128) zeros2, View.ld_unit_zero (S := S128x1024) zeros2, View.ld_unit_zero (S := S1024x512) zeros2, View.ld_unit_zero (S := S512) zeros1,
    View.ld_unit_zero (S := S512x128) zeros2, View.ld_unit_zero (S := S128) zeros1]

theorem recTile_eq (x0 : Vec Ideal S128x1024 .f32) (x1 : Vec Ideal S512x1024 .f32) (x2 : Vec Ideal S1024x512 .f32)
    (x3 : Vec Ideal S512 .f32) (x4 : Vec Ideal S128x512 .f32) (x5 : Vec Ideal S512x128 .f32) (x6 : Vec Ideal S128 .f32)
    (x7 : Vec Ideal S512 .f32) (x8 : Vec Ideal S1024 .f32) :
    recTile (F := Ideal) x0 x1 x2 x3 x4 x5 x6 x7 x8
      = k0_pay1 (F := Ideal) (k0_pay6 (F := Ideal) x0 x2 x3 x5 x6 x4 x7 x1) x8 := by
  unfold recTile
  rw [View.canon_unit_zero (S := S128x1024) zeros2, View.ld_unit_zero (S := S128x1024) zeros2, View.ld_unit_zero (S := S1024x512) zeros2, View.ld_unit_zero (S := S512) zeros1,
    View.ld_unit_zero (S := S512x128) zeros2, View.ld_unit_zero (S := S128) zeros1, View.ld_unit_zero (S := S128x512) zeros2,
    View.ld_unit_zero (S := S512) zeros1, View.ld_unit_zero (S := S512x1024) zeros2, View.ld_unit_zero (S := S1024) zeros1]

/-! ### The tile's layers against the specification -/

/-- c1 on row r of the tile is the specification's c1 on row ρ(r). -/
theorem pay2_spec (x : Spec.Mat 512 1024) (x0 : Vec Ideal S128x1024 .f32) (ρ : Fin 128 → Fin 512)
    (hx : ∀ (r : Fin 128) (k : Fin 1024), x0 (ix2 r k) = x (ix2 (ρ r) k))
    (w1t : Vec Ideal S1024x512 .f32) (b1 : Vec Ideal S512 .f32) (r : Fin 128) (j : Fin 512) :
    k0_pay2 (F := Ideal) x0 w1t b1 (ix2 r j) = Spec.c1At x w1t b1 (ρ r) j := by
  rw [pay2_at]
  unfold Spec.c1At
  simp only [hx]

/-- c2 on row r of the tile is the specification's c2 on row ρ(r). -/
theorem pay4_spec (x : Spec.Mat 512 1024) (x0 : Vec Ideal S128x1024 .f32) (ρ : Fin 128 → Fin 512)
    (hx : ∀ (r : Fin 128) (k : Fin 1024), x0 (ix2 r k) = x (ix2 (ρ r) k))
    (w1t : Vec Ideal S1024x512 .f32) (b1 : Vec Ideal S512 .f32) (w2t : Vec Ideal S512x128 .f32) (b2 : Vec Ideal S128 .f32)
    (r : Fin 128) (h : Fin 128) :
    k0_pay4 (F := Ideal) x0 w1t b1 w2t b2 (ix2 r h) = Spec.c2At x w1t b1 w2t b2 (ρ r) h := by
  rw [pay4_at]
  unfold Spec.c2At
  simp only [pay2_spec x x0 ρ hx w1t b1]

end Tile0

open Tile0

variable (x : Spec.Mat 512 1024) (x0 : Vec Ideal S128x1024 .f32) (ρ : Fin 128 → Fin 512)
  (hx : ∀ (r : Fin 128) (k : Fin 1024), x0 (ix2 r k) = x (ix2 (ρ r) k))
  (w1 : Vec Ideal S512x1024 .f32) (w1t : Vec Ideal S1024x512 .f32) (b1 : Vec Ideal S512 .f32)
  (w2 : Vec Ideal S128x512 .f32) (w2t : Vec Ideal S512x128 .f32) (b2 : Vec Ideal S128 .f32)
  (b3 : Vec Ideal S512 .f32) (br : Vec Ideal S1024 .f32)

include hx in
theorem codeTile_at (r : Fin 128) (h : Fin 128) :
    codeTile (F := Ideal) x0 w1t b1 w2t b2 (ix2 r h) = Spec.c2At x w1t b1 w2t b2 (ρ r) h := by
  rw [codeTile_eq]
  exact pay4_spec x x0 ρ hx w1t b1 w2t b2 r h

include hx in
theorem d1Tile_at (r : Fin 128) (j : Fin 512) :
    d1Tile (F := Ideal) x0 w1t b1 (ix2 r j) = Spec.dsg (Spec.c1At x w1t b1 (ρ r) j) := by
  rw [d1Tile_eq, pay3_at, pay2_spec x x0 ρ hx w1t b1]

include hx in
theorem d2Tile_at (r : Fin 128) (h : Fin 128) :
    d2Tile (F := Ideal) x0 w1t b1 w2t b2 (ix2 r h) = Spec.dsg (Spec.c2At x w1t b1 w2t b2 (ρ r) h) := by
  rw [d2Tile_eq, pay5_at, pay4_spec x x0 ρ hx w1t b1 w2t b2]

include hx in
theorem recTile_at (r : Fin 128) (d : Fin 1024) :
    recTile (F := Ideal) x0 w1 w1t b1 w2 w2t b2 b3 br (ix2 r d) = Spec.recAt x w1t b1 w2t b2 w2 b3 w1 br (ρ r) d := by
  rw [recTile_eq, pay1_at, pay6_at]
  unfold Spec.recAt Spec.c3At
  simp only [pay4_spec x x0 ρ hx w1t b1 w2t b2]

end Cert.KernelIdeal.Fr

end
-- ==== Proof.KI.Val0.lean ====
/-
  What the encoder/decoder call leaves in its four output arrays, as whole-array functions of the arrays it reads:
  point t of its grid writes back rows 128·t … 128·t+127, the four points tile the 512 rows, and each written tile is
  the specification's value on those rows.
-/
import proofs.«107210_j23785528885730_1_alg».proof.Proof.KI.Tile0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic.Pipeline (Dat)
open Idealize.ShloMosaic Idealize.ShloMosaic.TcCoe Idealize.ShloMosaic.ValueIdx

variable (V : (c : Dev nD) → (b : Ref sig .tc) → Buf (Elt Ideal) ((c : Thread nD τ).loc b))

namespace Val0Aux

/-! ## Where each window's block sits at a grid point -/

/-- The row-tiled windows (the x tile and the four outputs) sit at block index (t, 0) at point t. -/
theorem idx_rows : ∀ t : Fin cfg0.N,
    win0_0.index t (0 : Fin 2) = t.val ∧ win0_0.index t (1 : Fin 2) = 0
    ∧ win0_9.index t (0 : Fin 2) = t.val ∧ win0_9.index t (1 : Fin 2) = 0
    ∧ win0_10.index t (0 : Fin 2) = t.val ∧ win0_10.index t (1 : Fin 2) = 0
    ∧ win0_11.index t (0 : Fin 2) = t.val ∧ win0_11.index t (1 : Fin 2) = 0
    ∧ win0_12.index t (0 : Fin 2) = t.val ∧ win0_12.index t (1 : Fin 2) = 0 :=
  (by decide +kernel : ∀ t : Fin grid0.N, _)

/-- The weights and biases are windowed whole: block index 0 on every axis at every point. -/
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 1) = 0
    ∧ win0_8.index t (0 : Fin 1) = 0 :=
  (by decide +kernel : ∀ t : Fin grid0.N, _)

theorem tval_lt (t : Fin cfg0.N) : t.val < 4 := by have h := t.isLt; have hN : cfg0.N = 4 := N_0; omega

/-- Row r of point t's tile is row 128·t + r of the array. -/
def rowOf (t : Fin cfg0.N) (r : Fin 128) : Fin 512 := ⟨128 * t.val + r.val, by have := tval_lt t; have := r.isLt; omega⟩

theorem rowOf_val (t : Fin cfg0.N) (r : Fin 128) : (rowOf t r).val = 128 * t.val + r.val := rfl

/-! ## The input blocks at a point, read off the arrays -/

/-- The x tile at point t holds rows 128·t … 128·t + 127 of x. -/
theorem xblk_at (c : Dev nD) (t : Fin cfg0.N) (r : Fin 128) (k : Fin 1024) :
    (blk0 (F := Ideal) V c 0 t : Vec Ideal S128x1024 .f32) (ix2 r k)
      = (V c main_arg0 : Spec.Mat 512 1024) (ix2 (rowOf t r) k) := by
  obtain ⟨e0, e1, -⟩ := idx_rows t
  show V c main_arg0 (((cfg0.win 0).blk t).view.emb (ix2 r k)) = V c main_arg0 _
  congr 1
  funext a; apply Fin.ext
  match a with
  | ⟨0, _⟩ => show win0_0.index t (0 : Fin 2) * 128 + 1 * r.val = 128 * t.val + r.val; omega
  | ⟨1, _⟩ => show win0_0.index t (1 : Fin 2) * 1024 + 1 * k.val = k.val; omega

/-- W1 whole. -/
theorem w1blk (c : Dev nD) (t : Fin cfg0.N) : (blk0 (F := Ideal) V c 1 t : Vec Ideal S512x1024 .f32) = V c main_arg1 := by
  obtain ⟨e0, e1, -⟩ := idx_whole t
  funext y
  show V c main_arg1 (((cfg0.win 1).blk t).view.emb y) = V c main_arg1 y
  congr 1
  funext a; apply Fin.ext
  match a with
  | ⟨0, _⟩ => show win0_1.index t (0 : Fin 2) * 512 + 1 * (y 0).val = (y 0).val; omega
  | ⟨1, _⟩ => show win0_1.index t (1 : Fin 2) * 1024 + 1 * (y 1).val = (y 1).val; omega

/-- W1ᵀ whole. -/
theorem w1tblk (c : Dev nD) (t : Fin cfg0.N) : (blk0 (F := Ideal) V c 2 t : Vec Ideal S1024x512 .f32) = V c main_v0 := by
  obtain ⟨-, -, e0, e1, -⟩ := idx_whole t
  funext y
  show V c main_v0 (((cfg0.win 2).blk t).view.emb y) = V c main_v0 y
  congr 1
  funext a; apply Fin.ext
  match a with
  | ⟨0, _⟩ => show win0_2.index t (0 : Fin 2) * 1024 + 1 * (y 0).val = (y 0).val; omega
  | ⟨1, _⟩ => show win0_2.index t (1 : Fin 2) * 512 + 1 * (y 1).val = (y 1).val; omega

/-- b1 whole. -/
theorem b1blk (c : Dev nD) (t : Fin cfg0.N) : (blk0 (F := Ideal) V c 3 t : Vec Ideal S512 .f32) = V c main_arg2 := by
  obtain ⟨-, -, -, -, e0, -⟩ := idx_whole t
  funext y
  show V c main_arg2 (((cfg0.win 3).blk t).view.emb y) = V c main_arg2 y
  congr 1
  funext a; apply Fin.ext
  match a with
  | ⟨0, _⟩ => show win0_3.index t (0 : Fin 1) * 512 + 1 * (y 0).val = (y 0).val; omega

/-- W2 whole. -/
theorem w2blk (c : Dev nD) (t : Fin cfg0.N) : (blk0 (F := Ideal) V c 4 t : Vec Ideal S128x512 .f32) = V c main_arg3 := by
  obtain ⟨-, -, -, -, -, e0, e1, -⟩ := idx_whole t
  funext y
  show V c main_arg3 (((cfg0.win 4).blk t).view.emb y) = V c main_arg3 y
  congr 1
  funext a; apply Fin.ext
  match a with
  | ⟨0, _⟩ => show win0_4.index t (0 : Fin 2) * 128 + 1 * (y 0).val = (y 0).val; omega
  | ⟨1, _⟩ => show win0_4.index t (1 : Fin 2) * 512 + 1 * (y 1).val = (y 1).val; omega

/-- W2ᵀ whole. -/
theorem w2tblk (c : Dev nD) (t : Fin cfg0.N) : (blk0 (F := Ideal) V c 5 t : Vec Ideal S512x128 .f32) = V c main_v1 := by
  obtain ⟨-, -, -, -, -, -, -, e0, e1, -⟩ := idx_whole t
  funext y
  show V c main_v1 (((cfg0.win 5).blk t).view.emb y) = V c main_v1 y
  congr 1
  funext a; apply Fin.ext
  match a with
  | ⟨0, _⟩ => show win0_5.index t (0 : Fin 2) * 512 + 1 * (y 0).val = (y 0).val; omega
  | ⟨1, _⟩ => show win0_5.index t (1 : Fin 2) * 128 + 1 * (y 1).val = (y 1).val; omega

/-- b2 whole. -/
theorem b2blk (c : Dev nD) (t : Fin cfg0.N) : (blk0 (F := Ideal) V c 6 t : Vec Ideal S128 .f32) = V c main_arg4 := by
  obtain ⟨-, -, -, -, -, -, -, -, -, e0, -⟩ := idx_whole t
  funext y
  show V c main_arg4 (((cfg0.win 6).blk t).view.emb y) = V c main_arg4 y
  congr 1
  funext a; apply Fin.ext
  match a with
  | ⟨0, _⟩ => show win0_6.index t (0 : Fin 1) * 128 + 1 * (y 0).val = (y 0).val; omega

/-- b3 whole. -/
theorem b3blk (c : Dev nD) (t : Fin cfg0.N) : (blk0 (F := Ideal) V c 7 t : Vec Ideal S512 .f32) = V c main_arg5 := by
  obtain ⟨-, -, -, -, -, -, -, -, -, -, e0, -⟩ := idx_whole t
  funext y
  show V c main_arg5 (((cfg0.win 7).blk t).view.emb y) = V c main_arg5 y
  congr 1
  funext a; apply Fin.ext
  match a with
  | ⟨0, _⟩ => show win0_7.index t (0 : Fin 1) * 512 + 1 * (y 0).val = (y 0).val; omega

/-- b_r whole. -/
theorem brblk (c : Dev nD) (t : Fin cfg0.N) : (blk0 (F := Ideal) V c 8 t : Vec Ideal S1024 .f32) = V c main_arg6 := by
  obtain ⟨-, -, -, -, -, -, -, -, -, -, -, e0⟩ := idx_whole t
  funext y
  show V c main_arg6 (((cfg0.win 8).blk t).view.emb y) = V c main_arg6 y
  congr 1
  funext a; apply Fin.ext
  match a with
  | ⟨0, _⟩ => show win0_8.index t (0 : Fin 1) * 1024 + 1 * (y 0).val = (y 0).val; omega

/-! ## The code array -/

/-- The code tile at point t, at a block index, is the code at the array index 128·t rows further down. -/
theorem code_point (c : Dev nD) (t : Fin cfg0.N) (y : S128x128.Idx) (i : S512x128.Idx)
    (h0 : (i 0).val = 128 * t.val + (y 0).val) (h1 : (i 1).val = (y 1).val) :
    codeTile (F := Ideal) (blk0 V c 0 t) (V c main_v0) (V c main_arg2) (V c main_v1) (V c main_arg4) y
      = Spec.code (V c main_arg0) (V c main_v0) (V c main_arg2) (V c main_v1) (V c main_arg4) i := by
  obtain ⟨r, h, rfl⟩ : ∃ (r : Fin 128) (h : Fin 128), y = ix2 r h := ⟨y 0, y 1, eq_ix2 y⟩
  obtain ⟨p, q, rfl⟩ : ∃ (p : Fin 512) (q : Fin 128), i = ix2 p q := ⟨i 0, i 1, eq_ix2 i⟩
  have hp : p = rowOf t r := Fin.ext h0
  have hq : q = h := Fin.ext h1
  rw [hp, hq]
  exact codeTile_at (V c main_arg0) (blk0 V c 0 t) (rowOf t)
    (fun r k => xblk_at V c t r k) (V c main_v0) (V c main_arg2) (V c main_v1) (V c main_arg4) r h

/-- What point t writes back to the code array is its block of the specification's code. -/
theorem code_flushed (c : Dev nD) (t : Fin cfg0.N) :
    (mlpDat (F := Ideal) V c).flushed 10 t
      = ((cfg0.win 10).blk t).view.read (Elt Ideal) (Spec.code (V c main_arg0) (V c main_v0) (V c main_arg2) (V c main_v1) (V c main_arg4)) := by
  show (cfg0.win 10).cut (grid0.coords t) ((mlpDat V c).after 10 t) = _
  rw [mlpAfter_10, w1tblk, b1blk, w2tblk, b2blk]
  obtain ⟨-, -, -, -, e0, e1, -⟩ := idx_rows t
  funext y
  refine code_point V c t y (((cfg0.win 10).blk t).view.emb y) ?_ ?_
  · show win0_10.index t (0 : Fin 2) * 128 + 1 * (y 0).val = 128 * t.val + (y 0).val; omega
  · show win0_10.index t (1 : Fin 2) * 128 + 1 * (y 1).val = (y 1).val; omega

/-- An index of the code array is in point t's block iff its row is among the point's 128 rows. -/
theorem mem_blk10 (t : Fin cfg0.N) (i : S512x128.Idx) :
    i ∈ ((cfg0.win 10).blk t).view.set ↔ ∀ a : Fin 2, win0_10.index t a * S128x128.size a ≤ (i a).val ∧ (i a).val < win0_10.index t a * S128x128.size a + S128x128.size a := by
  show i ∈ ((View.whole main_v2_1).slice (win0_10.rect t)).set ↔ _
  rw [View.set_slice_whole, Rect.mem_set_unit]
  exact Iff.rfl

/-- Row p of the code array is written by point p / 128. -/
theorem code_cover (i : S512x128.Idx) : ∃ t : Fin cfg0.N, (cfg0.win 10).flush t = true ∧ i ∈ ((cfg0.win 10).blk t).view.set := by
  have hi0 : (i 0).val < 512 := (i 0).isLt
  have hi1 : (i 1).val < 128 := (i 1).isLt
  have hN : cfg0.N = 4 := N_0
  let t : Fin cfg0.N := ⟨(i 0).val / 128, by rw [hN]; omega⟩
  have htv : t.val = (i 0).val / 128 := rfl
  obtain ⟨-, -, -, -, e0, e1, -⟩ := idx_rows t
  refine ⟨t, flush0_10 t, ?_⟩
  rw [mem_blk10]
  intro a
  match a with
  | ⟨0, _⟩ => show win0_10.index t (0 : Fin 2) * 128 ≤ (i 0).val ∧ (i 0).val < win0_10.index t (0 : Fin 2) * 128 + 128; omega
  | ⟨1, _⟩ => show win0_10.index t (1 : Fin 2) * 128 ≤ (i 1).val ∧ (i 1).val < win0_10.index t (1 : Fin 2) * 128 + 128; omega

/-! ## The first derivative array -/

/-- The first derivative tile at point t, at a block index, is the first derivative at the array index 128·t rows further down. -/
theorem d1_point (c : Dev nD) (t : Fin cfg0.N) (y : S128x512.Idx) (i : S512x512.Idx)
    (h0 : (i 0).val = 128 * t.val + (y 0).val) (h1 : (i 1).val = (y 1).val) :
    d1Tile (F := Ideal) (blk0 V c 0 t) (V c main_v0) (V c main_arg2) y
      = Spec.d1 (V c main_arg0) (V c main_v0) (V c main_arg2) i := by
  obtain ⟨r, h, rfl⟩ : ∃ (r : Fin 128) (h : Fin 512), y = ix2 r h := ⟨y 0, y 1, eq_ix2 y⟩
  obtain ⟨p, q, rfl⟩ : ∃ (p : Fin 512) (q : Fin 512), i = ix2 p q := ⟨i 0, i 1, eq_ix2 i⟩
  have hp : p = rowOf t r := Fin.ext h0
  have hq : q = h := Fin.ext h1
  rw [hp, hq]
  exact d1Tile_at (V c main_arg0) (blk0 V c 0 t) (rowOf t)
    (fun r k => xblk_at V c t r k) (V c main_v0) (V c main_arg2) r h

/-- What point t writes back to the first derivative array is its block of the specification's first derivative. -/
theorem d1_flushed (c : Dev nD) (t : Fin cfg0.N) :
    (mlpDat (F := Ideal) V c).flushed 11 t
      = ((cfg0.win 11).blk t).view.read (Elt Ideal) (Spec.d1 (V c main_arg0) (V c main_v0) (V c main_arg2)) := by
  show (cfg0.win 11).cut (grid0.coords t) ((mlpDat V c).after 11 t) = _
  rw [mlpAfter_11, w1tblk, b1blk]
  obtain ⟨-, -, -, -, -, -, e0, e1, -⟩ := idx_rows t
  funext y
  refine d1_point V c t y (((cfg0.win 11).blk t).view.emb y) ?_ ?_
  · show win0_11.index t (0 : Fin 2) * 128 + 1 * (y 0).val = 128 * t.val + (y 0).val; omega
  · show win0_11.index t (1 : Fin 2) * 512 + 1 * (y 1).val = (y 1).val; omega

/-- An index of the first derivative array is in point t's block iff its row is among the point's 128 rows. -/
theorem mem_blk11 (t : Fin cfg0.N) (i : S512x512.Idx) :
    i ∈ ((cfg0.win 11).blk t).view.set ↔ ∀ a : Fin 2, win0_11.index t a * S128x512.size a ≤ (i a).val ∧ (i a).val < win0_11.index t a * S128x512.size a + S128x512.size a := by
  show i ∈ ((View.whole main_v2_2).slice (win0_11.rect t)).set ↔ _
  rw [View.set_slice_whole, Rect.mem_set_unit]
  exact Iff.rfl

/-- Row p of the first derivative array is written by point p / 128. -/
theorem d1_cover (i : S512x512.Idx) : ∃ t : Fin cfg0.N, (cfg0.win 11).flush t = true ∧ i ∈ ((cfg0.win 11).blk t).view.set := by
  have hi0 : (i 0).val < 512 := (i 0).isLt
  have hi1 : (i 1).val < 512 := (i 1).isLt
  have hN : cfg0.N = 4 := N_0
  let t : Fin cfg0.N := ⟨(i 0).val / 128, by rw [hN]; omega⟩
  have htv : t.val = (i 0).val / 128 := rfl
  obtain ⟨-, -, -, -, -, -, e0, e1, -⟩ := idx_rows t
  refine ⟨t, flush0_11 t, ?_⟩
  rw [mem_blk11]
  intro a
  match a with
  | ⟨0, _⟩ => show win0_11.index t (0 : Fin 2) * 128 ≤ (i 0).val ∧ (i 0).val < win0_11.index t (0 : Fin 2) * 128 + 128; omega
  | ⟨1, _⟩ => show win0_11.index t (1 : Fin 2) * 512 ≤ (i 1).val ∧ (i 1).val < win0_11.index t (1 : Fin 2) * 512 + 512; omega

/-! ## The second derivative array -/

/-- The second derivative tile at point t, at a block index, is the second derivative at the array index 128·t rows further down. -/
theorem d2_point (c : Dev nD) (t : Fin cfg0.N) (y : S128x128.Idx) (i : S512x128.Idx)
    (h0 : (i 0).val = 128 * t.val + (y 0).val) (h1 : (i 1).val = (y 1).val) :
    d2Tile (F := Ideal) (blk0 V c 0 t) (V c main_v0) (V c main_arg2) (V c main_v1) (V c main_arg4) y
      = Spec.d2 (V c main_arg0) (V c main_v0) (V c main_arg2) (V c main_v1) (V c main_arg4) i := by
  obtain ⟨r, h, rfl⟩ : ∃ (r : Fin 128) (h : Fin 128), y = ix2 r h := ⟨y 0, y 1, eq_ix2 y⟩
  obtain ⟨p, q, rfl⟩ : ∃ (p : Fin 512) (q : Fin 128), i = ix2 p q := ⟨i 0, i 1, eq_ix2 i⟩
  have hp : p = rowOf t r := Fin.ext h0
  have hq : q = h := Fin.ext h1
  rw [hp, hq]
  exact d2Tile_at (V c main_arg0) (blk0 V c 0 t) (rowOf t)
    (fun r k => xblk_at V c t r k) (V c main_v0) (V c main_arg2) (V c main_v1) (V c main_arg4) r h

/-- What point t writes back to the second derivative array is its block of the specification's second derivative. -/
theorem d2_flushed (c : Dev nD) (t : Fin cfg0.N) :
    (mlpDat (F := Ideal) V c).flushed 12 t
      = ((cfg0.win 12).blk t).view.read (Elt Ideal) (Spec.d2 (V c main_arg0) (V c main_v0) (V c main_arg2) (V c main_v1) (V c main_arg4)) := by
  show (cfg0.win 12).cut (grid0.coords t) ((mlpDat V c).after 12 t) = _
  rw [mlpAfter_12, w1tblk, b1blk, w2tblk, b2blk]
  obtain ⟨-, -, -, -, -, -, -, -, e0, e1⟩ := idx_rows t
  funext y
  refine d2_point V c t y (((cfg0.win 12).blk t).view.emb y) ?_ ?_
  · show win0_12.index t (0 : Fin 2) * 128 + 1 * (y 0).val = 128 * t.val + (y 0).val; omega
  · show win0_12.index t (1 : Fin 2) * 128 + 1 * (y 1).val = (y 1).val; omega

/-- An index of the second derivative array is in point t's block iff its row is among the point's 128 rows. -/
theorem mem_blk12 (t : Fin cfg0.N) (i : S512x128.Idx) :
    i ∈ ((cfg0.win 12).blk t).view.set ↔ ∀ a : Fin 2, win0_12.index t a * S128x128.size a ≤ (i a).val ∧ (i a).val < win0_12.index t a * S128x128.size a + S128x128.size a := by
  show i ∈ ((View.whole main_v2_3).slice (win0_12.rect t)).set ↔ _
  rw [View.set_slice_whole, Rect.mem_set_unit]
  exact Iff.rfl

/-- Row p of the second derivative array is written by point p / 128. -/
theorem d2_cover (i : S512x128.Idx) : ∃ t : Fin cfg0.N, (cfg0.win 12).flush t = true ∧ i ∈ ((cfg0.win 12).blk t).view.set := by
  have hi0 : (i 0).val < 512 := (i 0).isLt
  have hi1 : (i 1).val < 128 := (i 1).isLt
  have hN : cfg0.N = 4 := N_0
  let t : Fin cfg0.N := ⟨(i 0).val / 128, by rw [hN]; omega⟩
  have htv : t.val = (i 0).val / 128 := rfl
  obtain ⟨-, -, -, -, -, -, -, -, e0, e1⟩ := idx_rows t
  refine ⟨t, flush0_12 t, ?_⟩
  rw [mem_blk12]
  intro a
  match a with
  | ⟨0, _⟩ => show win0_12.index t (0 : Fin 2) * 128 ≤ (i 0).val ∧ (i 0).val < win0_12.index t (0 : Fin 2) * 128 + 128; omega
  | ⟨1, _⟩ => show win0_12.index t (1 : Fin 2) * 128 ≤ (i 1).val ∧ (i 1).val < win0_12.index t (1 : Fin 2) * 128 + 128; omega

/-! ## The reconstruction array -/

/-- The reconstruction tile at point t, at a block index, is the reconstruction at the array index 128·t rows further down. -/
theorem rec_point (c : Dev nD) (t : Fin cfg0.N) (y : S128x1024.Idx) (i : S512x1024.Idx)
    (h0 : (i 0).val = 128 * t.val + (y 0).val) (h1 : (i 1).val = (y 1).val) :
    recTile (F := Ideal) (blk0 V c 0 t) (V c main_arg1) (V c main_v0) (V c main_arg2) (V c main_arg3) (V c main_v1) (V c main_arg4) (V c main_arg5) (V c main_arg6) y
      = Spec.recon (V c main_arg0) (V c main_v0) (V c main_arg2) (V c main_v1) (V c main_arg4) (V c main_arg3) (V c main_arg5) (V c main_arg1) (V c main_arg6) i := by
  obtain ⟨r, h, rfl⟩ : ∃ (r : Fin 128) (h : Fin 1024), y = ix2 r h := ⟨y 0, y 1, eq_ix2 y⟩
  obtain ⟨p, q, rfl⟩ : ∃ (p : Fin 512) (q : Fin 1024), i = ix2 p q := ⟨i 0, i 1, eq_ix2 i⟩
  have hp : p = rowOf t r := Fin.ext h0
  have hq : q = h := Fin.ext h1
  rw [hp, hq]
  exact recTile_at (V c main_arg0) (blk0 V c 0 t) (rowOf t)
    (fun r k => xblk_at V c t r k) (V c main_arg1) (V c main_v0) (V c main_arg2) (V c main_arg3) (V c main_v1) (V c main_arg4) (V c main_arg5) (V c main_arg6) r h

/-- What point t writes back to the reconstruction array is its block of the specification's reconstruction. -/
theorem rec_flushed (c : Dev nD) (t : Fin cfg0.N) :
    (mlpDat (F := Ideal) V c).flushed 9 t
      = ((cfg0.win 9).blk t).view.read (Elt Ideal) (Spec.recon (V c main_arg0) (V c main_v0) (V c main_arg2) (V c main_v1) (V c main_arg4) (V c main_arg3) (V c main_arg5) (V c main_arg1) (V c main_arg6)) := by
  show (cfg0.win 9).cut (grid0.coords t) ((mlpDat V c).after 9 t) = _
  rw [mlpAfter_9, w1blk, w1tblk, b1blk, w2blk, w2tblk, b2blk, b3blk, brblk]
  obtain ⟨-, -, e0, e1, -⟩ := idx_rows t
  funext y
  refine rec_point V c t y (((cfg0.win 9).blk t).view.emb y) ?_ ?_
  · show win0_9.index t (0 : Fin 2) * 128 + 1 * (y 0).val = 128 * t.val + (y 0).val; omega
  · show win0_9.index t (1 : Fin 2) * 1024 + 1 * (y 1).val = (y 1).val; omega

/-- An index of the reconstruction array is in point t's block iff its row is among the point's 128 rows. -/
theorem mem_blk9 (t : Fin cfg0.N) (i : S512x1024.Idx) :
    i ∈ ((cfg0.win 9).blk t).view.set ↔ ∀ a : Fin 2, win0_9.index t a * S128x1024.size a ≤ (i a).val ∧ (i a).val < win0_9.index t a * S128x1024.size a + S128x1024.size a := by
  show i ∈ ((View.whole main_v2_0).slice (win0_9.rect t)).set ↔ _
  rw [View.set_slice_whole, Rect.mem_set_unit]
  exact Iff.rfl

/-- Row p of the reconstruction array is written by point p / 128. -/
theorem rec_cover (i : S512x1024.Idx) : ∃ t : Fin cfg0.N, (cfg0.win 9).flush t = true ∧ i ∈ ((cfg0.win 9).blk t).view.set := by
  have hi0 : (i 0).val < 512 := (i 0).isLt
  have hi1 : (i 1).val < 1024 := (i 1).isLt
  have hN : cfg0.N = 4 := N_0
  let t : Fin cfg0.N := ⟨(i 0).val / 128, by rw [hN]; omega⟩
  have htv : t.val = (i 0).val / 128 := rfl
  obtain ⟨-, -, e0, e1, -⟩ := idx_rows t
  refine ⟨t, flush0_9 t, ?_⟩
  rw [mem_blk9]
  intro a
  match a with
  | ⟨0, _⟩ => show win0_9.index t (0 : Fin 2) * 128 ≤ (i 0).val ∧ (i 0).val < win0_9.index t (0 : Fin 2) * 128 + 128; omega
  | ⟨1, _⟩ => show win0_9.index t (1 : Fin 2) * 1024 ≤ (i 1).val ∧ (i 1).val < win0_9.index t (1 : Fin 2) * 1024 + 1024; omega

end Val0Aux

open Val0Aux

/-! ## The four arrays -/

theorem rec_array (c : Dev nD) :
    (mlpDat (F := Ideal) V c).arrAt 9 cfg0.N
      = Spec.recon (V c main_arg0) (V c main_v0) (V c main_arg2) (V c main_v1) (V c main_arg4) (V c main_arg3) (V c main_arg5) (V c main_arg1) (V c main_arg6) :=
  (mlpDat (F := Ideal) V c).arrAt_eq_of_cover 9 _ (fun t _ => rec_flushed V c t) rec_cover

theorem code_array (c : Dev nD) :
    (mlpDat (F := Ideal) V c).arrAt 10 cfg0.N
      = Spec.code (V c main_arg0) (V c main_v0) (V c main_arg2) (V c main_v1) (V c main_arg4) :=
  (mlpDat (F := Ideal) V c).arrAt_eq_of_cover 10 _ (fun t _ => code_flushed V c t) code_cover

theorem d1_array (c : Dev nD) :
    (mlpDat (F := Ideal) V c).arrAt 11 cfg0.N = Spec.d1 (V c main_arg0) (V c main_v0) (V c main_arg2) :=
  (mlpDat (F := Ideal) V c).arrAt_eq_of_cover 11 _ (fun t _ => d1_flushed V c t) d1_cover

theorem d2_array (c : Dev nD) :
    (mlpDat (F := Ideal) V c).arrAt 12 cfg0.N
      = Spec.d2 (V c main_arg0) (V c main_v0) (V c main_arg2) (V c main_v1) (V c main_arg4) :=
  (mlpDat (F := Ideal) V c).arrAt_eq_of_cover 12 _ (fun t _ => d2_flushed V c t) d2_cover

end Cert.KernelIdeal.Fr

end
-- ==== Proof.KI.Tile1.lean ====
/-
  The Jacobian tile read at one element at the ideal instance: with the row blocks holding rows ρ(0..31) of s1 and s2
  and the W1 tile holding columns δ(0..255), element (r, h, d) is Σ_k ((s2[ρ r, h]·W2[h, k])·s1[ρ r, k])·W1[k, δ d].
-/
import proofs.«107210_j23785528885730_1_alg».proof.Proof.KI.Reg1
import proofs.«107210_j23785528885730_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic Idealize.ShloMosaic.TcCoe Idealize.ShloMosaic.ValueIdx

/-! ## Zero offsets, however spelt -/

theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl

/-! ## Unit axes added inside or at the end of a matrix's shape, and broadcasts along a unit axis -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A cast between equal shapes reads the operand at the same index. -/
theorem shapeCast_self_apply {s : Shape} (x : s.Idx → α) (h : s.ShapeCasts s) (j : s.Idx) : shapeCast s x h j = x j :=
  shapeCast_apply x h j j rfl

/-- A `[32, 128, 1]` array broadcast to `[32, 128, 512]` reads, at `(r, h, k)`, the operand at `(r, h, 0)`. -/
theorem broadcastTo_col_apply (v : S32x128x1.Idx → α) (r : Fin 32) (h : Fin 128) (k : Fin 512) :
    broadcastTo S32x128x512 v broadcasts_S32x128x1_S32x128x512 (ix3 r h k) = v (ix3 r h (0 : Fin 1)) := by
  refine broadcastTo_apply v broadcasts_S32x128x1_S32x128x512 (ix3 r h k) (ix3 r h (0 : Fin 1)) fun ax => ?_
  match ax with
  | ⟨0, _⟩ => show r.val = if (32 : ℕ) = 1 then 0 else r.val; rw [if_neg (by decide)]
  | ⟨1, _⟩ => show h.val = if (128 : ℕ) = 1 then 0 else h.val; rw [if_neg (by decide)]
  | ⟨2, _⟩ => show (0 : ℕ) = if (1 : ℕ) = 1 then 0 else k.val; rw [if_pos rfl]

/-- A `[1, 128, 512]` array broadcast to `[32, 128, 512]` reads, at `(r, h, k)`, the operand at `(0, h, k)`. -/
theorem broadcastTo_lead_apply (v : S1x128x512.Idx → α) (r : Fin 32) (h : Fin 128) (k : Fin 512) :
    broadcastTo S32x128x512 v broadcasts_S1x128x512_S32x128x512 (ix3 r h k) = v (ix3 (0 : Fin 1) h k) := by
  refine broadcastTo_apply v broadcasts_S1x128x512_S32x128x512 (ix3 r h k) (ix3 (0 : Fin 1) h k) fun ax => ?_
  match ax with
  | ⟨0, _⟩ => show (0 : ℕ) = if (1 : ℕ) = 1 then 0 else r.val; rw [if_pos rfl]
  | ⟨1, _⟩ => show h.val = if (128 : ℕ) = 1 then 0 else h.val; rw [if_neg (by decide)]
  | ⟨2, _⟩ => show k.val = if (512 : ℕ) = 1 then 0 else k.val; rw [if_neg (by decide)]

/-- A `[32, 1, 512]` array broadcast to `[32, 128, 512]` reads, at `(r, h, k)`, the operand at `(r, 0, k)`. -/
theorem broadcastTo_mid_apply (v : S32x1x512.Idx → α) (r : Fin 32) (h : Fin 128) (k : Fin 512) :
    broadcastTo S32x128x512 v broadcasts_S32x1x512_S32x128x512 (ix3 r h k) = v (ix3 r (0 : Fin 1) k) := by
  refine broadcastTo_apply v broadcasts_S32x1x512_S32x128x512 (ix3 r h k) (ix3 r (0 : Fin 1) k) fun ax => ?_
  match ax with
  | ⟨0, _⟩ => show r.val = if (32 : ℕ) = 1 then 0 else r.val; rw [if_neg (by decide)]
  | ⟨1, _⟩ => show (0 : ℕ) = if (1 : ℕ) = 1 then 0 else h.val; rw [if_pos rfl]
  | ⟨2, _⟩ => show k.val = if (512 : ℕ) = 1 then 0 else k.val; rw [if_neg (by decide)]

end Layout

/-! ## The product tile at an element -/

/-- M[r, h, k] = (x1[r, h]·x2[h, k])·x0[r, k]: the two broadcasts read the unit axis at 0, the casts that add the unit
    axis read the matrix, and the change of format is the identity on extended reals. -/
theorem pay1_at (v10 : Vec Ideal S32x512 .f32) (v12 : Vec Ideal S32x128 .f32) (v14 : Vec Ideal S128x512 .f32)
    (r : Fin 32) (h : Fin 128) (k : Fin 512) :
    k1_pay1 (F := Ideal) v10 v12 v14 (ix3 r h k) = (v12 (ix2 r h) * v14 (ix2 h k)) * v10 (ix2 r k) := by
  unfold k1_pay1
  refine (shapeCast_self_apply _ shapeCasts_S32x128x512_S32x128x512 (ix3 r h k)).trans ?_
  rw [truncf_apply, mulf_apply, mulf_apply]
  rw [broadcastTo_col_apply, broadcastTo_lead_apply, broadcastTo_mid_apply]
  rw [shapeCast_ab_ab1_apply, shapeCast_ab_1ab_apply, shapeCast_ab_a1b_apply]
  rw [shapeCast_self_apply, shapeCast_self_apply]

theorem prodTile_at (x0 : Vec Ideal S32x512 .f32) (x1 : Vec Ideal S32x128 .f32) (x2 : Vec Ideal S128x512 .f32)
    (r : Fin 32) (h : Fin 128) (k : Fin 512) :
    prodTile (F := Ideal) x0 x1 x2 (ix3 r h k) = (x1 (ix2 r h) * x2 (ix2 h k)) * x0 (ix2 r k) := by
  unfold prodTile
  rw [View.canon_unit_zero zeros3, View.ld_unit_zero zeros2, View.ld_unit_zero zeros2, View.ld_unit_zero zeros2]
  exact pay1_at x0 x1 x2 r h k

/-! ## The flattened product: the 4096×512 tile times a 512×256 tile, accumulated into zero, at an element -/

theorem lhs_jac_0 (i : S4096x256.Idx) (q : dot_S4096x512_S512x256_S4096x256_1_0_0_1_n_n.contr.Idx) :
    (dot_S4096x512_S512x256_S4096x256_1_0_0_1_n_n.lhsIdx i q 0).val = (i 0).val := by
  unfold DotDims.lhsIdx
  rw [dif_neg (show ¬(0 : Fin S4096x512.rank) ∈ dot_S4096x512_S512x256_S4096x256_1_0_0_1_n_n.lhsBatch by decide), dif_pos (show (0 : Fin S4096x512.rank) ∈ dot_S4096x512_S512x256_S4096x256_1_0_0_1_n_n.lhsNonContracting by decide)]
  rfl
theorem lhs_jac_1 (i : S4096x256.Idx) (q : dot_S4096x512_S512x256_S4096x256_1_0_0_1_n_n.contr.Idx) :
    (dot_S4096x512_S512x256_S4096x256_1_0_0_1_n_n.lhsIdx i q 1).val = (q ⟨0, by decide⟩).val :=
  dot_S4096x512_S512x256_S4096x256_1_0_0_1_n_n.lhsIdx_val_of_single rfl i q
theorem rhs_jac_0 (i : S4096x256.Idx) (q : dot_S4096x512_S512x256_S4096x256_1_0_0_1_n_n.contr.Idx) :
    (dot_S4096x512_S512x256_S4096x256_1_0_0_1_n_n.rhsIdx i q 0).val = (q ⟨0, by decide⟩).val :=
  dot_S4096x512_S512x256_S4096x256_1_0_0_1_n_n.rhsIdx_val_of_single rfl i q
theorem rhs_jac_1 (i : S4096x256.Idx) (q : dot_S4096x512_S512x256_S4096x256_1_0_0_1_n_n.contr.Idx) :
    (dot_S4096x512_S512x256_S4096x256_1_0_0_1_n_n.rhsIdx i q 1).val = (i 1).val := by
  unfold DotDims.rhsIdx
  rw [dif_neg (show ¬(1 : Fin S512x256.rank) ∈ dot_S4096x512_S512x256_S4096x256_1_0_0_1_n_n.rhsBatch by decide), dif_pos (show (1 : Fin S512x256.rank) ∈ dot_S4096x512_S512x256_S4096x256_1_0_0_1_n_n.rhsNonContracting by decide)]
  rfl

/-- Into the zero splat, element (row, d) of the product is Σ_k A[row, k]·B[k, d]. -/
theorem matmul_at (A : FVec Ideal S4096x512 .bf16) (B : FVec Ideal S512x256 .bf16) (row : Fin 4096) (d : Fin 256) :
    matmul dot_S4096x512_S512x256_S4096x256_1_0_0_1_n_n none A B (constant (F := Ideal) S4096x256 .f32 0x00000000#32) (ix2 row d)
      = ∑ k : Fin 512, (A (ix2 row k) : EReal) * (B (ix2 k d) : EReal) := by
  simp only [matmul]
  rw [Ideal.matmul_constant_zero_apply, ← Equiv.sum_comp (contrEquiv1 dot_S4096x512_S512x256_S4096x256_1_0_0_1_n_n 512 rfl rfl).symm]
  refine Finset.sum_congr rfl fun k _ => ?_
  have hk := contrEquiv1_symm_val dot_S4096x512_S512x256_S4096x256_1_0_0_1_n_n 512 rfl rfl k
  have el : dot_S4096x512_S512x256_S4096x256_1_0_0_1_n_n.lhsIdx (ix2 row d) ((contrEquiv1 dot_S4096x512_S512x256_S4096x256_1_0_0_1_n_n 512 rfl rfl).symm k) = ix2 row k := funext fun a => Fin.ext (by
    match a with
    | ⟨0, _⟩ => exact lhs_jac_0 _ _
    | ⟨1, _⟩ => exact (lhs_jac_1 _ _).trans hk)
  have er : dot_S4096x512_S512x256_S4096x256_1_0_0_1_n_n.rhsIdx (ix2 row d) ((contrEquiv1 dot_S4096x512_S512x256_S4096x256_1_0_0_1_n_n 512 rfl rfl).symm k) = ix2 k d := funext fun a => Fin.ext (by
    match a with
    | ⟨0, _⟩ => exact (rhs_jac_0 _ _).trans hk
    | ⟨1, _⟩ => exact rhs_jac_1 _ _)
  rw [el, er]

/-- Row 128·r + h of the tile flattened to 4096 rows. -/
abbrev flatRow (r : Fin 32) (h : Fin 128) : Fin 4096 := ⟨128 * r.val + h.val, by have := r.isLt; have := h.isLt; omega⟩

/-- Element (r, h, d) of the second payload: the flattened tile's row 128·r + h against column d of the W1 tile; the row
    of the flattened tile reads element (r, h, ·) of the tile (same row-major position), and so does the result's cast back. -/
theorem pay2_at (v3 : Vec Ideal S32x128x512 .bf16) (v5 : Vec Ideal S512x256 .f32) (r : Fin 32) (h : Fin 128) (d : Fin 256) :
    k1_pay2 (F := Ideal) v3 v5 (ix3 r h d) = ∑ k : Fin 512, (v3 (ix3 r h k) : EReal) * (v5 (ix2 k d) : EReal) := by
  unfold k1_pay2
  refine (shapeCast_apply _ shapeCasts_S4096x256_S32x128x256 (ix3 r h d) (ix2 (flatRow r h) d) (by
    rw [Shape.rowMajor_val_two, Shape.rowMajor_val_three]
    show (128 * r.val + h.val) * 256 + d.val = (r.val * 128 + h.val) * 256 + d.val
    omega)).trans ?_
  rw [matmul_at]
  refine Finset.sum_congr rfl fun k _ => ?_
  rw [truncf_apply, shapeCast_apply v3 shapeCasts_S32x128x512_S4096x512 (ix2 (flatRow r h) k) (ix3 r h k) (by
    rw [Shape.rowMajor_val_two, Shape.rowMajor_val_three]
    show (r.val * 128 + h.val) * 512 + k.val = (128 * r.val + h.val) * 512 + k.val
    omega)]

theorem jacTile_at (s1 : Spec.Mat 512 512) (s2 : Spec.Mat 512 128) (w1 : Spec.Mat 512 1024)
    (x0 : Vec Ideal S32x512 .f32) (x1 : Vec Ideal S32x128 .f32) (x2 : Vec Ideal S128x512 .f32) (x3 : Vec Ideal S512x256 .f32)
    (ρ : Fin 32 → Fin 512) (δ : Fin 256 → Fin 1024)
    (h0 : ∀ (r : Fin 32) (k : Fin 512), x0 (ix2 r k) = s1 (ix2 (ρ r) k))
    (h1 : ∀ (r : Fin 32) (h : Fin 128), x1 (ix2 r h) = s2 (ix2 (ρ r) h))
    (h3 : ∀ (k : Fin 512) (d : Fin 256), x3 (ix2 k d) = w1 (ix2 k (δ d)))
    (r : Fin 32) (h : Fin 128) (d : Fin 256) :
    jacTile (F := Ideal) (prodTile x0 x1 x2) x3 (ix3 r h d) = Spec.jacAt s1 s2 x2 w1 (ρ r) h (δ d) := by
  unfold jacTile
  rw [View.canon_unit_zero zeros3, View.ld_unit_zero zeros3, View.ld_unit_zero zeros2]
  rw [pay2_at]
  unfold Spec.jacAt
  refine Finset.sum_congr rfl fun k _ => ?_
  rw [prodTile_at, h0, h1, h3]

end Cert.KernelIdeal.Fr

end
-- ==== Proof.KI.Val1.lean ====
/-
  What the Jacobian call leaves in its output array, as a whole-array function of the arrays it reads: point t of its
  16×4 grid writes back rows 32·(t/4) … +31 and columns 256·(t mod 4) … +255, the 64 points tile the array, and the
  written tile is computed from the scratch filled at the row tile's first column step, point 4·(t/4).
-/
import proofs.«107210_j23785528885730_1_alg».proof.Proof.KI.Tile1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Fr

open Cert.KernelIdeal Cert.KernelIdeal.Gen
open Idealize.ShloMosaic.Pipeline (Dat)
open Idealize.ShloMosaic Idealize.ShloMosaic.TcCoe Idealize.ShloMosaic.ValueIdx

variable (V : (c : Dev nD) → (b : Ref sig .tc) → Buf (Elt Ideal) ((c : Thread nD τ).loc b))

/-- The block indices of the five windows at a grid point t ↔ (t / 4, t mod 4), decided over the 64 points:
    the row blocks of s1' and s2' sit at block row t / 4, W2 is one block, the W1 tile is block column t mod 4,
    and the output tile is block (t / 4, 0, t mod 4). -/
private theorem jac_idx : ∀ t : Fin cfg1.N,
    win1_4.index t (0 : Fin 3) = t.val / 4 ∧ win1_4.index t (1 : Fin 3) = 0 ∧ win1_4.index t (2 : Fin 3) = t.val % 4
    ∧ win1_3.index t (0 : Fin 2) = 0 ∧ win1_3.index t (1 : Fin 2) = t.val % 4
    ∧ win1_2.index t (0 : Fin 2) = 0 ∧ win1_2.index t (1 : Fin 2) = 0
    ∧ win1_0.index t (0 : Fin 2) = t.val / 4 ∧ win1_0.index t (1 : Fin 2) = 0
    ∧ win1_1.index t (0 : Fin 2) = t.val / 4 ∧ win1_1.index t (1 : Fin 2) = 0 :=
  (by decide +kernel : ∀ t : Fin grid1.N, _)

private theorem jac_N : cfg1.N = 64 := N_1

/-- A point's row block of s1' holds rows 32·b … 32·b + 31 of the array, b the point's row tile. -/
private theorem blk0_at (c : Dev nD) (t : Fin cfg1.N) (b : Nat) (hb : t.val / 4 = b) (r : Fin 32) (k : Fin 512) (hr : 32 * b + r.val < 512) :
    blk1 V c 0 t (ix2 r k) = V c main_v2_2 (ix2 ⟨32 * b + r.val, hr⟩ k) := by
  obtain ⟨-, -, -, -, -, -, -, e0, e1, -, -⟩ := jac_idx t
  show V c main_v2_2 (((cfg1.win 0).blk t).view.emb (ix2 r k)) = _
  congr 1
  funext a; apply Fin.ext
  match a with
  | ⟨0, _⟩ => show win1_0.index t (0 : Fin 2) * 32 + 1 * r.val = 32 * b + r.val; omega
  | ⟨1, _⟩ => show win1_0.index t (1 : Fin 2) * 512 + 1 * k.val = k.val; omega

/-- A point's row block of s2' holds rows 32·b … 32·b + 31 of the array, b the point's row tile. -/
private theorem blk1_at (c : Dev nD) (t : Fin cfg1.N) (b : Nat) (hb : t.val / 4 = b) (r : Fin 32) (h : Fin 128) (hr : 32 * b + r.val < 512) :
    blk1 V c 1 t (ix2 r h) = V c main_v2_3 (ix2 ⟨32 * b + r.val, hr⟩ h) := by
  obtain ⟨-, -, -, -, -, -, -, -, -, e0, e1⟩ := jac_idx t
  show V c main_v2_3 (((cfg1.win 1).blk t).view.emb (ix2 r h)) = _
  congr 1
  funext a; apply Fin.ext
  match a with
  | ⟨0, _⟩ => show win1_1.index t (0 : Fin 2) * 32 + 1 * r.val = 32 * b + r.val; omega
  | ⟨1, _⟩ => show win1_1.index t (1 : Fin 2) * 128 + 1 * h.val = h.val; omega

/-- Every point's block of W2 is W2 whole. -/
private theorem blk2_at (c : Dev nD) (t : Fin cfg1.N) : blk1 V c 2 t = V c main_arg3 := by
  obtain ⟨-, -, -, -, -, e0, e1, -, -, -, -⟩ := jac_idx t
  funext y
  show V c main_arg3 (((cfg1.win 2).blk t).view.emb y) = V c main_arg3 y
  congr 1
  funext a; apply Fin.ext
  match a with
  | ⟨0, _⟩ => show win1_2.index t (0 : Fin 2) * 128 + 1 * (y 0).val = (y 0).val; omega
  | ⟨1, _⟩ => show win1_2.index t (1 : Fin 2) * 512 + 1 * (y 1).val = (y 1).val; omega

/-- Point t's tile of W1 holds columns 256·(t mod 4) … +255 of the array. -/
private theorem blk3_at (c : Dev nD) (t : Fin cfg1.N) (k : Fin 512) (d : Fin 256) (hd : 256 * (t.val % 4) + d.val < 1024) :
    blk1 V c 3 t (ix2 k d) = V c main_arg1 (ix2 k ⟨256 * (t.val % 4) + d.val, hd⟩) := by
  obtain ⟨-, -, -, e0, e1, -, -, -, -, -, -⟩ := jac_idx t
  show V c main_arg1 (((cfg1.win 3).blk t).view.emb (ix2 k d)) = _
  congr 1
  funext a; apply Fin.ext
  match a with
  | ⟨0, _⟩ => show win1_3.index t (0 : Fin 2) * 512 + 1 * k.val = k.val; omega
  | ⟨1, _⟩ => show win1_3.index t (1 : Fin 2) * 256 + 1 * d.val = 256 * (t.val % 4) + d.val; omega

/-- One element of a written tile: with the row blocks holding rows 32·b + (0..31) of s1 and s2 and the W1 tile
    holding columns 256·q + (0..255), element j of the tile is the Jacobian at the array index i that sits at
    (32·b + j₀, j₁, 256·q + j₂). -/
private theorem jacOut_elt (s1 : Spec.Mat 512 512) (s2 : Spec.Mat 512 128) (w1 : Spec.Mat 512 1024)
    (x0 : Vec Ideal S32x512 .f32) (x1 : Vec Ideal S32x128 .f32) (x2 : Vec Ideal S128x512 .f32) (x3 : Vec Ideal S512x256 .f32)
    (b q : Nat) (hb : b < 16) (hq : q < 4)
    (h0 : ∀ (r : Fin 32) (k : Fin 512), x0 (ix2 r k) = s1 (ix2 ⟨32 * b + r.val, by have := r.isLt; omega⟩ k))
    (h1 : ∀ (r : Fin 32) (h : Fin 128), x1 (ix2 r h) = s2 (ix2 ⟨32 * b + r.val, by have := r.isLt; omega⟩ h))
    (h3 : ∀ (k : Fin 512) (d : Fin 256), x3 (ix2 k d) = w1 (ix2 k ⟨256 * q + d.val, by have := d.isLt; omega⟩))
    (j : S32x128x256.Idx) (i : S512x128x1024.Idx)
    (hi0 : (i 0).val = 32 * b + (j 0).val) (hi1 : (i 1).val = (j 1).val) (hi2 : (i 2).val = 256 * q + (j 2).val) :
    jacTile (F := Ideal) (prodTile x0 x1 x2) x3 j = Spec.jac s1 s2 x2 w1 i := by
  refine (congrArg (jacTile (F := Ideal) (prodTile x0 x1 x2) x3) (eq_ix3 j)).trans
    ((jacTile_at s1 s2 w1 x0 x1 x2 x3 (fun r => ⟨32 * b + r.val, by have := r.isLt; omega⟩)
      (fun d => ⟨256 * q + d.val, by have := d.isLt; omega⟩) h0 h1 h3 (j 0) (j 1) (j 2)).trans ?_)
  show _ = Spec.jacAt s1 s2 x2 w1 (i 0) (i 1) (i 2)
  have a0 : (⟨32 * b + (j 0).val, by have : (j 0).val < 32 := (j 0).isLt; omega⟩ : Fin 512) = i 0 := Fin.ext hi0.symm
  have a1 : (j 1 : Fin 128) = i 1 := Fin.ext hi1.symm
  have a2 : (⟨256 * q + (j 2).val, by have : (j 2).val < 256 := (j 2).isLt; omega⟩ : Fin 1024) = i 2 := Fin.ext hi2.symm
  show Spec.jacAt s1 s2 x2 w1 ⟨32 * b + (j 0).val, _⟩ (j 1) ⟨256 * q + (j 2).val, _⟩ = _
  rw [a0, a1, a2]

/-- WHAT POINT t WRITES BACK is its tile of the whole-array Jacobian of the arrays the call reads. -/
private theorem jacOut_flushed (c : Dev nD) (t : Fin cfg1.N) :
    (jacDat (F := Ideal) V c).flushed 4 t
      = ((cfg1.win 4).blk t).view.read (Elt Ideal)
          (Spec.jac (V c main_v2_2) (V c main_v2_3) (V c main_arg3) (V c main_arg1)) := by
  show (cfg1.win 4).cut (grid1.coords t) ((jacDat (F := Ideal) V c).after 4 t) = _
  rw [jacAfter_4]
  unfold prodAt
  rw [blk2_at V c (rowStart t)]
  obtain ⟨e0, e1, e2, -⟩ := jac_idx t
  have hN : t.val < 64 := lt_of_lt_of_eq t.isLt jac_N
  have hrs : (rowStart t).val / 4 = t.val / 4 := by show 4 * (t.val / 4) / 4 = t.val / 4; omega
  funext j
  show jacTile (F := Ideal) (prodTile (blk1 V c 0 (rowStart t)) (blk1 V c 1 (rowStart t)) (V c main_arg3)) (blk1 V c 3 t) j
      = Spec.jac (V c main_v2_2) (V c main_v2_3) (V c main_arg3) (V c main_arg1) (((cfg1.win 4).blk t).view.emb j)
  refine jacOut_elt (V c main_v2_2) (V c main_v2_3) (V c main_arg1) _ _ _ _ (t.val / 4) (t.val % 4) (by omega) (by omega)
    (fun r k => blk0_at V c (rowStart t) (t.val / 4) hrs r k _)
    (fun r h => blk1_at V c (rowStart t) (t.val / 4) hrs r h _)
    (fun k d => blk3_at V c t k d _) j _ ?_ ?_ ?_
  · show win1_4.index t (0 : Fin 3) * 32 + 1 * (j 0).val = 32 * (t.val / 4) + (j 0).val; omega
  · show win1_4.index t (1 : Fin 3) * 128 + 1 * (j 1).val = (j 1).val; omega
  · show win1_4.index t (2 : Fin 3) * 256 + 1 * (j 2).val = 256 * (t.val % 4) + (j 2).val; omega

/-- An index of the output array is in point t's tile iff each coordinate is in the tile's range on its axis. -/
private theorem jacOut_mem_blk (t : Fin cfg1.N) (i : S512x128x1024.Idx) :
    i ∈ ((cfg1.win 4).blk t).view.set ↔ ∀ a : Fin 3, win1_4.index t a * S32x128x256.size a ≤ (i a).val
      ∧ (i a).val < win1_4.index t a * S32x128x256.size a + S32x128x256.size a := by
  show i ∈ ((View.whole main_v3).slice (win1_4.rect t)).set ↔ _
  rw [View.set_slice_whole, Rect.mem_set_unit]
  exact Iff.rfl

/-- The 64 tiles cover the output array: index (b, h, d) is in the tile of point 4·(b / 32) + d / 256. -/
private theorem jacOut_cover (i : S512x128x1024.Idx) :
    ∃ t : Fin cfg1.N, (cfg1.win 4).flush t = true ∧ i ∈ ((cfg1.win 4).blk t).view.set := by
  have hi0 : (i 0).val < 512 := (i 0).isLt
  have hi1 : (i 1).val < 128 := (i 1).isLt
  have hi2 : (i 2).val < 1024 := (i 2).isLt
  obtain ⟨t, ht⟩ : ∃ t : Fin cfg1.N, t.val = 4 * ((i 0).val / 32) + (i 2).val / 256 :=
    ⟨⟨4 * ((i 0).val / 32) + (i 2).val / 256, lt_of_lt_of_eq (by omega) jac_N.symm⟩, rfl⟩
  obtain ⟨e0, e1, e2, -⟩ := jac_idx t
  refine ⟨t, flush1_4 t, ?_⟩
  rw [jacOut_mem_blk]
  intro a
  match a with
  | ⟨0, _⟩ => show win1_4.index t (0 : Fin 3) * 32 ≤ (i 0).val ∧ (i 0).val < win1_4.index t (0 : Fin 3) * 32 + 32; omega
  | ⟨1, _⟩ => show win1_4.index t (1 : Fin 3) * 128 ≤ (i 1).val ∧ (i 1).val < win1_4.index t (1 : Fin 3) * 128 + 128; omega
  | ⟨2, _⟩ => show win1_4.index t (2 : Fin 3) * 256 ≤ (i 2).val ∧ (i 2).val < win1_4.index t (2 : Fin 3) * 256 + 256; omega

theorem jac_array (c : Dev nD) :
    (jacDat (F := Ideal) V c).arrAt 4 cfg1.N
      = Spec.jac (V c main_v2_2) (V c main_v2_3) (V c main_arg3) (V c main_arg1) :=
  (jacDat (F := Ideal) V c).arrAt_eq_of_cover 4 _ (fun t _ => jacOut_flushed V c t) jacOut_cover

end Cert.KernelIdeal.Fr

end
-- ==== Proof.KI.Bridge.lean ====
/-
  The idealized kernel's three results as the specification's arrays of its LAUNCH memory: call 0 reads the
  arguments and the two transposes the host wrote, and leaves the reconstruction, the code and the two derivative
  arrays; call 1 reads the derivative arrays call 0 left, W2 and W1, and leaves the Jacobian.
-/
import proofs.«107210_j23785528885730_1_alg».proof.Proof.KI.Entry
import proofs.«107210_j23785528885730_1_alg».proof.Proof.KI.Val0
import proofs.«107210_j23785528885730_1_alg».proof.Proof.KI.Val1

set_option maxRecDepth 16384

noncomputable section

namespace Cert.KernelIdeal.Fr

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- W1ᵀ and W2ᵀ as the host forms them. -/
abbrev tr1 (a : Vec Ideal S512x1024 .f32) : Vec Ideal S1024x512 .f32 := transpose S1024x512 [1, 0] a transposes_S512x1024_S1024x512_1_0
abbrev tr2 (a : Vec Ideal S128x512 .f32) : Vec Ideal S512x128 .f32 := transpose S512x128 [1, 0] a transposes_S128x512_S512x128_1_0

theorem kernel_rec (c : Dev nD) :
    (mlpDat (F := Ideal) (V1 m ρ) c).arrAt 9 cfg0.N
      = Spec.recon (m ((c : Thread nD τ).loc main_arg0)) (tr1 (m ((c : Thread nD τ).loc main_arg1))) (m ((c : Thread nD τ).loc main_arg2)) (tr2 (m ((c : Thread nD τ).loc main_arg3))) (m ((c : Thread nD τ).loc main_arg4)) (m ((c : Thread nD τ).loc main_arg3)) (m ((c : Thread nD τ).loc main_arg5)) (m ((c : Thread nD τ).loc main_arg1)) (m ((c : Thread nD τ).loc main_arg6)) := by
  rw [rec_array, V1_arg0, V1_w1t, V1_arg2, V1_w2t, V1_arg4, V1_arg3, V1_arg5, V1_arg1, V1_arg6]

theorem kernel_code (c : Dev nD) :
    (mlpDat (F := Ideal) (V1 m ρ) c).arrAt 10 cfg0.N
      = Spec.code (m ((c : Thread nD τ).loc main_arg0)) (tr1 (m ((c : Thread nD τ).loc main_arg1))) (m ((c : Thread nD τ).loc main_arg2)) (tr2 (m ((c : Thread nD τ).loc main_arg3))) (m ((c : Thread nD τ).loc main_arg4)) := by
  rw [code_array, V1_arg0, V1_w1t, V1_arg2, V1_w2t, V1_arg4]

theorem kernel_jac (c : Dev nD) :
    (jacDat (F := Ideal) (V2 m ρ) c).arrAt 4 cfg1.N
      = Spec.jac (Spec.d1 (m ((c : Thread nD τ).loc main_arg0)) (tr1 (m ((c : Thread nD τ).loc main_arg1))) (m ((c : Thread nD τ).loc main_arg2)))
          (Spec.d2 (m ((c : Thread nD τ).loc main_arg0)) (tr1 (m ((c : Thread nD τ).loc main_arg1))) (m ((c : Thread nD τ).loc main_arg2)) (tr2 (m ((c : Thread nD τ).loc main_arg3))) (m ((c : Thread nD τ).loc main_arg4))) (m ((c : Thread nD τ).loc main_arg3)) (m ((c : Thread nD τ).loc main_arg1)) := by
  rw [jac_array, V2_d1, V2_d2, V2_w2, V2_w1, d1_array, d2_array, V1_arg0, V1_w1t, V1_arg2, V1_w2t, V1_arg4, V1_arg3, V1_arg1]

end Cert.KernelIdeal.Fr

end
-- ==== Proof.RefVal.lean ====
/-
  The reference's three results, read off its run one operation at a time, are the specification's arrays of its
  arguments: jnp's sigmoid is printed as 1/(1 + exp(−z)), which on the extended reals IS the logistic function, and
  each dot_general is the plain sum over its one contracted axis.
-/
import proofs.«107210_j23785528885730_1_alg».proof.Proof.Gen.ReferenceIdeal.Read
import proofs.«107210_j23785528885730_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefVal

open Cert.ReferenceIdeal Cert.ReferenceIdeal.Gen Cert.ReferenceIdeal.Read
open Idealize.ShloMosaic Idealize.ShloMosaic.TcCoe Idealize.ShloMosaic.ValueIdx

variable (x0 x1 : (⟨S512x1024, .f32⟩ : BufTy).Contents (Elt Ideal)) (x2 : (⟨S512, .f32⟩ : BufTy).Contents (Elt Ideal))
  (x3 : (⟨S128x512, .f32⟩ : BufTy).Contents (Elt Ideal)) (x4 : (⟨S128, .f32⟩ : BufTy).Contents (Elt Ideal))
  (x5 : (⟨S512, .f32⟩ : BufTy).Contents (Elt Ideal)) (x6 : (⟨S1024, .f32⟩ : BufTy).Contents (Elt Ideal))

/-! ## The number 1 and the sigmoid -/

/-- The f32 word of 1.0 denotes the number 1. -/
theorem one_word : Ideal.ofBits .f32 0x3F800000#32 = (1 : EReal) := by
  simp [Ideal.ofBits, Ideal.ieee, -EReal.coe_mul]; norm_num

/-- 1/(1 + e^{-z}), with each 1 spelled as the f32 word of 1.0, is the logistic function of z. -/
theorem sig_eq (z : EReal) :
    Ideal.div (Ideal.ofBits .f32 0x3F800000#32) (Ideal.ofBits .f32 0x3F800000#32 + Ideal.exp (-z)) = Ideal.logistic z := by
  rw [one_word]; rfl

/-! ## The composed index maps, by coordinates -/

theorem l1 (b j : Fin 512) (k : Fin 1024) : lidx_main_v1 (ix2 b j) k = ix2 b k :=
  funext fun a => Fin.ext (by match a with | ⟨0, _⟩ => rfl | ⟨1, _⟩ => rfl)
theorem r1 (b j : Fin 512) (k : Fin 1024) : ridx_main_v1 (ix2 b j) k = ix2 k j :=
  funext fun a => Fin.ext (by match a with | ⟨0, _⟩ => rfl | ⟨1, _⟩ => rfl)
theorem i3 (b j : Fin 512) : idx_main_v2 (idx_main_v3 (ix2 b j)) = ix1 j :=
  funext fun a => Fin.ext (by match a with | ⟨0, _⟩ => rfl)
theorem l12 (b : Fin 512) (h : Fin 128) (k : Fin 512) : lidx_main_v12 (ix2 b h) k = ix2 b k :=
  funext fun a => Fin.ext (by match a with | ⟨0, _⟩ => rfl | ⟨1, _⟩ => rfl)
theorem r12 (b : Fin 512) (h : Fin 128) (k : Fin 512) : ridx_main_v12 (ix2 b h) k = ix2 k h :=
  funext fun a => Fin.ext (by match a with | ⟨0, _⟩ => rfl | ⟨1, _⟩ => rfl)
theorem i14 (b : Fin 512) (h : Fin 128) : idx_main_v13 (idx_main_v14 (ix2 b h)) = ix1 h :=
  funext fun a => Fin.ext (by match a with | ⟨0, _⟩ => rfl)
theorem l22 (b j : Fin 512) (k : Fin 128) : lidx_main_v22 (ix2 b j) k = ix2 b k :=
  funext fun a => Fin.ext (by match a with | ⟨0, _⟩ => rfl | ⟨1, _⟩ => rfl)
theorem r22 (b j : Fin 512) (k : Fin 128) : ridx_main_v22 (ix2 b j) k = ix2 k j :=
  funext fun a => Fin.ext (by match a with | ⟨0, _⟩ => rfl | ⟨1, _⟩ => rfl)
theorem i24 (b j : Fin 512) : idx_main_v23 (idx_main_v24 (ix2 b j)) = ix1 j :=
  funext fun a => Fin.ext (by match a with | ⟨0, _⟩ => rfl)
theorem l32 (b : Fin 512) (d : Fin 1024) (k : Fin 512) : lidx_main_v32 (ix2 b d) k = ix2 b k :=
  funext fun a => Fin.ext (by match a with | ⟨0, _⟩ => rfl | ⟨1, _⟩ => rfl)
theorem r32 (b : Fin 512) (d : Fin 1024) (k : Fin 512) : ridx_main_v32 (ix2 b d) k = ix2 k d :=
  funext fun a => Fin.ext (by match a with | ⟨0, _⟩ => rfl | ⟨1, _⟩ => rfl)
theorem i34 (b : Fin 512) (d : Fin 1024) : idx_main_v33 (idx_main_v34 (ix2 b d)) = ix1 d :=
  funext fun a => Fin.ext (by match a with | ⟨0, _⟩ => rfl)
theorem l50 (b : Fin 512) (h : Fin 128) (d : Fin 1024) (k : Fin 512) : lidx_main_v50 (ix3 b h d) k = ix3 b h k :=
  funext fun a => Fin.ext (by match a with | ⟨0, _⟩ => rfl | ⟨1, _⟩ => rfl | ⟨2, _⟩ => rfl)
theorem r50 (b : Fin 512) (h : Fin 128) (d : Fin 1024) (k : Fin 512) : ridx_main_v50 (ix3 b h d) k = ix2 k d :=
  funext fun a => Fin.ext (by match a with | ⟨0, _⟩ => rfl | ⟨1, _⟩ => rfl)
theorem i44 (b : Fin 512) (h : Fin 128) (k : Fin 512) : idx_main_v42 (idx_main_v44 (ix3 b h k)) = ix2 b h :=
  funext fun a => Fin.ext (by match a with | ⟨0, _⟩ => rfl | ⟨1, _⟩ => rfl)
theorem i45 (b : Fin 512) (h : Fin 128) (k : Fin 512) : idx_main_v43 (idx_main_v45 (ix3 b h k)) = ix2 h k :=
  funext fun a => Fin.ext (by match a with | ⟨0, _⟩ => rfl | ⟨1, _⟩ => rfl)
theorem i48 (b : Fin 512) (h : Fin 128) (k : Fin 512) : idx_main_v47 (idx_main_v48 (ix3 b h k)) = ix2 b k :=
  funext fun a => Fin.ext (by match a with | ⟨0, _⟩ => rfl | ⟨1, _⟩ => rfl)

/-! ## The stages, one element at a time -/

/-- The first hidden layer: σ(x·W1ᵀ + b1). -/
theorem c1_eq (b j : Fin 512) :
    val_main_v10 (F := Ideal) x0 x1 x2 (ix2 b j) = Spec.c1At x0 (val_main_v0 (F := Ideal) x1) x2 b j := by
  rw [val_main_v10_apply, val_main_v9_apply, val_main_cst_0_apply, val_main_v8_apply, val_main_v7_apply,
    val_main_cst_apply, val_main_v6_apply, val_main_v5_apply, val_main_v4_apply, val_main_v1_apply,
    val_main_v3_apply, val_main_v2_apply]
  simp only [l1, r1, i3]
  exact sig_eq _

/-- The code: σ(c1·W2ᵀ + b2). -/
theorem c2_eq (b : Fin 512) (h : Fin 128) :
    val_main_v21 (F := Ideal) x0 x1 x2 x3 x4 (ix2 b h)
      = Spec.c2At x0 (val_main_v0 (F := Ideal) x1) x2 (val_main_v11 (F := Ideal) x3) x4 b h := by
  rw [val_main_v21_apply, val_main_v20_apply, val_main_cst_2_apply, val_main_v19_apply, val_main_v18_apply,
    val_main_cst_1_apply, val_main_v17_apply, val_main_v16_apply, val_main_v15_apply, val_main_v12_apply,
    val_main_v14_apply, val_main_v13_apply]
  simp only [l12, r12, i14, c1_eq]
  exact sig_eq _

/-- The second hidden layer: σ(c2·W2 + b3). -/
theorem c3_eq (b j : Fin 512) :
    val_main_v31 (F := Ideal) x0 x1 x2 x3 x4 x5 (ix2 b j)
      = Spec.c3At x0 (val_main_v0 (F := Ideal) x1) x2 (val_main_v11 (F := Ideal) x3) x4 x3 x5 b j := by
  rw [val_main_v31_apply, val_main_v30_apply, val_main_cst_4_apply, val_main_v29_apply, val_main_v28_apply,
    val_main_cst_3_apply, val_main_v27_apply, val_main_v26_apply, val_main_v25_apply, val_main_v22_apply,
    val_main_v24_apply, val_main_v23_apply]
  simp only [l22, r22, i24, c2_eq]
  exact sig_eq _

/-- The reconstruction: c3·W1 + b_r. -/
theorem rec_eq (b : Fin 512) (d : Fin 1024) :
    val_main_v35 (F := Ideal) x0 x1 x2 x3 x4 x5 x6 (ix2 b d)
      = Spec.recAt x0 (val_main_v0 (F := Ideal) x1) x2 (val_main_v11 (F := Ideal) x3) x4 x3 x5 x1 x6 b d := by
  rw [val_main_v35_apply, val_main_v32_apply, val_main_v34_apply, val_main_v33_apply]
  simp only [l32, r32, i34, c3_eq]
  rfl

/-- The first sigmoid's derivative, c1·(1 − c1). -/
theorem s1_eq (b k : Fin 512) :
    val_main_v38 (F := Ideal) x0 x1 x2 (ix2 b k) = Spec.d1 x0 (val_main_v0 (F := Ideal) x1) x2 (ix2 b k) := by
  rw [val_main_v38_apply, val_main_v37_apply, val_main_v36_apply, val_main_cst_5_apply, c1_eq]
  rfl

/-- The second sigmoid's derivative, c2·(1 − c2). -/
theorem s2_eq (b : Fin 512) (h : Fin 128) :
    val_main_v41 (F := Ideal) x0 x1 x2 x3 x4 (ix2 b h)
      = Spec.d2 x0 (val_main_v0 (F := Ideal) x1) x2 (val_main_v11 (F := Ideal) x3) x4 (ix2 b h) := by
  rw [val_main_v41_apply, val_main_v40_apply, val_main_v39_apply, val_main_cst_6_apply, c2_eq]
  rfl

/-- The Jacobian's summand before the last contraction: (s2[b,h]·W2[h,k])·s1[b,k]. -/
theorem v49_eq (b : Fin 512) (h : Fin 128) (k : Fin 512) :
    val_main_v49 (F := Ideal) x0 x1 x2 x3 x4 (ix3 b h k)
      = (Spec.d2 x0 (val_main_v0 (F := Ideal) x1) x2 (val_main_v11 (F := Ideal) x3) x4 (ix2 b h) * x3 (ix2 h k))
          * Spec.d1 x0 (val_main_v0 (F := Ideal) x1) x2 (ix2 b k) := by
  rw [val_main_v49_apply, val_main_v46_apply, val_main_v44_apply, val_main_v42_apply, val_main_v45_apply,
    val_main_v43_apply, val_main_v48_apply, val_main_v47_apply]
  simp only [i44, i45, i48, s1_eq, s2_eq]
  rfl

/-! ## The three results as whole arrays -/

theorem recon_eq :
    val_main_v35 (F := Ideal) x0 x1 x2 x3 x4 x5 x6
      = Spec.recon x0 (val_main_v0 (F := Ideal) x1) x2 (val_main_v11 (F := Ideal) x3) x4 x3 x5 x1 x6 := by
  funext i
  obtain ⟨b, d, rfl⟩ : ∃ (b : Fin 512) (d : Fin 1024), i = ix2 b d := ⟨i 0, i 1, eq_ix2 i⟩
  exact rec_eq x0 x1 x2 x3 x4 x5 x6 b d

theorem code_eq :
    val_main_v21 (F := Ideal) x0 x1 x2 x3 x4
      = Spec.code x0 (val_main_v0 (F := Ideal) x1) x2 (val_main_v11 (F := Ideal) x3) x4 := by
  funext i
  obtain ⟨b, h, rfl⟩ : ∃ (b : Fin 512) (h : Fin 128), i = ix2 b h := ⟨i 0, i 1, eq_ix2 i⟩
  exact c2_eq x0 x1 x2 x3 x4 b h

theorem jac_eq :
    val_main_v50 (F := Ideal) x0 x1 x2 x3 x4
      = Spec.jac (Spec.d1 x0 (val_main_v0 (F := Ideal) x1) x2)
          (Spec.d2 x0 (val_main_v0 (F := Ideal) x1) x2 (val_main_v11 (F := Ideal) x3) x4) x3 x1 := by
  funext i
  obtain ⟨b, h, d, rfl⟩ : ∃ (b : Fin 512) (h : Fin 128) (d : Fin 1024), i = ix3 b h d := ⟨i 0, i 1, i 2, eq_ix3 i⟩
  rw [val_main_v50_apply]
  simp only [l50, r50, v49_eq]
  rfl

end Cert.ReferenceIdeal.RefVal

end
-- ==== Proof.lean ====
/-
  The certificate of the two-layer sigmoid autoencoder kernel against its jnp reference.

  Both programs compute, on the extended reals, c1 = σ(x·W1ᵀ + b1), c2 = σ(c1·W2ᵀ + b2), c3 = σ(c2·W2 + b3),
  rec = c3·W1 + b_r and the code's Jacobian J[b,h,d] = Σ_k (s2[b,h]·W2[h,k]·s1[b,k])·W1[k,d] with s = c·(1 − c)
  (Proof/Spec.lean).  The kernel does it in two tiled calls — the first over four 128-row tiles, the second over a
  16×4 grid of (32-row, 256-column) tiles with the product tile s2·W2·s1 kept in a scratch across the column steps —
  the reference in whole-array operations; a tile of a matrix product is the product's rows and columns restricted,
  with the SAME sum over the contracted coordinate, so no law of arithmetic beyond re-indexing is used and the
  precondition (finite inputs) is never opened.
  Frames: each kernel program runs as host transposes, then the two calls, every call's body obligation proved at
  every grid point (Proof/KI, Proof/K); the reference's run is its list of host operations.
-/
import proofs.«107210_j23785528885730_1_alg».proof.Defs
import proofs.«107210_j23785528885730_1_alg».proof.Proof.Gen.Kernel
import proofs.«107210_j23785528885730_1_alg».proof.Proof.Gen.KernelIdeal
import proofs.«107210_j23785528885730_1_alg».proof.Proof.Gen.ReferenceIdeal
import proofs.«107210_j23785528885730_1_alg».proof.Proof.Gen.Pre_finite_inputs
import proofs.«107210_j23785528885730_1_alg».proof.Proof.Gen.ReferenceIdeal.Run
import proofs.«107210_j23785528885730_1_alg».proof.Proof.Gen.ReferenceIdeal.Read
import proofs.«107210_j23785528885730_1_alg».proof.Proof.K.Run
import proofs.«107210_j23785528885730_1_alg».proof.Proof.KI.Bridge
import proofs.«107210_j23785528885730_1_alg».proof.Proof.RefVal
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- The two runs side by side: the kernel's results are the specification's arrays of its launch memory, the
    reference's the same arrays of its own, and the two memories agree on the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _,
    (θ_run Cert.KernelIdeal.defs _ _).mono (fun _ h c => ⟨(h c).1.trans (Cert.KernelIdeal.Fr.kernel_rec m ρ c),
      (h c).2.1.trans (Cert.KernelIdeal.Fr.kernel_code m ρ c), (h c).2.2.1.trans (Cert.KernelIdeal.Fr.kernel_jac m ρ c), (h c).2.2.2⟩)
      (Cert.KernelIdeal.Fr.run_results (F := Ideal) m ρ), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · refine (Cert.ReferenceIdeal.Read.val_main_v35_eq _ _ _ _ _ _ _).trans ?_
    rw [Cert.ReferenceIdeal.RefVal.recon_eq, (hagree c).1, (hagree c).2.1, (hagree c).2.2.1, (hagree c).2.2.2.1, (hagree c).2.2.2.2.1,
      (hagree c).2.2.2.2.2.1, (hagree c).2.2.2.2.2.2]
    rfl
  · refine (Cert.ReferenceIdeal.Read.val_main_v21_eq _ _ _ _ _).trans ?_
    rw [Cert.ReferenceIdeal.RefVal.code_eq, (hagree c).1, (hagree c).2.1, (hagree c).2.2.1, (hagree c).2.2.2.1, (hagree c).2.2.2.2.1]
    rfl
  · refine (Cert.ReferenceIdeal.Read.val_main_v50_eq m' c).trans ?_
    rw [Cert.ReferenceIdeal.RefVal.jac_eq, (hagree c).1, (hagree c).2.1, (hagree c).2.2.1, (hagree c).2.2.2.1, (hagree c).2.2.2.2.1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
